-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x3 : Shape := ⟨3, ![32, 4096, 3]⟩
abbrev S32x1x4096 : Shape := ⟨3, ![32, 1, 4096]⟩
abbrev S128x3 : Shape := ⟨2, ![128, 3]⟩
abbrev S128 : Shape := ⟨1, ![128]⟩
abbrev S256x128 : Shape := ⟨2, ![256, 128]⟩
abbrev S256 : Shape := ⟨1, ![256]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S32x4096x3 : S_.BroadcastsInDim S32x4096x3 (![] : Fin 0 → Fin S32x4096x3.rank)
  reducesTo_S32x4096x3_S_d0_1_2 : S32x4096x3.ReducesTo [0, 1, 2] S_
  h_S_ : 0 < S_.numel
  bcast_S_S128x3 : S_.BroadcastsInDim S128x3 (![] : Fin 0 → Fin S128x3.rank)
  reducesTo_S128x3_S_d0_1 : S128x3.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg8 : FVec F S512 .f32) (main_arg9 : FVec F S512 .f32) (main_arg10 : FVec F S1024x512 .f32) (main_arg11 : FVec F S1024 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1024x512 .f32 := Host.absf main_arg10
  let main_cst_16 : FVec F S_ .f32 := constant S_ .f32 0x7F800000#32
  let main_v45 : FVec F S1024x512 .f32 := broadcastInDim S1024x512 ![] bcast_S_S1024x512 main_cst_16
  let main_v46 : IVec S1024x512 1 := cmpf .olt main_v44 main_v45
  let main_c_17 : IVec S_ 1 := constantI S_ 1 1#1
  let main_v47 : IVec S_ 1 := (fun x v => Host.reduce IntOp.andi x v reducesTo_S1024x512_S_d0_1 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg5 : FVec F S256x128 .f32) (main_arg6 : FVec F S256 .f32) (main_arg7 : FVec F S512x512 .f32) (main_arg8 : FVec F S512 .f32) (main_arg9 : FVec F S512 .f32) (main_arg10 : FVec F S1024x512 .f32) (main_arg11 : FVec F S1024 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S32x4096x3 .f32) (main_arg1 : IVec S32x1x4096 32) (main_arg2 : FVec F S128x3 .f32) (main_arg3 : FVec F S128 .f32) (main_arg4 : FVec F S128 .f32) (main_arg5 : FVec F S256x128 .f32) (main_arg6 : FVec F S256 .f32) (main_arg7 : FVec F S512x512 .f32) (main_arg8 : FVec F S512 .f32) (main_arg9 : FVec F S512 .f32) (main_arg10 : FVec F S1024x512 .f32) (main_arg11 : FVec F S1024 .f32) : IVec S_ 1 :=
  let main_v0 : FVec F S32x4096x3 .f32 := Host.absf main_arg0
  let main_cst : FVec F S_ .f32 := constant S_ .f32 0x7F800000#32
  let main_v1 : FVec F S32x4096x3 .f32 := broadcastInDim S32x4096x3 ![] bcast_S_S32x4096x3 main_cst
  let main_v2 : IVec S32x4096x3 1 := cmpf .olt main_v0 main_v1
  let main_c : IVec S_ 1 := constantI S_ 1 1#1
  let main_v3 : IVec S_ 1 := (fun x v => Host.reduce IntOp.andi x v reducesTo_S32x4096x3_S_d0_1_2 h_S_) main_v2 main_c
  let main_v4 : FVec F S128x3 .f32 := Host.absf main_arg2
  let main_cst_0 : FVec F S_ .f32 := constant S_ .f32 0x7F800000#32
  let main_v5 : FVec F S128x3 .f32 := broadcastInDim S128x3 ![] bcast_S_S128x3 main_cst_0
  let main_v6 : IVec S128x3 1 := cmpf .olt main_v4 main_v5
  let main_c_1 : IVec S_ 1 := constantI S_ 1 1#1
  let main_v7 : IVec S_ 1 := (fun x v => Host.reduce IntOp.andi x v reducesTo_S128x3_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S32x4096x3 : Shape := ⟨3, ![32, 4096, 3]⟩
abbrev S32x1x4096 : Shape := ⟨3, ![32, 1, 4096]⟩
abbrev S128x3 : Shape := ⟨2, ![128, 3]⟩
abbrev S128 : Shape := ⟨1, ![128]⟩
abbrev S256x128 : Shape := ⟨2, ![256, 128]⟩
abbrev S256 : Shape := ⟨1, ![256]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S32x3x4096 : Shape := ⟨3, ![32, 3, 4096]⟩
abbrev S128x1 : Shape := ⟨2, ![128, 1]⟩
abbrev S256x1 : Shape := ⟨2, ![256, 1]⟩
abbrev S512x1 : Shape := ⟨2, ![512, 1]⟩
abbrev S1024x1 : Shape := ⟨2, ![1024, 1]⟩
abbrev S32x256x4096 : Shape := ⟨3, ![32, 256, 4096]⟩
abbrev S32x256x1 : Shape := ⟨3, ![32, 256, 1]⟩
abbrev S1x3x4096 : Shape := ⟨3, ![1, 3, 4096]⟩
abbrev S1x1x4096 : Shape := ⟨3, ![1, 1, 4096]⟩
abbrev S1x256x4096 : Shape := ⟨3, ![1, 256, 4096]⟩
abbrev S1x256x1 : Shape := ⟨3, ![1, 256, 1]⟩
abbrev S3x4096 : Shape := ⟨2, ![3, 4096]⟩
abbrev S1x4096 : Shape := ⟨2, ![1, 4096]⟩
abbrev S128x4096 : Shape := ⟨2, ![128, 4096]⟩
abbrev S4096 : Shape := ⟨1, ![4096]⟩
abbrev S256x4096 : Shape := ⟨2, ![256, 4096]⟩
abbrev S32x1x1024 : Shape := ⟨3, ![32, 1, 1024]⟩
abbrev S1x256x1024 : Shape := ⟨3, ![1, 256, 1024]⟩
abbrev S1x1x1024 : Shape := ⟨3, ![1, 1, 1024]⟩
abbrev S256x1024 : Shape := ⟨2, ![256, 1024]⟩
abbrev S1x1024 : Shape := ⟨2, ![1, 1024]⟩
abbrev S512x1024 : Shape := ⟨2, ![512, 1024]⟩
abbrev S1024x1024 : Shape := ⟨2, ![1024, 1024]⟩
abbrev S32x1024 : Shape := ⟨2, ![32, 1024]⟩

abbrev nBuf : Space → Nat
  | .hbm => 23
  | .vmem => 27
  | .smem => 0
  | _ => 0

abbrev bufTy : (tb : Table) → Fin (tcTables nBuf tb) → BufTy
  | .hbm, ⟨0, _⟩ => ⟨S32x4096x3, .f32⟩
  | .hbm, ⟨1, _⟩ => ⟨S32x1x4096, .i32⟩
  | .hbm, ⟨2, _⟩ => ⟨S128x3, .f32⟩
  | .hbm, ⟨3, _⟩ => ⟨S128, .f32⟩
  | .hbm, ⟨4, _⟩ => ⟨S128, .f32⟩
  | .hbm, ⟨5, _⟩ => ⟨S256x128, .f32⟩
  | .hbm, ⟨6, _⟩ => ⟨S256, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S1024x512, .f32⟩
  | .hbm, ⟨11, _⟩ => ⟨S1024, .f32⟩
  | .hbm, ⟨12, _⟩ => ⟨S32x3x4096, .f32⟩
  | .hbm, ⟨13, _⟩ => ⟨S128x1, .f32⟩
  | .hbm, ⟨14, _⟩ => ⟨S128x1, .f32⟩
  | .hbm, ⟨15, _⟩ => ⟨S256x1, .f32⟩
  | .hbm, ⟨16, _⟩ => ⟨S512x1, .f32⟩
  | .hbm, ⟨17, _⟩ => ⟨S512x1, .f32⟩
  | .hbm, ⟨18, _⟩ => ⟨S1024x1, .f32⟩
  | .hbm, ⟨19, _⟩ => ⟨S32x256x4096, .f32⟩
  | .hbm, ⟨20, _⟩ => ⟨S32x256x1, .f32⟩
  | .hbm, ⟨21, _⟩ => ⟨S32x1x1024, .f32⟩
  | .hbm, ⟨22, _⟩ => ⟨S32x1024, .f32⟩
  | .local _ .vmem, ⟨0, _⟩ => ⟨S1x3x4096, .f32⟩
  | .local _ .vmem, ⟨1, _⟩ => ⟨S1x3x4096, .f32⟩
  | .local _ .vmem, ⟨2, _⟩ => ⟨S1x1x4096, .i32⟩
  | .local _ .vmem, ⟨3, _⟩ => ⟨S1x1x4096, .i32⟩
  | .local _ .vmem, ⟨4, _⟩ => ⟨S128x3, .f32⟩
  | .local _ .vmem, ⟨5, _⟩ => ⟨S128x1, .f32⟩
  | .local _ .vmem, ⟨6, _⟩ => ⟨S128x1, .f32⟩
  | .local _ .vmem, ⟨7, _⟩ => ⟨S256x128, .f32⟩
  | .local _ .vmem, ⟨8, _⟩ => ⟨S256x1, .f32⟩
  | .local _ .vmem, ⟨9, _⟩ => ⟨S1x256x4096, .f32⟩
  | .local _ .vmem, ⟨10, _⟩ => ⟨S1x256x4096, .f32⟩
  | .local _ .vmem, ⟨11, _⟩ => ⟨S1x256x1, .f32⟩
  | .local _ .vmem, ⟨12, _⟩ => ⟨S1x256x1, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1, .f32⟩
  | .local _ .vmem, ⟨16, _⟩ => ⟨S1x256x1, .f32⟩
  | .local _ .vmem, ⟨17, _⟩ => ⟨S1x1x1024, .i32⟩
  | .local _ .vmem, ⟨18, _⟩ => ⟨S1x1x1024, .i32⟩
  | .local _ .vmem, ⟨19, _⟩ => ⟨S512x512, .f32⟩
  | .local _ .vmem, ⟨20, _⟩ => ⟨S512x1, .f32⟩
  | .local _ .vmem, ⟨21, _⟩ => ⟨S512x1, .f32⟩
  | .local _ .vmem, ⟨22, _⟩ => ⟨S1024x512, .f32⟩
  | .local _ .vmem, ⟨23, _⟩ => ⟨S1024x1, .f32⟩
  | .local _ .vmem, ⟨24, _⟩ => ⟨S1x1x1024, .f32⟩
  | .local _ .vmem, ⟨25, _⟩ => ⟨S1x1x1024, .f32⟩
  | .local _ .vmem, ⟨26, _⟩ => ⟨S1024x1, .f32⟩
  | _, _ => ⟨S32x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![32, 4], ![false, false]⟩

def k1_cond2 (i : grid1.Coords) : BitVec 1 :=
  let arg1 : BitVec 32 := BitVec.ofNat 32 (i 1).val
  let c3_i32 : BitVec 32 := 3#32
  let v65 : BitVec 1 := Scalar.cmpi .eq arg1 c3_i32
  let v66 : BitVec 32 := Scalar.extui v65
  let c0_i32_32 : BitVec 32 := 0#32
  let v67 : BitVec 1 := Scalar.cmpi .ne v66 c0_i32_32
  v67

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1024x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x1x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  transposes_S32x4096x3_S32x3x4096_0_2_1 : S32x4096x3.Transposes [0, 2, 1] S32x3x4096
  shapeCasts_S128_S128x1 : S128.ShapeCasts S128x1
  shapeCasts_S256_S256x1 : S256.ShapeCasts S256x1
  shapeCasts_S512_S512x1 : S512.ShapeCasts S512x1
  shapeCasts_S1024_S1024x1 : S1024.ShapeCasts S1024x1
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  natLt_1_32 : 1 < 32
  inb_S128x3_S128x3_0_0 : ∀ a, (![0, 0] : Fin 2 → Nat) a + S128x3.size a ≤ S128x3.size a
  h_S128x3 : 0 < S128x3.numel
  bitsLt_bf16_f32 : FTy.bits .bf16 < FTy.bits .f32
  reduces_S128x4096_S4096 : S128x4096.Reduces [0] S4096
  shapeCasts_S4096_S1x4096 : S4096.ShapeCasts S1x4096
  broadcasts_S1x4096_S128x4096 : S1x4096.Broadcasts S128x4096
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  inb_S256x128_S256x128_0_0 : ∀ a, (![0, 0] : Fin 2 → Nat) a + S256x128.size a ≤ S256x128.size a
  h_S256x128 : 0 < S256x128.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  reduces_S256x4096_S256 : S256x4096.Reduces [1] S256
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S256x1_S256x1024 : S256x1.Broadcasts S256x1024
  concatenates_S256x1024_S256x1024_S512x1024_d0 : Shape.Concatenates [S256x1024, S256x1024] S512x1024 0
  inb_S512x512_S512x512_0_0 : ∀ a, (![0, 0] : Fin 2 → Nat) a + S512x512.size a ≤ S512x512.size a
  h_S512x512 : 0 < S512x512.numel
  reduces_S512x1024_S1024 : S512x1024.Reduces [0] S1024
  shapeCasts_S1024_S1x1024 : S1024.ShapeCasts S1x1024
  broadcasts_S1x1024_S512x1024 : S1x1024.Broadcasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  inb_S1024x512_S1024x512_0_0 : ∀ a, (![0, 0] : Fin 2 → Nat) a + S1024x512.size a ≤ S1024x512.size a
  h_S1024x512 : 0 < S1024x512.numel
  broadcasts_S1024x1_S1024x1024 : S1024x1.Broadcasts S1024x1024
  reduces_S1024x1024_S1024 : S1024x1024.Reduces [1] S1024
  transposes_S1024x1_p1_0_S1x1024 : S1024x1.Transposes [1, 0] S1x1024
  shapeCasts_S1x1024_S1x1x1024 : S1x1024.ShapeCasts S1x1x1024
  shapeCasts_S32x1x1024_S32x1024 : S32x1x1024.ShapeCasts S32x1024
  dot_S128x3_S3x4096_S128x4096_1_0_0_1_n_n_wf : DotDims.WF S128x3 S3x4096 S128x4096 [1] [0] [0] [1] [] []
  dot_S256x128_S128x4096_S256x4096_1_0_0_1_n_n_wf : DotDims.WF S256x128 S128x4096 S256x4096 [1] [0] [0] [1] [] []
  dot_S512x512_S512x1024_S512x1024_1_0_0_1_n_n_wf : DotDims.WF S512x512 S512x1024 S512x1024 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x4096.size a ≤ S32x3x4096.size a
  hwx0_0 : ∀ i : grid0.Coords, EltTy.bits .f32 = 32 ∨ (Rect.block (s := S32x3x4096) S1x3x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S32x1x4096.size a
  hwx0_1 : ∀ i : grid0.Coords, EltTy.bits .i32 = 32 ∨ (Rect.block (s := S32x1x4096) S1x1x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x3.size a ≤ S128x3.size a
  hwx0_2 : ∀ i : grid0.Coords, EltTy.bits .f32 = 32 ∨ (Rect.block (s := S128x3) S128x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x4096.size a ≤ S32x256x4096.size a
  hwx0_7 : ∀ i : grid0.Coords, EltTy.bits .f32 = 32 ∨ (Rect.block (s := S32x256x4096) S1x256x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x1.size a ≤ S32x256x1.size a
  hwx0_8 : ∀ i : grid0.Coords, EltTy.bits .f32 = 32 ∨ (Rect.block (s := S32x256x1) S1x256x1.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S32x256x4096.size a
  hwx1_0 : ∀ i : grid1.Coords, EltTy.bits .f32 = 32 ∨ (Rect.block (s := S32x256x4096) S1x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1.size a ≤ S32x256x1.size a
  hwx1_1 : ∀ i : grid1.Coords, EltTy.bits .f32 = 32 ∨ (Rect.block (s := S32x256x1) S1x256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S32x1x4096.size a
  hwx1_2 : ∀ i : grid1.Coords, EltTy.bits .i32 = 32 ∨ (Rect.block (s := S32x1x4096) S1x1x1024.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S512x1.size a
  hwx1_4 : ∀ i : grid1.Coords, EltTy.bits .f32 = 32 ∨ (Rect.block (s := S512x1) S512x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S512x1.size a
  hwx1_5 : ∀ i : grid1.Coords, EltTy.bits .f32 = 32 ∨ (Rect.block (s := S512x1) S512x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S1024x512.size a
  hwx1_6 : ∀ i : grid1.Coords, EltTy.bits .f32 = 32 ∨ (Rect.block (s := S1024x512) S1024x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S1024x1.size a
  hwx1_7 : ∀ i : grid1.Coords, EltTy.bits .f32 = 32 ∨ (Rect.block (s := S1024x1) S1024x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x1024.size a ≤ S32x1x1024.size a
  hwx1_8 : ∀ i : grid1.Coords, EltTy.bits .f32 = 32 ∨ (Rect.block (s := S32x1x1024) S1x1x1024.size (cc1_transform_8 i) (hinb1_8 i)).WholeWords (EltTy.packing .f32)

variable [Facts₀]

def dot_S128x3_S3x4096_S128x4096_1_0_0_1_n_n : DotDims S128x3 S3x4096 S128x4096 where
  lhsContracting := [1]
  rhsContracting := [0]
  lhsNonContracting := [0]
  rhsNonContracting := [1]
  lhsBatch := []
  rhsBatch := []
  wf := dot_S128x3_S3x4096_S128x4096_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1x3x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S1x256x4096.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S1x256x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v7_0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S1x256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S512x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S512x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S1024x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S1024x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S1x1x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S32x4096x3 : Shape := ⟨3, ![32, 4096, 3]⟩
abbrev S32x1x4096 : Shape := ⟨3, ![32, 1, 4096]⟩
abbrev S128x3 : Shape := ⟨2, ![128, 3]⟩
abbrev S128 : Shape := ⟨1, ![128]⟩
abbrev S256x128 : Shape := ⟨2, ![256, 128]⟩
abbrev S256 : Shape := ⟨1, ![256]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S32x4096 : Shape := ⟨2, ![32, 4096]⟩
abbrev S_ : Shape := ⟨0, ![]⟩
abbrev S32x4096x1 : Shape := ⟨3, ![32, 4096, 1]⟩
abbrev S32x4096x128 : Shape := ⟨3, ![32, 4096, 128]⟩
abbrev S1x1x128 : Shape := ⟨3, ![1, 1, 128]⟩
abbrev S32x4096x256 : Shape := ⟨3, ![32, 4096, 256]⟩
abbrev S1x1x256 : Shape := ⟨3, ![1, 1, 256]⟩
abbrev S32x256 : Shape := ⟨2, ![32, 256]⟩
abbrev S32x1x256 : Shape := ⟨3, ![32, 1, 256]⟩
abbrev S32x4096x512 : Shape := ⟨3, ![32, 4096, 512]⟩
abbrev S1x1x512 : Shape := ⟨3, ![1, 1, 512]⟩
abbrev S32x4096x1024 : Shape := ⟨3, ![32, 4096, 1024]⟩
abbrev S1x1x1024 : Shape := ⟨3, ![1, 1, 1024]⟩
abbrev S32x1024 : Shape := ⟨2, ![32, 1024]⟩

abbrev nBuf : Space → Nat
  | .hbm => 103
  | .vmem => 0
  | .smem => 0
  | _ => 0

abbrev bufTy : (tb : Table) → Fin (tcTables nBuf tb) → BufTy
  | .hbm, ⟨0, _⟩ => ⟨S32x4096x3, .f32⟩
  | .hbm, ⟨1, _⟩ => ⟨S32x1x4096, .i32⟩
  | .hbm, ⟨2, _⟩ => ⟨S128x3, .f32⟩
  | .hbm, ⟨3, _⟩ => ⟨S128, .f32⟩
  | .hbm, ⟨4, _⟩ => ⟨S128, .f32⟩
  | .hbm, ⟨5, _⟩ => ⟨S256x128, .f32⟩
  | .hbm, ⟨6, _⟩ => ⟨S256, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S1024x512, .f32⟩
  | .hbm, ⟨11, _⟩ => ⟨S1024, .f32⟩
  | .hbm, ⟨12, _⟩ => ⟨S32x4096, .i32⟩
  | .hbm, ⟨13, _⟩ => ⟨S_, .i32⟩
  | .hbm, ⟨14, _⟩ => ⟨S32x4096, .i32⟩
  | .hbm, ⟨15, _⟩ => ⟨S32x4096, .i1⟩
  | .hbm, ⟨16, _⟩ => ⟨S32x4096, .f32⟩
  | .hbm, ⟨17, _⟩ => ⟨S32x4096x1, .f32⟩
  | .hbm, ⟨18, _⟩ => ⟨S32x4096x128, .f32⟩
  | .hbm, ⟨19, _⟩ => ⟨S_, .f32⟩
  | .hbm, ⟨20, _⟩ => ⟨S32x4096, .f32⟩
  | .hbm, ⟨21, _⟩ => ⟨S32x4096x1, .f32⟩
  | .hbm, ⟨22, _⟩ => ⟨S_, .f32⟩
  | .hbm, ⟨23, _⟩ => ⟨S32x4096x1, .f32⟩
  | .hbm, ⟨24, _⟩ => ⟨S32x4096x1, .f32⟩
  | .hbm, ⟨25, _⟩ => ⟨S32x4096x128, .f32⟩
  | .hbm, ⟨26, _⟩ => ⟨S32x4096x128, .f32⟩
  | .hbm, ⟨27, _⟩ => ⟨S32x4096x128, .f32⟩
  | .hbm, ⟨28, _⟩ => ⟨S_, .f32⟩
  | .hbm, ⟨29, _⟩ => ⟨S32x4096, .f32⟩
  | .hbm, ⟨30, _⟩ => ⟨S32x4096x1, .f32⟩
  | .hbm, ⟨31, _⟩ => ⟨S_, .f32⟩
  | .hbm, ⟨32, _⟩ => ⟨S32x4096x1, .f32⟩
  | .hbm, ⟨33, _⟩ => ⟨S32x4096x1, .f32⟩
  | .hbm, ⟨34, _⟩ => ⟨S32x4096x128, .f32⟩
  | .hbm, ⟨35, _⟩ => ⟨S32x4096x128, .f32⟩
  | .hbm, ⟨36, _⟩ => ⟨S_, .f32⟩
  | .hbm, ⟨37, _⟩ => ⟨S32x4096x1, .f32⟩
  | .hbm, ⟨38, _⟩ => ⟨S32x4096x1, .f32⟩
  | .hbm, ⟨39, _⟩ => ⟨S32x4096x1, .f32⟩
  | .hbm, ⟨40, _⟩ => ⟨S32x4096x128, .f32⟩
  | .hbm, ⟨41, _⟩ => ⟨S32x4096x128, .f32⟩
  | .hbm, ⟨42, _⟩ => ⟨S1x1x128, .f32⟩
  | .hbm, ⟨43, _⟩ => ⟨S32x4096x128, .f32⟩
  | .hbm, ⟨44, _⟩ => ⟨S32x4096x128, .f32⟩
  | .hbm, ⟨45, _⟩ => ⟨S1x1x128, .f32⟩
  | .hbm, ⟨46, _⟩ => ⟨S32x4096x128, .f32⟩
  | .hbm, ⟨47, _⟩ => ⟨S32x4096x128, .f32⟩
  | .hbm, ⟨48, _⟩ => ⟨S32x4096x128, .f32⟩
  | .hbm, ⟨49, _⟩ => ⟨S32x4096x128, .f32⟩
  | .hbm, ⟨50, _⟩ => ⟨S_, .f32⟩
  | .hbm, ⟨51, _⟩ => ⟨S32x4096x128, .f32⟩
  | .hbm, ⟨52, _⟩ => ⟨S32x4096x128, .f32⟩
  | .hbm, ⟨53, _⟩ => ⟨S32x4096x256, .f32⟩
  | .hbm, ⟨54, _⟩ => ⟨S1x1x256, .f32⟩
  | .hbm, ⟨55, _⟩ => ⟨S32x4096x256, .f32⟩
  | .hbm, ⟨56, _⟩ => ⟨S32x4096x256, .f32⟩
  | .hbm, ⟨57, _⟩ => ⟨S_, .f32⟩
  | .hbm, ⟨58, _⟩ => ⟨S32x256, .f32⟩
  | .hbm, ⟨59, _⟩ => ⟨S32x1x256, .f32⟩
  | .hbm, ⟨60, _⟩ => ⟨S32x4096x256, .f32⟩
  | .hbm, ⟨61, _⟩ => ⟨S32x4096x512, .f32⟩
  | .hbm, ⟨62, _⟩ => ⟨S32x4096x512, .f32⟩
  | .hbm, ⟨63, _⟩ => ⟨S_, .f32⟩
  | .hbm, ⟨64, _⟩ => ⟨S32x4096, .f32⟩
  | .hbm, ⟨65, _⟩ => ⟨S32x4096x1, .f32⟩
  | .hbm, ⟨66, _⟩ => ⟨S_, .f32⟩
  | .hbm, ⟨67, _⟩ => ⟨S32x4096x1, .f32⟩
  | .hbm, ⟨68, _⟩ => ⟨S32x4096x1, .f32⟩
  | .hbm, ⟨69, _⟩ => ⟨S32x4096x512, .f32⟩
  | .hbm, ⟨70, _⟩ => ⟨S32x4096x512, .f32⟩
  | .hbm, ⟨71, _⟩ => ⟨S32x4096x512, .f32⟩
  | .hbm, ⟨72, _⟩ => ⟨S_, .f32⟩
  | .hbm, ⟨73, _⟩ => ⟨S32x4096, .f32⟩
  | .hbm, ⟨74, _⟩ => ⟨S32x4096x1, .f32⟩
  | .hbm, ⟨75, _⟩ => ⟨S_, .f32⟩
  | .hbm, ⟨76, _⟩ => ⟨S32x4096x1, .f32⟩
  | .hbm, ⟨77, _⟩ => ⟨S32x4096x1, .f32⟩
  | .hbm, ⟨78, _⟩ => ⟨S32x4096x512, .f32⟩
  | .hbm, ⟨79, _⟩ => ⟨S32x4096x512, .f32⟩
  | .hbm, ⟨80, _⟩ => ⟨S_, .f32⟩
  | .hbm, ⟨81, _⟩ => ⟨S32x4096x1, .f32⟩
  | .hbm, ⟨82, _⟩ => ⟨S32x4096x1, .f32⟩
  | .hbm, ⟨83, _⟩ => ⟨S32x4096x1, .f32⟩
  | .hbm, ⟨84, _⟩ => ⟨S32x4096x512, .f32⟩
  | .hbm, ⟨85, _⟩ => ⟨S32x4096x512, .f32⟩
  | .hbm, ⟨86, _⟩ => ⟨S1x1x512, .f32⟩
  | .hbm, ⟨87, _⟩ => ⟨S32x4096x512, .f32⟩
  | .hbm, ⟨88, _⟩ => ⟨S32x4096x512, .f32⟩
  | .hbm, ⟨89, _⟩ => ⟨S1x1x512, .f32⟩
  | .hbm, ⟨90, _⟩ => ⟨S32x4096x512, .f32⟩
  | .hbm, ⟨91, _⟩ => ⟨S32x4096x512, .f32⟩
  | .hbm, ⟨92, _⟩ => ⟨S32x4096x512, .f32⟩
  | .hbm, ⟨93, _⟩ => ⟨S32x4096x512, .f32⟩
  | .hbm, ⟨94, _⟩ => ⟨S_, .f32⟩
  | .hbm, ⟨95, _⟩ => ⟨S32x4096x512, .f32⟩
  | .hbm, ⟨96, _⟩ => ⟨S32x4096x512, .f32⟩
  | .hbm, ⟨97, _⟩ => ⟨S32x4096x1024, .f32⟩
  | .hbm, ⟨98, _⟩ => ⟨S1x1x1024, .f32⟩
  | .hbm, ⟨99, _⟩ => ⟨S32x4096x1024, .f32⟩
  | .hbm, ⟨100, _⟩ => ⟨S32x4096x1024, .f32⟩
  | .hbm, ⟨101, _⟩ => ⟨S_, .f32⟩
  | .hbm, ⟨102, _⟩ => ⟨S32x1024, .f32⟩
  | _, _ => ⟨S32x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call0_cst : Ref sig .tc := ⟨.hbm, 50, rfl⟩
abbrev main_call0_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call1_cst : Ref sig .tc := ⟨.hbm, 94, rfl⟩
abbrev main_call1_v0 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_10 : Ref sig .tc := ⟨.hbm, 101, rfl⟩
abbrev main_v73 : Ref sig .tc := ⟨.hbm, 102, rfl⟩

abbrev nD : Nat := 1
abbrev τ : Topo := Topo.v7x

variable {F : FTy → Type} [FloatOps F]

class Facts₀ : Prop where
  shapeCasts_S32x1x4096_S32x4096 : S32x1x4096.ShapeCasts S32x4096
  bcast_S_S32x4096 : S_.BroadcastsInDim S32x4096 (![] : Fin 0 → Fin S32x4096.rank)
  bcast_S32x4096_S32x4096x1_0_1 : S32x4096.BroadcastsInDim S32x4096x1 (![0, 1] : Fin 2 → Fin S32x4096x1.rank)
  reducesTo_S32x4096x128_S32x4096_d2 : S32x4096x128.ReducesTo [2] S32x4096
  h_S_ : 0 < S_.numel
  bcast_S_S32x4096x1 : S_.BroadcastsInDim S32x4096x1 (![] : Fin 0 → Fin S32x4096x1.rank)
  bcast_S32x4096x1_S32x4096x128_0_1_2 : S32x4096x1.BroadcastsInDim S32x4096x128 (![0, 1, 2] : Fin 3 → Fin S32x4096x128.rank)
  bcast_S128_S1x1x128_2 : S128.BroadcastsInDim S1x1x128 (![2] : Fin 1 → Fin S1x1x128.rank)
  bcast_S1x1x128_S32x4096x128_0_1_2 : S1x1x128.BroadcastsInDim S32x4096x128 (![0, 1, 2] : Fin 3 → Fin S32x4096x128.rank)
  bcast_S_S32x4096x128 : S_.BroadcastsInDim S32x4096x128 (![] : Fin 0 → Fin S32x4096x128.rank)
  bcast_S256_S1x1x256_2 : S256.BroadcastsInDim S1x1x256 (![2] : Fin 1 → Fin S1x1x256.rank)
  bcast_S1x1x256_S32x4096x256_0_1_2 : S1x1x256.BroadcastsInDim S32x4096x256 (![0, 1, 2] : Fin 3 → Fin S32x4096x256.rank)
  reducesTo_S32x4096x256_S32x256_d1 : S32x4096x256.ReducesTo [1] S32x256
  bcast_S32x256_S32x1x256_0_2 : S32x256.BroadcastsInDim S32x1x256 (![0, 2] : Fin 2 → Fin S32x1x256.rank)
  bcast_S32x1x256_S32x4096x256_0_1_2 : S32x1x256.BroadcastsInDim S32x4096x256 (![0, 1, 2] : Fin 3 → Fin S32x4096x256.rank)
  concatenates_S32x4096x256_S32x4096x256_S32x4096x512_d2 : Shape.Concatenates [S32x4096x256, S32x4096x256] S32x4096x512 2
  reducesTo_S32x4096x512_S32x4096_d2 : S32x4096x512.ReducesTo [2] S32x4096
  bcast_S32x4096x1_S32x4096x512_0_1_2 : S32x4096x1.BroadcastsInDim S32x4096x512 (![0, 1, 2] : Fin 3 → Fin S32x4096x512.rank)
  bcast_S512_S1x1x512_2 : S512.BroadcastsInDim S1x1x512 (![2] : Fin 1 → Fin S1x1x512.rank)
  bcast_S1x1x512_S32x4096x512_0_1_2 : S1x1x512.BroadcastsInDim S32x4096x512 (![0, 1, 2] : Fin 3 → Fin S32x4096x512.rank)
  bcast_S_S32x4096x512 : S_.BroadcastsInDim S32x4096x512 (![] : Fin 0 → Fin S32x4096x512.rank)
  bcast_S1024_S1x1x1024_2 : S1024.BroadcastsInDim S1x1x1024 (![2] : Fin 1 → Fin S1x1x1024.rank)
  bcast_S1x1x1024_S32x4096x1024_0_1_2 : S1x1x1024.BroadcastsInDim S32x4096x1024 (![0, 1, 2] : Fin 3 → Fin S32x4096x1024.rank)
  reducesTo_S32x4096x1024_S32x1024_d1 : S32x4096x1024.ReducesTo [1] S32x1024
  dot_S32x4096x3_S128x3_S32x4096x128_2_1_01_0_n_n_wf : DotDims.WF S32x4096x3 S128x3 S32x4096x128 [2] [1] [0, 1] [0] [] []
  dot_S32x4096x128_S256x128_S32x4096x256_2_1_01_0_n_n_wf : DotDims.WF S32x4096x128 S256x128 S32x4096x256 [2] [1] [0, 1] [0] [] []
  dot_S32x4096x512_S512x512_S32x4096x512_2_1_01_0_n_n_wf : DotDims.WF S32x4096x512 S512x512 S32x4096x512 [2] [1] [0, 1] [0] [] []
  dot_S32x4096x512_S1024x512_S32x4096x1024_2_1_01_0_n_n_wf : DotDims.WF S32x4096x512 S1024x512 S32x4096x1024 [2] [1] [0, 1] [0] [] []

variable [Facts₀]

def dot_S32x4096x3_S128x3_S32x4096x128_2_1_01_0_n_n : DotDims S32x4096x3 S128x3 S32x4096x128 where
  lhsContracting := [2]
  rhsContracting := [1]
  lhsNonContracting := [0, 1]
  rhsNonContracting := [0]
  lhsBatch := []
  rhsBatch := []
  wf := dot_S32x4096x3_S128x3_S32x4096x128_2_1_01_0_n_n_wf
def dot_S32x4096x128_S256x128_S32x4096x256_2_1_01_0_n_n : DotDims S32x4096x128 S256x128 S32x4096x256 where
  lhsContracting := [2]
  rhsContracting := [1]
  lhsNonContracting := [0, 1]
  rhsNonContracting := [0]
  lhsBatch := []
  rhsBatch := []
  wf := dot_S32x4096x128_S256x128_S32x4096x256_2_1_01_0_n_n_wf
def dot_S32x4096x512_S512x512_S32x4096x512_2_1_01_0_n_n : DotDims S32x4096x512 S512x512 S32x4096x512 where
  lhsContracting := [2]
  rhsContracting := [1]
  lhsNonContracting := [0, 1]
  rhsNonContracting := [0]
  lhsBatch := []
  rhsBatch := []
  wf := dot_S32x4096x512_S512x512_S32x4096x512_2_1_01_0_n_n_wf
def dot_S32x4096x512_S1024x512_S32x4096x1024_2_1_01_0_n_n : DotDims S32x4096x512 S1024x512 S32x4096x1024 where
  lhsContracting := [2]
  rhsContracting := [1]
  lhsNonContracting := [0, 1]
  rhsNonContracting := [0]
  lhsBatch := []
  rhsBatch := []
  wf := dot_S32x4096x512_S1024x512_S32x4096x1024_2_1_01_0_n_n_wf

class Facts : Prop extends Facts₀ where

variable [Facts]
-- ==== Proof.KB.Blocks.lean ====
import proofs.«127374_j73383811219637_1_alg».proof.Proof.Gen.Kernel.Skeleton
import proofs.«127374_j73383811219637_1_alg».proof.Proof.Gen.Kernel.Points
import Idealize.ShloMosaic.Lib.Pipeline.FrameBody

/-! # The two pallas_calls as functions of their input blocks

Call 0 runs once per batch element (32 points): from the batch's points (channel-major, 3 × 4096), its
visibility mask and the weights it computes h3 = w2 · relu(mask · LN₁(w1 · x)) + b2 (256 × 4096) and the row
maxima gmax (256 × 1) of h3 over the 4096 positions.

Call 1 runs on the grid 32 × 4: at tile j of batch b it takes 1024 positions of h3, the batch's gmax,
the mask's 1024 positions and the weights, and folds the row maxima of
w4 · relu(mask · LN₂(w3 · [gmax; h3])) + b4 (1024 × 1024) into a 1024 × 1 accumulator that is reset to −∞ at
j = 0; at j = 3 the accumulator, transposed, is the batch's output row.

Everything here is pure and generic in the float instance: the block a window shows at a point, the two calls'
stored values as functions of the loaded blocks (over the payload names of the printed bodies), and the
accumulator by recursion on the point. -/

noncomputable section

namespace Cert.Kernel.Frm

open Idealize.ShloMosaic Idealize.ShloMosaic.TcCoe
open Idealize.SL Idealize.SL.Sem
open Cert.Kernel Cert.Kernel.Gen

variable {F : FTy → Type} [FloatOps F]

/-- The contents of core c's buffers when a call is entered: the parameter both calls are stated at. -/
abbrev Entry (F : FTy → Type) [FloatOps F] : Type := (c : Dev nD) → (b : Ref sig .tc) → Buf (Elt F) ((c : Thread nD τ).loc b)

variable (V : Entry F)

/-! ## Call 0 -/

/-- Window w's block at point t of call 0, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- h3 of one batch element, as call 0 stores it: from the points block x0, the mask block x1, w1, g1, be1
    (columns), w2 and b2 (column). -/
def h3blk (x0 : Vec F S1x3x4096 .f32) (x1 : Vec F S1x1x4096 .i32) (x2 : Vec F S128x3 .f32) (x3 : Vec F S128x1 .f32)
    (x4 : Vec F S128x1 .f32) (x5 : Vec F S256x128 .f32) (x6 : Vec F S256x1 .f32) : Vec F S1x256x4096 .f32 :=
  k0_pay2 (k0_pay4 x0 x1 x2 x3 x4) x5 x6

/-- The row maxima of that h3 over the positions, as call 0 stores them. -/
def gmblk (x0 : Vec F S1x3x4096 .f32) (x1 : Vec F S1x1x4096 .i32) (x2 : Vec F S128x3 .f32) (x3 : Vec F S128x1 .f32)
    (x4 : Vec F S128x1 .f32) (x5 : Vec F S256x128 .f32) (x6 : Vec F S256x1 .f32) : Vec F S1x256x1 .f32 :=
  k0_pay3 (k0_pay4 x0 x1 x2 x3 x4) x5 x6

/-- What call 0 leaves in the h3 window's buffer at point t. -/
def h3At (c : Dev nD) (t : Fin cfg0.N) : Vec F S1x256x4096 .f32 :=
  h3blk (iblk0 V c 0 t) (iblk0 V c 1 t) (iblk0 V c 2 t) (iblk0 V c 3 t) (iblk0 V c 4 t) (iblk0 V c 5 t) (iblk0 V c 6 t)

/-- What call 0 leaves in the gmax window's buffer at point t. -/
def gmAt (c : Dev nD) (t : Fin cfg0.N) : Vec F S1x256x1 .f32 :=
  gmblk (iblk0 V c 0 t) (iblk0 V c 1 t) (iblk0 V c 2 t) (iblk0 V c 3 t) (iblk0 V c 4 t) (iblk0 V c 5 t) (iblk0 V c 6 t)

/-! ## Call 1 -/

/-- Window w's block at point t of call 1, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after one tile: the old accumulator acc against the row maxima of the tile's h7, from the
    h3 tile x0, the batch's gmax x1, the mask tile x2, w3, g2, be2 (columns), w4, b4 (column). -/
def accStep (x0 : Vec F S1x256x1024 .f32) (x1 : Vec F S1x256x1 .f32) (x2 : Vec F S1x1x1024 .i32) (x3 : Vec F S512x512 .f32)
    (x4 : Vec F S512x1 .f32) (x5 : Vec F S512x1 .f32) (x6 : Vec F S1024x512 .f32) (x7 : Vec F S1024x1 .f32)
    (acc : Vec F S1024x1 .f32) : Vec F S1024x1 .f32 :=
  k1_pay1 (k1_pay4 x2) (k1_pay7 x0 x1 x3) (k1_pay8 x0 x1 x3) x4 x5 x6 x7 acc

/-- The accumulator a batch starts from: −∞ everywhere. -/
def accInit : Vec F S1024x1 .f32 := k1_pay3 (F := F)

/-- One tile's step at point t of call 1, on the blocks the call finds there. -/
def accStepAt (c : Dev nD) (t : Fin cfg1.N) (acc : Vec F S1024x1 .f32) : Vec F S1024x1 .f32 :=
  accStep (iblk1 V c 0 t) (iblk1 V c 1 t) (iblk1 V c 2 t) (iblk1 V c 3 t) (iblk1 V c 4 t) (iblk1 V c 5 t) (iblk1 V c 6 t) (iblk1 V c 7 t) acc

/-- THE ACCUMULATOR after point n of call 1 (points are batch-major, four tiles a batch): at a batch's first tile
    the step from −∞, at the others the step from what the point before left. -/
def accAt (c : Dev nD) : (n : ℕ) → n < cfg1.N → Vec F S1024x1 .f32
  | 0, hn => accStepAt V c ⟨0, hn⟩ accInit
  | n + 1, hn =>
    if (n + 1) % 4 = 0 then accStepAt V c ⟨n + 1, hn⟩ accInit
    else accStepAt V c ⟨n + 1, hn⟩ (accAt c n (Nat.lt_of_succ_lt hn))

theorem accAt_first (c : Dev nD) (t : Fin cfg1.N) (h : t.val % 4 = 0) :
    accAt V c t.val t.isLt = accStepAt V c t accInit := by
  obtain ⟨n, hn⟩ := t
  cases n with
  | zero => rfl
  | succ n => exact if_pos h

theorem accAt_next (c : Dev nD) (t : Fin cfg1.N) (h : ¬ t.val % 4 = 0) :
    accAt V c t.val t.isLt = accStepAt V c t (accAt V c (t.val - 1) (Nat.lt_of_le_of_lt (Nat.sub_le _ _) t.isLt)) := by
  obtain ⟨n, hn⟩ := t
  cases n with
  | zero => exact absurd (Nat.zero_mod _) h
  | succ n => exact if_neg h

/-- The output row a batch's last tile stores: the accumulator transposed. -/
def outblk (acc : Vec F S1024x1 .f32) : Vec F S1x1x1024 .f32 := k1_pay2 acc

end Cert.Kernel.Frm

end
-- ==== Proof.KB.Data.lean ====
import proofs.«127374_j73383811219637_1_alg».proof.Proof.KB.Blocks
import proofs.«127374_j73383811219637_1_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The proof data of the two calls

For each call, at the contents V the call is entered from: the windowed arrays are V's; after the body at a
point an input window's buffer still shows its block and an output window's buffer holds the call's function of
the point's input blocks (Blocks.lean). Call 0 keeps nothing between points. Call 1 keeps the accumulator: its
invariant after point n holds the accumulator's buffer at accAt n, beside the core's other scoped buffers at
anything and the generator register at some state; before the first point nothing is known of it. -/

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Entry F)

/-! ## Call 0 -/

/-- Call 0's proof data on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => h3At V c t
    | ⟨8, _⟩ => gmAt V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = h3At V c t := by dsimp only [dat0]
theorem after0_8 (c : Dev nD) (t : Fin cfg0.N) : (dat0 V c).after 8 t = gmAt V c t := by dsimp only [dat0]

/-! ## Call 1 -/

/-- The accumulator's buffer as the body is handed it: the whole scratch buffer. -/
abbrev accM : Memref sig .tc .vmem S1024x1 .f32 := Memref.whole cc1_scratch0

/-- A scoped buffer of the core whole at some contents. -/
abbrev someAt (c : Dev nD) (b : Ref sig .tc) : sProp 𝕄 :=
  iprop(∃ f : Buf (Elt F) ((c : Thread nD τ).loc b), ((c : Thread nD τ).loc b) ↦{fullShare} f)

/-- The scoped buffers call 1 does not stage, but for the accumulator's: call 0's staging buffers, each at some contents. -/
abbrev others1 (c : Dev nD) (P : sProp 𝕄) : sProp 𝕄 :=
  iprop(someAt c cc0_stg0_0 ∗ someAt c cc0_stg0_1 ∗ someAt c cc0_stg1_0 ∗ someAt c cc0_stg1_1 ∗ someAt c cc0_stg2_0
    ∗ someAt c cc0_stg3_0 ∗ someAt c cc0_stg4_0 ∗ someAt c cc0_stg5_0 ∗ someAt c cc0_stg6_0 ∗ someAt c cc0_stg7_0
    ∗ someAt c cc0_stg7_1 ∗ someAt c cc0_stg8_0 ∗ someAt c cc0_stg8_1 ∗ P)

/-- Call 1's invariant before point n: before the first point the scoped rest and the generator register, every
    buffer at anything; afterwards the same with the accumulator's buffer at what point n - 1 left. -/
def PhiS (c : Dev nD) : (n : ℕ) → n ≤ cfg1.N → sProp 𝕄
  | 0, _ => Pipeline.ΦA spec1 c
  | n + 1, hn => iprop(others1 c (owns (c : Thread nD τ) accM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 c (owns (c : Thread nD τ) accM fullShare (accAt V c n hn)) ∗ (∃ r, prngReg c r)) := rfl

theorem PhiS_pos (c : Dev nD) (n : ℕ) (h : n ≤ cfg1.N) (hz : n ≠ 0) :
    PhiS V c n h = iprop(others1 c (owns (c : Thread nD τ) accM fullShare (accAt V c (n - 1) (by omega))) ∗ (∃ r, prngReg c r)) := by
  cases n with
  | zero => exact absurd rfl hz
  | succ n => rfl

/-- The class's invariant with the accumulator's buffer named: what the body is handed at a batch's first tile. -/
theorem PhiA1_eq (c : Dev nD) :
    (Pipeline.ΦA spec1 c : sProp 𝕄) = iprop(others1 c iprop(∃ d, owns (c : Thread nD τ) accM fullShare d) ∗ (∃ r, prngReg c r)) := by
  unfold Pipeline.ΦA; rw [scopedRest1_eq]; simp only [accM, owns_whole]; try rfl

/-- Call 1's proof data on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => outblk (accAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = outblk (accAt V c t.val t.isLt) := by dsimp only [dat1]

end Cert.Kernel.Frm

end
-- ==== Proof.KB.Region0.lean ====
import proofs.«127374_j73383811219637_1_alg».proof.Proof.KB.Data
import Idealize.ShloMosaic.Lib.Pipeline.Value

/-! # Call 0's body obligation

Call 0 keeps nothing from point to point and takes no branch. At every point its body loads each of its seven
input windows whole, computes h3 and its row maxima, and stores each of the two output windows whole, one store
each. So:

* an input window's current buffer shows that window's block at every point, whether the block was brought in
  at that point or at an earlier one (the weights and biases are brought in once, at the first point, and their
  block index never moves afterwards);
* on whole buffers holding x0 … x6 the body ends with the inputs as they were and the outputs at
  `h3blk x0 … x6` and `gmblk x0 … x6`: a load of a whole block reads the buffer's contents, and one store of a
  whole block, read back, is the stored value whatever the buffer held before;
* at a generic point the obligation's precondition is that triple's precondition at the point's blocks, and the
  triple's postcondition is the obligation's; the invariant and the core's debts pass through untouched.

The blocks are large, so the values stay variables in the triple and are only instantiated at the point's blocks,
with every argument explicit, in the step from the triple to the obligation. -/

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Entry F)

/-! ## What the body finds in an input window's buffer

An input window's body leaves the block in place, the window is never cut short and no point is idle for it: so
its current buffer shows the array's block at the point, fetched there or not (not fetched, the block index has
not moved since the point before). -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-! ## Whole-block loads and stores -/

/-- Offsets all zero, rank 2 and rank 3. -/
theorem zeros2 : (![0, 0] : Fin 2 → ℕ) = fun _ => 0 := funext fun a => by fin_cases a <;> rfl
theorem zeros3 : (![0, 0, 0] : Fin 3 → ℕ) = fun _ => 0 := funext fun a => by fin_cases a <;> rfl

/-- One store of a whole block, read back through the view: the payload, whatever the buffer held. -/
theorem read_store_whole {sg : RefSig} {κ : Kind} {sp : Space} {S : Shape} {e : EltTy} {off : Fin S.rank → ℕ}
    (h : off = fun _ => 0) (inb : ∀ a, off a + S.size a ≤ S.size a) (v : View sg κ sp S e)
    (f : v.ty.Contents (Elt F)) (w : S.Idx → Elt F e) :
    v.read (Elt F) (v.writes (Elt F) f [(⟨Rect.unit off S.size inb, w⟩ : View.Piece (Elt F) S e)]) = w := by
  have hcov : ∀ y, ∃ p ∈ ([(⟨Rect.unit off S.size inb, w⟩ : View.Piece (Elt F) S e)]), y ∈ p.1.set :=
    fun y => ⟨_, List.mem_singleton_self _, View.mem_set_unit_zero h inb y⟩
  rw [View.read_writes_eq_canon v f _ hcov, View.canon_unit_zero h inb w]

/-- A load of the whole block reads the buffer's contents as the view shows them. -/
theorem load_whole {sg : RefSig} {κ : Kind} {sp : Space} {S : Shape} {e : EltTy} {off : Fin S.rank → ℕ}
    (h : off = fun _ => 0) (inb : ∀ a, off a + S.size a ≤ S.size a) (v : View sg κ sp S e)
    (f : v.ty.Contents (Elt F)) :
    v.readAt (Elt F) (Rect.unit off S.size inb).toLoadRect f = v.read (Elt F) f :=
  (View.readAt_eq_ld v f _).trans (View.ld_unit_zero h inb _)

/-! ## The body's triple -/

set_option maxHeartbeats 1000000 in
/-- The body on whole staging buffers, the seven inputs' at contents x0 … x6 and the two outputs' at anything, runs
    to the continuation holding the inputs' as they were and the outputs' at `h3blk x0 … x6` and `gmblk x0 … x6`.
    The body is five whole-block loads in its first part, two more after it, and one whole-block store per
    output (each preceded by a load of the output buffer whose value is never used). Each load reads the buffer's
    contents; each store, read back, is its payload; and the two payloads are by definition `h3blk` and `gmblk` of
    the loaded values. -/
theorem sound_kernel0 (c : Dev nD) (E : Set ℕ) (i : grid0.Coords) (arg1 : Memref sig .tc .vmem S1x3x4096 .f32) (harg1 : arg1.IsWhole) (arg2 : Memref sig .tc .vmem S1x1x4096 .i32) (harg2 : arg2.IsWhole) (arg3 : Memref sig .tc .vmem S128x3 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S256x128 .f32) (harg6 : arg6.IsWhole) (arg7 : Memref sig .tc .vmem S256x1 .f32) (harg7 : arg7.IsWhole) (arg8 : Memref sig .tc .vmem S1x256x4096 .f32) (harg8 : arg8.IsWhole) (arg9 : Memref sig .tc .vmem S1x256x1 .f32) (harg9 : arg9.IsWhole)
    (x0 : Vec F S1x3x4096 .f32) (x1 : Vec F S1x1x4096 .i32) (x2 : Vec F S128x3 .f32) (x3 : Vec F S128x1 .f32) (x4 : Vec F S128x1 .f32) (x5 : Vec F S256x128 .f32) (x6 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (h3blk x0 x1 x2 x3 x4 x5 x6) ∗ owns (c : Thread nD τ) arg9 fullShare (gmblk x0 x1 x2 x3 x4 x5 x6)) -∗ K ⟨⟩))
      ⊢ wp frame (wpE (defs₀ (F := F)) Variants.none c none) E (cc0__kernel1 i arg1 harg1 arg2 harg2 arg3 harg3 arg4 harg4 arg5 harg5 arg6 harg6 arg7 harg7 arg8 harg8 arg9 harg9) K := by
  simp only [cc0__kernel1_eq_skeleton]; unfold cc0__kernel1_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [read_store_whole (S := S1x256x4096) zeros3, load_whole (S := S1x3x4096) zeros3, load_whole (S := S1x1x4096) zeros3,
      load_whole (S := S128x3) zeros2, load_whole (S := S128x1) zeros2, load_whole (S := S128x1) zeros2,
      load_whole (S := S256x128) zeros2, load_whole (S := S256x1) zeros2]
    rfl
  iexists _; isplitr
  swap; · iexact H9
  ipureintro
  rw [read_store_whole (S := S1x256x1) zeros3, load_whole (S := S1x3x4096) zeros3, load_whole (S := S1x1x4096) zeros3,
      load_whole (S := S128x3) zeros2, load_whole (S := S128x1) zeros2, load_whole (S := S128x1) zeros2,
      load_whole (S := S256x128) zeros2, load_whole (S := S256x1) zeros2]
  rfl

/-! ## The body obligation, at a generic point -/

/-- What the body is handed at point t: the invariant, the core's debts, and each window's current buffer at what it
    then holds (the obligation's precondition, its windows written out one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point. The input buffers hold the point's blocks (`before0_0` … `before0_6`) and the output
    buffers hold something, which is the triple's precondition at x_w the block of window w at t; the triple leaves the
    inputs at their blocks and the outputs at `h3At` and `gmAt`, which is what the proof data say the body leaves.
    The invariant does not depend on the point and nothing is owed, so both pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  unfold h3At gmAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- Call 0's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KB.Region1.lean ====
import proofs.«127374_j73383811219637_1_alg».proof.Proof.KB.Data
import Idealize.ShloMosaic.Lib.Pipeline.Value

/-! # Call 1's body at every point of its grid

Call 1 runs on the grid 32 × 4, batch-major: point t is tile t mod 4 of batch t / 4. The body's control depends on the
tile only. At a batch's FIRST tile it resets the accumulator to −∞ before reading it; at every tile it replaces the
accumulator by the step of the tile's blocks from what the accumulator held; at a batch's LAST tile it also stores the
accumulator, transposed, into the output window's buffer. At the other tiles the output window's buffer is not touched
and the pipeline does not write it back.

This module proves: each input window's buffer holds the window's block at every point, fetched there or not; the body's
Hoare triple in each of the three cases, over the named values of Blocks.lean; and from them the body obligation of
call 1's proof data (Data.lean) at a generic point, with the invariant's two ends. -/

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Entry F)

/-! ## The input windows' buffers hold their blocks

An input window's block index either moves at a point, and then the block is fetched there, or stays, and then the buffer
still holds the block of the point before, which is this point's: the body leaves every input buffer as it found it. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-! ## The two conditions of the body, as functions of the point -/

/-- The body's first condition at coordinates i: the tile index is 0. -/
abbrev isFirst (i : grid1.Coords) : Prop :=
  (Scalar.cmpi .ne (Scalar.extui (Scalar.cmpi .eq (BitVec.ofNat 32 (i 1).val) 0#32)) 0#32) = 1#1

/-- The body's second condition at coordinates i: the tile index is 3. -/
abbrev isLast (i : grid1.Coords) : Prop := k1_cond2 i = 1#1

/-- Points are batch-major with four tiles a batch: the first condition holds exactly at the points ≡ 0 (mod 4). -/
theorem isFirst_iff : ∀ t : Fin cfg1.N, isFirst (grid1.coords t) ↔ t.val % 4 = 0 :=
  (by decide +kernel : ∀ t : Fin grid1.N, isFirst (grid1.coords t) ↔ t.val % 4 = 0)

/-- The second condition holds exactly at the points ≡ 3 (mod 4). -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle

The input windows are live at every point. The output window is idle, and not written back, exactly where the second
condition fails; where it holds the window is live. -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel
theorem live1_6 : ∀ t : Fin cfg1.N, cfg1.idle 6 (grid1.coords t) = false := by decide +kernel
theorem live1_7 : ∀ t : Fin cfg1.N, cfg1.idle 7 (grid1.coords t) = false := by decide +kernel

theorem out_idle : ∀ t : Fin cfg1.N, ¬isLast (grid1.coords t) → cfg1.idle 8 (grid1.coords t) = true := by decide +kernel
theorem out_unflushed : ∀ t : Fin cfg1.N, ¬isLast (grid1.coords t) → (cfg1.win 8).flush t = false := by decide +kernel
theorem out_live : ∀ t : Fin cfg1.N, isLast (grid1.coords t) → cfg1.idle 8 (grid1.coords t) = false := by decide +kernel

/-! ## The body's triple, case by case

On whole memrefs: the eight inputs at contents x0 … x7, the accumulator's at xs (or at anything, where the body resets it
before reading it), the output's at anything (where the body stores into it) or at contents it hands back untouched. The
body loads every buffer through the rectangle of the whole shape at zero offsets and stores likewise, so a load reads the
contents and what a store leaves is its payload; a load of the accumulator after a store in the same run reads what was
stored. -/

/-- The offsets of the whole-shape rectangle are zero on every axis, in rank 2 and in rank 3. -/
theorem origin2 : (![0, 0] : Fin 2 → Nat) = fun _ => 0 := funext fun a => by fin_cases a <;> rfl
theorem origin3 : (![0, 0, 0] : Fin 3 → Nat) = fun _ => 0 := funext fun a => by fin_cases a <;> rfl

section Tile

variable (c : Dev nD) (i : grid1.Coords)
  (a0 : Memref sig .tc .vmem S1x256x1024 .f32) (w0 : a0.IsWhole)
  (a1 : Memref sig .tc .vmem S1x256x1 .f32) (w1 : a1.IsWhole)
  (a2 : Memref sig .tc .vmem S1x1x1024 .i32) (w2 : a2.IsWhole)
  (a3 : Memref sig .tc .vmem S512x512 .f32) (w3 : a3.IsWhole)
  (a4 : Memref sig .tc .vmem S512x1 .f32) (w4 : a4.IsWhole)
  (a5 : Memref sig .tc .vmem S512x1 .f32) (w5 : a5.IsWhole)
  (a6 : Memref sig .tc .vmem S1024x512 .f32) (w6 : a6.IsWhole)
  (a7 : Memref sig .tc .vmem S1024x1 .f32) (w7 : a7.IsWhole)
  (ao : Memref sig .tc .vmem S1x1x1024 .f32) (wo : ao.IsWhole)
  (aa : Memref sig .tc .vmem S1024x1 .f32) (wa : aa.IsWhole)
  (x0 : Vec F S1x256x1024 .f32) (x1 : Vec F S1x256x1 .f32) (x2 : Vec F S1x1x1024 .i32) (x3 : Vec F S512x512 .f32) (x4 : Vec F S512x1 .f32) (x5 : Vec F S512x1 .f32) (x6 : Vec F S1024x512 .f32) (x7 : Vec F S1024x1 .f32)

set_option maxHeartbeats 1000000 in
/-- A batch's FIRST tile: whatever the accumulator held, it ends at the step from −∞; the output's buffer is handed back
    as found. -/
theorem tile_first (hc0 : isFirst i) (hc1 : ¬isLast i) (xo : Vec F S1x1x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ owns (c : Thread nD τ) ao fullShare xo ∗ (∃ d, owns (c : Thread nD τ) aa fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) ao fullShare xo
            ∗ owns (c : Thread nD τ) aa fullShare (accStep x0 x1 x2 x3 x4 x5 x6 x7 accInit)) -∗ K ⟨⟩))
      ⊢ wp frame (wpE (defs₀ (F := F)) Variants.none c none) E (cc1__kernel2 i a0 w0 a1 w1 a2 w2 a3 w3 a4 w4 a5 w5 a6 w6 a7 w7 ao wo aa wa) K := by
  simp only [cc1__kernel2_eq_skeleton]; unfold cc1__kernel2_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, Ho⟩, ⟨%da, %fa, -, Ha⟩, Hk⟩
  obtain rfl := w0.eq_unread hf0; obtain rfl := w1.eq_unread hf1; obtain rfl := w2.eq_unread hf2; obtain rfl := w3.eq_unread hf3; obtain rfl := w4.eq_unread hf4; obtain rfl := w5.eq_unread hf5; obtain rfl := w6.eq_unread hf6; obtain rfl := w7.eq_unread hf7; obtain rfl := wo.eq_unread hfo
  sl_exec (disch := first | exact hc0 | exact hc1)
  sl_step
  iapply Hk
  isplitl [H0]
  · iexists _; isplitr; · ipureintro; exact w0.read_unread _
    iexact H0
  isplitl [H1]
  · iexists _; isplitr; · ipureintro; exact w1.read_unread _
    iexact H1
  isplitl [H2]
  · iexists _; isplitr; · ipureintro; exact w2.read_unread _
    iexact H2
  isplitl [H3]
  · iexists _; isplitr; · ipureintro; exact w3.read_unread _
    iexact H3
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; · ipureintro; exact w7.read_unread _
    iexact H7
  isplitl [Ho]
  · iexists _; isplitr; · ipureintro; exact wo.read_unread _
    iexact Ho
  iexists _; isplitr
  swap; · iexact Ha
  ipureintro
  sl_unfold_words
  rw [View.read_writes_eq_canon _ _ _ (fun y => ⟨_, List.Mem.head _, View.mem_set_unit_zero origin2 inb_S1024x1_S1024x1_0_0 y⟩)]
  rw [View.canon_cons_unit_zero (S := S1024x1) origin2]
  unfold accStep accInit
  simp only [View.readAt_eq_ld, w0.read_unread, w1.read_unread, w2.read_unread, w3.read_unread, w4.read_unread, w5.read_unread, w6.read_unread, w7.read_unread,
    View.ld_unit_zero (S := S1x256x1024) origin3, View.ld_unit_zero (S := S1x256x1) origin3, View.ld_unit_zero (S := S1x1x1024) origin3,
    View.ld_unit_zero (S := S512x512) origin2, View.ld_unit_zero (S := S512x1) origin2, View.ld_unit_zero (S := S1024x512) origin2,
    View.ld_unit_zero (S := S1024x1) origin2, View.readCov_unit_zero (S := S1024x1) _ origin2]

set_option maxHeartbeats 1000000 in
/-- A MIDDLE tile: the accumulator goes from xs to the step from xs; the output's buffer is handed back as found. -/
theorem tile_middle (hc0 : ¬isFirst i) (hc1 : ¬isLast i) (xs : Vec F S1024x1 .f32) (xo : Vec F S1x1x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ owns (c : Thread nD τ) ao fullShare xo ∗ owns (c : Thread nD τ) aa fullShare xs
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) ao fullShare xo
            ∗ owns (c : Thread nD τ) aa fullShare (accStep x0 x1 x2 x3 x4 x5 x6 x7 xs)) -∗ K ⟨⟩))
      ⊢ wp frame (wpE (defs₀ (F := F)) Variants.none c none) E (cc1__kernel2 i a0 w0 a1 w1 a2 w2 a3 w3 a4 w4 a5 w5 a6 w6 a7 w7 ao wo aa wa) K := by
  simp only [cc1__kernel2_eq_skeleton]; unfold cc1__kernel2_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, Ho⟩, ⟨%fa, %hfa, Ha⟩, Hk⟩
  obtain rfl := w0.eq_unread hf0; obtain rfl := w1.eq_unread hf1; obtain rfl := w2.eq_unread hf2; obtain rfl := w3.eq_unread hf3; obtain rfl := w4.eq_unread hf4; obtain rfl := w5.eq_unread hf5; obtain rfl := w6.eq_unread hf6; obtain rfl := w7.eq_unread hf7; obtain rfl := wo.eq_unread hfo; obtain rfl := wa.eq_unread hfa
  sl_exec (disch := first | exact hc0 | exact hc1)
  sl_step
  iapply Hk
  isplitl [H0]
  · iexists _; isplitr; · ipureintro; exact w0.read_unread _
    iexact H0
  isplitl [H1]
  · iexists _; isplitr; · ipureintro; exact w1.read_unread _
    iexact H1
  isplitl [H2]
  · iexists _; isplitr; · ipureintro; exact w2.read_unread _
    iexact H2
  isplitl [H3]
  · iexists _; isplitr; · ipureintro; exact w3.read_unread _
    iexact H3
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; · ipureintro; exact w7.read_unread _
    iexact H7
  isplitl [Ho]
  · iexists _; isplitr; · ipureintro; exact wo.read_unread _
    iexact Ho
  iexists _; isplitr
  swap; · iexact Ha
  ipureintro
  sl_unfold_words
  rw [View.read_writes_eq_canon _ _ _ (fun y => ⟨_, List.Mem.head _, View.mem_set_unit_zero origin2 inb_S1024x1_S1024x1_0_0 y⟩)]
  rw [View.canon_cons_unit_zero (S := S1024x1) origin2]
  unfold accStep
  simp only [View.readAt_eq_ld, w0.read_unread, w1.read_unread, w2.read_unread, w3.read_unread, w4.read_unread, w5.read_unread, w6.read_unread, w7.read_unread,
    View.ld_unit_zero (S := S1x256x1024) origin3, View.ld_unit_zero (S := S1x256x1) origin3, View.ld_unit_zero (S := S1x1x1024) origin3,
    View.ld_unit_zero (S := S512x512) origin2, View.ld_unit_zero (S := S512x1) origin2, View.ld_unit_zero (S := S1024x512) origin2,
    View.ld_unit_zero (S := S1024x1) origin2, wa.read_unread]

set_option maxHeartbeats 1000000 in
/-- A batch's LAST tile: the accumulator goes from xs to the step from xs, and the output's buffer, whatever it held,
    ends at that accumulator transposed. -/
theorem tile_last (hc0 : ¬isFirst i) (hc1 : isLast i) (xs : Vec F S1024x1 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ (∃ d, owns (c : Thread nD τ) ao fullShare d) ∗ owns (c : Thread nD τ) aa fullShare xs
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) ao fullShare (outblk (accStep x0 x1 x2 x3 x4 x5 x6 x7 xs))
            ∗ owns (c : Thread nD τ) aa fullShare (accStep x0 x1 x2 x3 x4 x5 x6 x7 xs)) -∗ K ⟨⟩))
      ⊢ wp frame (wpE (defs₀ (F := F)) Variants.none c none) E (cc1__kernel2 i a0 w0 a1 w1 a2 w2 a3 w3 a4 w4 a5 w5 a6 w6 a7 w7 ao wo aa wa) K := by
  simp only [cc1__kernel2_eq_skeleton]; unfold cc1__kernel2_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dout, %fo, -, Ho⟩, ⟨%fa, %hfa, Ha⟩, Hk⟩
  obtain rfl := w0.eq_unread hf0; obtain rfl := w1.eq_unread hf1; obtain rfl := w2.eq_unread hf2; obtain rfl := w3.eq_unread hf3; obtain rfl := w4.eq_unread hf4; obtain rfl := w5.eq_unread hf5; obtain rfl := w6.eq_unread hf6; obtain rfl := w7.eq_unread hf7; obtain rfl := wa.eq_unread hfa
  sl_exec (disch := first | exact hc0 | exact hc1)
  sl_step
  iapply Hk
  isplitl [H0]
  · iexists _; isplitr; · ipureintro; exact w0.read_unread _
    iexact H0
  isplitl [H1]
  · iexists _; isplitr; · ipureintro; exact w1.read_unread _
    iexact H1
  isplitl [H2]
  · iexists _; isplitr; · ipureintro; exact w2.read_unread _
    iexact H2
  isplitl [H3]
  · iexists _; isplitr; · ipureintro; exact w3.read_unread _
    iexact H3
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; · ipureintro; exact w7.read_unread _
    iexact H7
  isplitl [Ho]
  · iexists _; isplitr
    swap; · iexact Ho
    ipureintro
    sl_unfold_words
    rw [View.read_writes_eq_canon _ _ _ (fun y => ⟨_, List.Mem.head _, View.mem_set_unit_zero origin3 inb_S1x1x1024_S1x1x1024_0_0_0 y⟩)]
    rw [View.canon_cons_unit_zero (S := S1x1x1024) origin3]
    unfold outblk accStep
    simp only [View.readAt_eq_ld, w0.read_unread, w1.read_unread, w2.read_unread, w3.read_unread, w4.read_unread, w5.read_unread, w6.read_unread, w7.read_unread,
    View.ld_unit_zero (S := S1x256x1024) origin3, View.ld_unit_zero (S := S1x256x1) origin3, View.ld_unit_zero (S := S1x1x1024) origin3,
    View.ld_unit_zero (S := S512x512) origin2, View.ld_unit_zero (S := S512x1) origin2, View.ld_unit_zero (S := S1024x512) origin2,
    View.ld_unit_zero (S := S1024x1) origin2, wa.read_unread, View.readCov_unit_zero (S := S1024x1) _ origin2]
  iexists _; isplitr
  swap; · iexact Ha
  ipureintro
  sl_unfold_words
  rw [View.read_writes_eq_canon _ _ _ (fun y => ⟨_, List.Mem.head _, View.mem_set_unit_zero origin2 inb_S1024x1_S1024x1_0_0 y⟩)]
  rw [View.canon_cons_unit_zero (S := S1024x1) origin2]
  unfold accStep
  simp only [View.readAt_eq_ld, w0.read_unread, w1.read_unread, w2.read_unread, w3.read_unread, w4.read_unread, w5.read_unread, w6.read_unread, w7.read_unread,
    View.ld_unit_zero (S := S1x256x1024) origin3, View.ld_unit_zero (S := S1x256x1) origin3, View.ld_unit_zero (S := S1x1x1024) origin3,
    View.ld_unit_zero (S := S512x512) origin2, View.ld_unit_zero (S := S512x1) origin2, View.ld_unit_zero (S := S1024x512) origin2,
    View.ld_unit_zero (S := S1024x1) origin2, wa.read_unread]

end Tile

/-! ## The scoped rest around the accumulator

The invariant holds the accumulator's buffer beside thirteen other scoped buffers at anything. The body needs the
accumulator alone, and gives it back at new contents: the others stay. -/

/-- Take the last component out, and put another in its place. -/
theorem others1_swap (c : Dev nD) (P Q : sProp 𝕄) : others1 c P ⊢ iprop(P ∗ (Q -∗ others1 c Q)) := by
  iintro ⟨B0, B1, B2, B3, B4, B5, B6, B7, B8, B9, B10, B11, B12, HP⟩
  isplitl [HP]; · iexact HP
  iintro HQ
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  iexact HQ

/-- What stands in the last place may be weakened there. -/
theorem others1_mono (c : Dev nD) {P Q : sProp 𝕄} (h : P ⊢ Q) : others1 c P ⊢ others1 c Q :=
  (others1_swap c P Q).trans ((sep_mono_left h).trans wand_elim_right)

/-- At any point the invariant gives the class's back: the accumulator's named contents are forgotten. -/
theorem PhiS_forget (c : Dev nD) (n : ℕ) (h : n ≤ cfg1.N) :
    PhiS V c n h ⊢ iprop(others1 c iprop(∃ d, owns (c : Thread nD τ) accM fullShare d) ∗ (∃ r, prngReg c r)) := by
  cases n with
  | zero => rw [PhiS_zero V c 0 h rfl, PhiA1_eq]
  | succ n =>
    rw [PhiS_succ]
    exact BI.sep_mono (others1_mono c (by iintro H; iexists _; iexact H)) (Entails.refl _)

/-! ## The body obligation, at a generic point -/

/-- Each window's current staging memref at point t, as the pipeline passes it to the body, and its wholeness. -/
abbrev ms1_0 (t : Fin cfg1.N) : Memref sig .tc .vmem S1x256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1x1024 .f32 := win1_8.stage (cfg1.slots t 8)
abbrev hs1_8 (t : Fin cfg1.N) : (ms1_8 t).IsWhole := hstage1_8 ((cfg1.slots t 8).cast nbuf1_8)

/-- An input window is live at every point: after the body its current buffer is owned at the window's block. -/
theorem leaves1_0 (c : Dev nD) (t : Fin cfg1.N) :
    (dat1 V c).leavesExact 0 t = owns (c : Thread nD τ) (ms1_0 t) fullShare (iblk1 V c 0 t) := by
  unfold Dat.leavesExact; rw [live1_0 t, after1_0]
theorem leaves1_1 (c : Dev nD) (t : Fin cfg1.N) :
    (dat1 V c).leavesExact 1 t = owns (c : Thread nD τ) (ms1_1 t) fullShare (iblk1 V c 1 t) := by
  unfold Dat.leavesExact; rw [live1_1 t, after1_1]
theorem leaves1_2 (c : Dev nD) (t : Fin cfg1.N) :
    (dat1 V c).leavesExact 2 t = owns (c : Thread nD τ) (ms1_2 t) fullShare (iblk1 V c 2 t) := by
  unfold Dat.leavesExact; rw [live1_2 t, after1_2]
theorem leaves1_3 (c : Dev nD) (t : Fin cfg1.N) :
    (dat1 V c).leavesExact 3 t = owns (c : Thread nD τ) (ms1_3 t) fullShare (iblk1 V c 3 t) := by
  unfold Dat.leavesExact; rw [live1_3 t, after1_3]
theorem leaves1_4 (c : Dev nD) (t : Fin cfg1.N) :
    (dat1 V c).leavesExact 4 t = owns (c : Thread nD τ) (ms1_4 t) fullShare (iblk1 V c 4 t) := by
  unfold Dat.leavesExact; rw [live1_4 t, after1_4]
theorem leaves1_5 (c : Dev nD) (t : Fin cfg1.N) :
    (dat1 V c).leavesExact 5 t = owns (c : Thread nD τ) (ms1_5 t) fullShare (iblk1 V c 5 t) := by
  unfold Dat.leavesExact; rw [live1_5 t, after1_5]
theorem leaves1_6 (c : Dev nD) (t : Fin cfg1.N) :
    (dat1 V c).leavesExact 6 t = owns (c : Thread nD τ) (ms1_6 t) fullShare (iblk1 V c 6 t) := by
  unfold Dat.leavesExact; rw [live1_6 t, after1_6]
theorem leaves1_7 (c : Dev nD) (t : Fin cfg1.N) :
    (dat1 V c).leavesExact 7 t = owns (c : Thread nD τ) (ms1_7 t) fullShare (iblk1 V c 7 t) := by
  unfold Dat.leavesExact; rw [live1_7 t, after1_7]

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point t. The inputs' buffers hold their blocks. By the tile t mod 4: at a first tile the invariant's
    accumulator, whatever it holds (nothing is known of it at point 0, the point before's value afterwards), is reset and
    ends at the step from −∞, which is the accumulator after t; at the other tiles it holds the accumulator after t - 1
    and ends at the step from that. The output's buffer goes back as found where the window is idle, and at a last tile
    holds the accumulator after t, transposed. The thirteen other scoped buffers and the generator register pass through,
    and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4, leaves1_5, leaves1_6, leaves1_7]
  rw [PhiS_castSucc V c t]
  by_cases h0 : t.val % 4 = 0
  · have hc0 : isFirst (grid1.coords t) := (isFirst_iff t).mpr h0
    have hc1 : ¬isLast (grid1.coords t) := fun h => by have := (isLast_iff t).mp h; omega
    rw [Dat.leavesExact_idle (dat1 V c) 8 t (out_idle t hc1) (out_unflushed t hc1)]
    rw [accAt_first V c t h0]; unfold accStepAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := PhiS_forget V c t.val _ $$ HΦ
    icases HΦ' with ⟨Hoth, Hg⟩
    ihave Hsw := others1_swap c _ (owns (c : Thread nD τ) accM fullShare (accStep (iblk1 V c 0 t) (iblk1 V c 1 t) (iblk1 V c 2 t) (iblk1 V c 3 t) (iblk1 V c 4 t) (iblk1 V c 5 t) (iblk1 V c 6 t) (iblk1 V c 7 t) accInit)) $$ Hoth
    icases Hsw with ⟨HS, Hcl⟩
    iapply (tile_first c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (iblk1 V c 0 t) (iblk1 V c 1 t) (iblk1 V c 2 t) (iblk1 V c 3 t) (iblk1 V c 4 t) (iblk1 V c 5 t) (iblk1 V c 6 t) (iblk1 V c 7 t) hc0 hc1 ((dat1 V c).before 8 t d8) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS Hcl Hg]
    · isplitl [HS Hcl]
      · iapply Hcl; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hc0 : ¬isFirst (grid1.coords t) := fun h => h0 ((isFirst_iff t).mp h)
    have hz : t.val ≠ 0 := fun e => h0 (by rw [e])
    rw [PhiS_pos V c _ _ hz]
    by_cases h1 : t.val % 4 = 3
    · have hc1 : isLast (grid1.coords t) := (isLast_iff t).mpr h1
      rw [show (dat1 V c).leavesExact 8 t = owns (c : Thread nD τ) (ms1_8 t) fullShare ((dat1 V c).after 8 t) from by
        unfold Dat.leavesExact; rw [out_live t hc1], after1_8]
      rw [accAt_next V c t h0]; unfold accStepAt
      iintro ⟨⟨Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave Hsw := others1_swap c _ (owns (c : Thread nD τ) accM fullShare (accStep (iblk1 V c 0 t) (iblk1 V c 1 t) (iblk1 V c 2 t) (iblk1 V c 3 t) (iblk1 V c 4 t) (iblk1 V c 5 t) (iblk1 V c 6 t) (iblk1 V c 7 t) (accAt V c (t.val - 1) (Nat.lt_of_le_of_lt (Nat.sub_le _ _) t.isLt)))) $$ Hoth
      icases Hsw with ⟨HS, Hcl⟩
      iapply (tile_last c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (iblk1 V c 0 t) (iblk1 V c 1 t) (iblk1 V c 2 t) (iblk1 V c 3 t) (iblk1 V c 4 t) (iblk1 V c 5 t) (iblk1 V c 6 t) (iblk1 V c 7 t) hc0 hc1 (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS Hcl Hg]
      · isplitl [HS Hcl]
        · iapply Hcl; iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬isLast (grid1.coords t) := fun h => h1 ((isLast_iff t).mp h)
      rw [Dat.leavesExact_idle (dat1 V c) 8 t (out_idle t hc1) (out_unflushed t hc1)]
      rw [accAt_next V c t h0]; unfold accStepAt
      iintro ⟨⟨Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave Hsw := others1_swap c _ (owns (c : Thread nD τ) accM fullShare (accStep (iblk1 V c 0 t) (iblk1 V c 1 t) (iblk1 V c 2 t) (iblk1 V c 3 t) (iblk1 V c 4 t) (iblk1 V c 5 t) (iblk1 V c 6 t) (iblk1 V c 7 t) (accAt V c (t.val - 1) (Nat.lt_of_le_of_lt (Nat.sub_le _ _) t.isLt)))) $$ Hoth
      icases Hsw with ⟨HS, Hcl⟩
      iapply (tile_middle c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (iblk1 V c 0 t) (iblk1 V c 1 t) (iblk1 V c 2 t) (iblk1 V c 3 t) (iblk1 V c 4 t) (iblk1 V c 5 t) (iblk1 V c 6 t) (iblk1 V c 7 t) hc0 hc1 (accAt V c (t.val - 1) (Nat.lt_of_le_of_lt (Nat.sub_le _ _) t.isLt)) ((dat1 V c).before 8 t d8) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS Hcl Hg]
      · isplitl [HS Hcl]
        · iapply Hcl; iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands call 1 is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact PhiS_forget V c _ _

end Cert.Kernel.Frm

end
-- ==== Proof.KB.Chain.lean ====
import proofs.«127374_j73383811219637_1_alg».proof.Proof.KB.Data
import proofs.«127374_j73383811219637_1_alg».proof.Proof.Gen.Kernel.Regions

/-! # The buffers' contents at each boundary of @main

@main is: seven host operations (the points transposed to channel-major, six vectors reshaped to columns), call 0,
call 1, one host operation (the output reshaped). The contents of a core's buffers at each boundary are a fold from
the launch memory: a host stretch applies its operations; a call leaves each of its arrays at what its write-backs
fold to and every other buffer as it found it. A buffer that no host operation writes and that each call only reads
or does not touch ends as launched. -/

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the seven host operations: what call 0 is entered from. -/
abbrev W1 : Dev nD → Valuation τ sig (Elt F) := fun c => StableHlo.after hostOps0 (W0 m c)
/-- The same read at the TensorCore's references. -/
abbrev V1 : Entry F := fun c b => W1 m c b
/-- After call 0: its arrays at what its write-backs leave, every other buffer as entered. What call 1 is entered from. -/
def W2 (c : Dev nD) : Valuation τ sig (Elt F) :=
  Pipeline.withArrays spec0 c (W1 m c) fun w => (dat0 (V1 m) c).arrAt w cfg0.N
abbrev V2 : Entry F := fun c b => W2 m c b
/-- After call 1. -/
def W3 (c : Dev nD) : Valuation τ sig (Elt F) :=
  Pipeline.withArrays spec1 c (W2 m c) fun w => (dat1 (V2 m) c).arrAt w cfg1.N
abbrev V3 : Entry F := fun c b => W3 m c b
/-- After the last host operation: at the return. -/
abbrev W4 : Dev nD → Valuation τ sig (Elt F) := fun c => StableHlo.after hostOps2 (W3 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An array call 0 only reads keeps its contents. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W3_in (c : Dev nD) (w : Fin cfg1.W) (hin : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hin _).trans (A_eq1 (V2 m) c w))
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- A buffer no host operation writes and each call either only reads or does not touch ends as launched. -/
theorem W4_kept (c : Dev nD) (b : Ref sig .tc) (h0 : b ∉ hostOps0_W) (h2 : b ∉ hostOps2_W)
    (h1 : (∃ w, Pipeline.arrRef spec0 w = b ∧ (cfg0.win w).isOut = false) ∨ ∀ w, Pipeline.arrRef spec0 w ≠ b)
    (h1' : (∃ w, Pipeline.arrRef spec1 w = b ∧ (cfg1.win w).isOut = false) ∨ ∀ w, Pipeline.arrRef spec1 w ≠ b) :
    W4 m c (Proc.devRef .tc b) = m ((c : Thread nD τ).loc b) := by
  have e4 : W4 m c (Proc.devRef .tc b) = W3 m c (Proc.devRef .tc b) :=
    StableHlo.after_of_writes_sub hostOps2 _ hostOps2_writes h2
  have e3 : W3 m c (Proc.devRef .tc b) = W2 m c (Proc.devRef .tc b) := by
    rcases h1' with ⟨w, rfl, hin⟩ | hne
    · exact W3_in m c w hin
    · exact W3_of_ne m c b hne
  have e2 : W2 m c (Proc.devRef .tc b) = W1 m c (Proc.devRef .tc b) := by
    rcases h1 with ⟨w, rfl, hin⟩ | hne
    · exact W2_in m c w hin
    · exact W2_of_ne m c b hne
  have e1 : W1 m c (Proc.devRef .tc b) = W0 m c (Proc.devRef .tc b) :=
    StableHlo.after_of_writes_sub hostOps0 _ hostOps0_writes h0
  exact e4.trans (e3.trans (e2.trans (e1.trans rfl)))

end Cert.Kernel.Frm

end
-- ==== Proof.KB.Run.lean ====
import proofs.«127374_j73383811219637_1_alg».proof.Proof.KB.Chain

/-! # @main from the launch to the return

Over the buffers' contents at each boundary (Chain.lean) each call is a region segment of the
several-regions launch: its arrays are split out of the core's unscoped buffers at entry and put back at exit, the
generator register and the scoped rest go into the call's invariant and come back, nothing is owed. The run's post
names EVERY unscoped buffer's final contents; the frame claim and the value claim both read it.

The two body obligations, and that call 1's invariant after its last point gives the scoped rest back, are hypotheses
here; before its first point call 1's invariant is the scoped rest by definition. -/

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Both calls' proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes. -/
abbrev Tₙ (c : Dev nD) : sProp 𝕄 := iprop(StableHlo.held (c : Thread nD τ) (Pipeline.ucRefs τ sig) (W4 m c) ∗ ∃ r, prngReg c r)

/-! ## The calls as segments -/

section Segments

variable (hb0 : ∀ (V : Entry F) (c : Dev nD), BodyObligation (dat0 (F := F) V c) (defs₀ (F := F)) Variants.none () Set.univ)
  (hb1 : ∀ (V : Entry F) (c : Dev nD), BodyObligation (dat1 (F := F) V c) (defs₀ (F := F)) Variants.none () Set.univ)
  (hout1 : ∀ (V : Entry F) (c : Dev nD), (dat1 (F := F) V c).Φ (Fin.last cfg1.N) ⊢ Pipeline.ΦA (U := UR sig nD τ) spec1 c)

set_option backward.isDefEq.respectTransparency.types false in
/-- CALL 0 over the thread state: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1 over the thread state: entered from every unscoped buffer at W2, left at W3. Its invariant starts as the
    scoped rest with the generator register and ends giving them back, the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    refine (hout1 (V2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hseg hostOps0 hostOps0_sub hostOps0_fresh (W0 m)),
    .region (reg0 m hb0),
    .region (reg1 m hb1 hout1),
    .host (hseg hostOps2 hostOps2_sub hostOps2_fresh (W3 m)) ]

include hb0 hb1 hout1 in
set_option backward.isDefEq.respectTransparency.types false in
/-- THE RUN: from any memory with zero counters every weakly fair execution of @main terminates, nothing faulting, and
    in every final memory each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m hb0 hb1 hout1)
    (fun c Q => by
      rewrite [main_chain c, Pipeline.Seg.run_eq_chain,
        show (segs m hb0 hb1 hout1).map Pipeline.Seg.prog = [
          StableHlo.seq hostOps0,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => (show iprop(StableHlo.held (c : Thread nD τ) (Pipeline.ucRefs τ sig) (W4 m c) ∗ R c)
          ⊢ (iprop(Tₙ m c ∗ ∃ W, owes (c : Thread nD τ) (0 : CellTallies nD τ sig Unit) W) : sProp 𝕄) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

include hb0 hb1 hout1 in
/-- THE RESULT AND THE FRAME: the result buffer ends at the last boundary's contents, every argument array as launched. -/
theorem run_result : θ_run defs (onTc (τ := τ) (main (F := F))) ⟨m, fun _ => 0, ρ⟩ (fun r => ∀ c : Dev nD,
      r.2.mem ((c.tc : Thread nD τ).loc main_v9) = W4 m c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    h c _ (mem_uc main_v9 (by decide)),
    (h c _ (mem_uc main_arg0 (by decide))).trans (W4_kept m c main_arg0 (by decide) (by decide) (.inr (by decide)) (.inr (by decide))),
    (h c _ (mem_uc main_arg1 (by decide))).trans (W4_kept m c main_arg1 (by decide) (by decide) (.inl ⟨1, rfl, rfl⟩) (.inl ⟨2, rfl, rfl⟩)),
    (h c _ (mem_uc main_arg2 (by decide))).trans (W4_kept m c main_arg2 (by decide) (by decide) (.inl ⟨2, rfl, rfl⟩) (.inr (by decide))),
    (h c _ (mem_uc main_arg3 (by decide))).trans (W4_kept m c main_arg3 (by decide) (by decide) (.inr (by decide)) (.inr (by decide))),
    (h c _ (mem_uc main_arg4 (by decide))).trans (W4_kept m c main_arg4 (by decide) (by decide) (.inr (by decide)) (.inr (by decide))),
    (h c _ (mem_uc main_arg5 (by decide))).trans (W4_kept m c main_arg5 (by decide) (by decide) (.inl ⟨5, rfl, rfl⟩) (.inr (by decide))),
    (h c _ (mem_uc main_arg6 (by decide))).trans (W4_kept m c main_arg6 (by decide) (by decide) (.inr (by decide)) (.inr (by decide))),
    (h c _ (mem_uc main_arg7 (by decide))).trans (W4_kept m c main_arg7 (by decide) (by decide) (.inr (by decide)) (.inl ⟨3, rfl, rfl⟩)),
    (h c _ (mem_uc main_arg8 (by decide))).trans (W4_kept m c main_arg8 (by decide) (by decide) (.inr (by decide)) (.inr (by decide))),
    (h c _ (mem_uc main_arg9 (by decide))).trans (W4_kept m c main_arg9 (by decide) (by decide) (.inr (by decide)) (.inr (by decide))),
    (h c _ (mem_uc main_arg10 (by decide))).trans (W4_kept m c main_arg10 (by decide) (by decide) (.inr (by decide)) (.inl ⟨6, rfl, rfl⟩)),
    (h c _ (mem_uc main_arg11 (by decide))).trans (W4_kept m c main_arg11 (by decide) (by decide) (.inr (by decide)) (.inr (by decide)))⟩)
    (run_all m ρ hb0 hb1 hout1)

include hb0 hb1 hout1 in
/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ hb0 hb1 hout1)

end Segments

end Cert.Kernel.Frm

end
-- ==== Proof.KI.Blocks.lean ====
import proofs.«127374_j73383811219637_1_alg».proof.Proof.Gen.KernelIdeal.Skeleton
import proofs.«127374_j73383811219637_1_alg».proof.Proof.Gen.KernelIdeal.Points
import Idealize.ShloMosaic.Lib.Pipeline.FrameBody

/-! # The two pallas_calls as functions of their input blocks

Call 0 runs once per batch element (32 points): from the batch's points (channel-major, 3 × 4096), its
visibility mask and the weights it computes h3 = w2 · relu(mask · LN₁(w1 · x)) + b2 (256 × 4096) and the row
maxima gmax (256 × 1) of h3 over the 4096 positions.

Call 1 runs on the grid 32 × 4: at tile j of batch b it takes 1024 positions of h3, the batch's gmax,
the mask's 1024 positions and the weights, and folds the row maxima of
w4 · relu(mask · LN₂(w3 · [gmax; h3])) + b4 (1024 × 1024) into a 1024 × 1 accumulator that is reset to −∞ at
j = 0; at j = 3 the accumulator, transposed, is the batch's output row.

Everything here is pure and generic in the float instance: the block a window shows at a point, the two calls'
stored values as functions of the loaded blocks (over the payload names of the printed bodies), and the
accumulator by recursion on the point. -/

noncomputable section

namespace Cert.KernelIdeal.Frm

open Idealize.ShloMosaic Idealize.ShloMosaic.TcCoe
open Idealize.SL Idealize.SL.Sem
open Cert.KernelIdeal Cert.KernelIdeal.Gen

variable {F : FTy → Type} [FloatOps F]

/-- The contents of core c's buffers when a call is entered: the parameter both calls are stated at. -/
abbrev Entry (F : FTy → Type) [FloatOps F] : Type := (c : Dev nD) → (b : Ref sig .tc) → Buf (Elt F) ((c : Thread nD τ).loc b)

variable (V : Entry F)

/-! ## Call 0 -/

/-- Window w's block at point t of call 0, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- h3 of one batch element, as call 0 stores it: from the points block x0, the mask block x1, w1, g1, be1
    (columns), w2 and b2 (column). -/
def h3blk (x0 : Vec F S1x3x4096 .f32) (x1 : Vec F S1x1x4096 .i32) (x2 : Vec F S128x3 .f32) (x3 : Vec F S128x1 .f32)
    (x4 : Vec F S128x1 .f32) (x5 : Vec F S256x128 .f32) (x6 : Vec F S256x1 .f32) : Vec F S1x256x4096 .f32 :=
  k0_pay2 (k0_pay4 x0 x1 x2 x3 x4) x5 x6

/-- The row maxima of that h3 over the positions, as call 0 stores them. -/
def gmblk (x0 : Vec F S1x3x4096 .f32) (x1 : Vec F S1x1x4096 .i32) (x2 : Vec F S128x3 .f32) (x3 : Vec F S128x1 .f32)
    (x4 : Vec F S128x1 .f32) (x5 : Vec F S256x128 .f32) (x6 : Vec F S256x1 .f32) : Vec F S1x256x1 .f32 :=
  k0_pay3 (k0_pay4 x0 x1 x2 x3 x4) x5 x6

/-- What call 0 leaves in the h3 window's buffer at point t. -/
def h3At (c : Dev nD) (t : Fin cfg0.N) : Vec F S1x256x4096 .f32 :=
  h3blk (iblk0 V c 0 t) (iblk0 V c 1 t) (iblk0 V c 2 t) (iblk0 V c 3 t) (iblk0 V c 4 t) (iblk0 V c 5 t) (iblk0 V c 6 t)

/-- What call 0 leaves in the gmax window's buffer at point t. -/
def gmAt (c : Dev nD) (t : Fin cfg0.N) : Vec F S1x256x1 .f32 :=
  gmblk (iblk0 V c 0 t) (iblk0 V c 1 t) (iblk0 V c 2 t) (iblk0 V c 3 t) (iblk0 V c 4 t) (iblk0 V c 5 t) (iblk0 V c 6 t)

/-! ## Call 1 -/

/-- Window w's block at point t of call 1, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after one tile: the old accumulator acc against the row maxima of the tile's h7, from the
    h3 tile x0, the batch's gmax x1, the mask tile x2, w3, g2, be2 (columns), w4, b4 (column). -/
def accStep (x0 : Vec F S1x256x1024 .f32) (x1 : Vec F S1x256x1 .f32) (x2 : Vec F S1x1x1024 .i32) (x3 : Vec F S512x512 .f32)
    (x4 : Vec F S512x1 .f32) (x5 : Vec F S512x1 .f32) (x6 : Vec F S1024x512 .f32) (x7 : Vec F S1024x1 .f32)
    (acc : Vec F S1024x1 .f32) : Vec F S1024x1 .f32 :=
  k1_pay1 (k1_pay4 x2) (k1_pay7 x0 x1 x3) (k1_pay8 x0 x1 x3) x4 x5 x6 x7 acc

/-- The accumulator a batch starts from: −∞ everywhere. -/
def accInit : Vec F S1024x1 .f32 := k1_pay3 (F := F)

/-- One tile's step at point t of call 1, on the blocks the call finds there. -/
def accStepAt (c : Dev nD) (t : Fin cfg1.N) (acc : Vec F S1024x1 .f32) : Vec F S1024x1 .f32 :=
  accStep (iblk1 V c 0 t) (iblk1 V c 1 t) (iblk1 V c 2 t) (iblk1 V c 3 t) (iblk1 V c 4 t) (iblk1 V c 5 t) (iblk1 V c 6 t) (iblk1 V c 7 t) acc

/-- THE ACCUMULATOR after point n of call 1 (points are batch-major, four tiles a batch): at a batch's first tile
    the step from −∞, at the others the step from what the point before left. -/
def accAt (c : Dev nD) : (n : ℕ) → n < cfg1.N → Vec F S1024x1 .f32
  | 0, hn => accStepAt V c ⟨0, hn⟩ accInit
  | n + 1, hn =>
    if (n + 1) % 4 = 0 then accStepAt V c ⟨n + 1, hn⟩ accInit
    else accStepAt V c ⟨n + 1, hn⟩ (accAt c n (Nat.lt_of_succ_lt hn))

theorem accAt_first (c : Dev nD) (t : Fin cfg1.N) (h : t.val % 4 = 0) :
    accAt V c t.val t.isLt = accStepAt V c t accInit := by
  obtain ⟨n, hn⟩ := t
  cases n with
  | zero => rfl
  | succ n => exact if_pos h

theorem accAt_next (c : Dev nD) (t : Fin cfg1.N) (h : ¬ t.val % 4 = 0) :
    accAt V c t.val t.isLt = accStepAt V c t (accAt V c (t.val - 1) (Nat.lt_of_le_of_lt (Nat.sub_le _ _) t.isLt)) := by
  obtain ⟨n, hn⟩ := t
  cases n with
  | zero => exact absurd (Nat.zero_mod _) h
  | succ n => exact if_neg h

/-- The output row a batch's last tile stores: the accumulator transposed. -/
def outblk (acc : Vec F S1024x1 .f32) : Vec F S1x1x1024 .f32 := k1_pay2 acc

end Cert.KernelIdeal.Frm

end
-- ==== Proof.KI.Data.lean ====
import proofs.«127374_j73383811219637_1_alg».proof.Proof.KI.Blocks
import proofs.«127374_j73383811219637_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The proof data of the two calls

For each call, at the contents V the call is entered from: the windowed arrays are V's; after the body at a
point an input window's buffer still shows its block and an output window's buffer holds the call's function of
the point's input blocks (Blocks.lean). Call 0 keeps nothing between points. Call 1 keeps the accumulator: its
invariant after point n holds the accumulator's buffer at accAt n, beside the core's other scoped buffers at
anything and the generator register at some state; before the first point nothing is known of it. -/

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-! ## Call 0 -/

/-- Call 0's proof data on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => h3At V c t
    | ⟨8, _⟩ => gmAt V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = h3At V c t := by dsimp only [dat0]
theorem after0_8 (c : Dev nD) (t : Fin cfg0.N) : (dat0 V c).after 8 t = gmAt V c t := by dsimp only [dat0]

/-! ## Call 1 -/

/-- The accumulator's buffer as the body is handed it: the whole scratch buffer. -/
abbrev accM : Memref sig .tc .vmem S1024x1 .f32 := Memref.whole cc1_scratch0

/-- A scoped buffer of the core whole at some contents. -/
abbrev someAt (c : Dev nD) (b : Ref sig .tc) : sProp 𝕄 :=
  iprop(∃ f : Buf (Elt F) ((c : Thread nD τ).loc b), ((c : Thread nD τ).loc b) ↦{fullShare} f)

/-- The scoped buffers call 1 does not stage, but for the accumulator's: call 0's staging buffers, each at some contents. -/
abbrev others1 (c : Dev nD) (P : sProp 𝕄) : sProp 𝕄 :=
  iprop(someAt c cc0_stg0_0 ∗ someAt c cc0_stg0_1 ∗ someAt c cc0_stg1_0 ∗ someAt c cc0_stg1_1 ∗ someAt c cc0_stg2_0
    ∗ someAt c cc0_stg3_0 ∗ someAt c cc0_stg4_0 ∗ someAt c cc0_stg5_0 ∗ someAt c cc0_stg6_0 ∗ someAt c cc0_stg7_0
    ∗ someAt c cc0_stg7_1 ∗ someAt c cc0_stg8_0 ∗ someAt c cc0_stg8_1 ∗ P)

/-- Call 1's invariant before point n: before the first point the scoped rest and the generator register, every
    buffer at anything; afterwards the same with the accumulator's buffer at what point n - 1 left. -/
def PhiS (c : Dev nD) : (n : ℕ) → n ≤ cfg1.N → sProp 𝕄
  | 0, _ => Pipeline.ΦA spec1 c
  | n + 1, hn => iprop(others1 c (owns (c : Thread nD τ) accM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 c (owns (c : Thread nD τ) accM fullShare (accAt V c n hn)) ∗ (∃ r, prngReg c r)) := rfl

theorem PhiS_pos (c : Dev nD) (n : ℕ) (h : n ≤ cfg1.N) (hz : n ≠ 0) :
    PhiS V c n h = iprop(others1 c (owns (c : Thread nD τ) accM fullShare (accAt V c (n - 1) (by omega))) ∗ (∃ r, prngReg c r)) := by
  cases n with
  | zero => exact absurd rfl hz
  | succ n => rfl

/-- The class's invariant with the accumulator's buffer named: what the body is handed at a batch's first tile. -/
theorem PhiA1_eq (c : Dev nD) :
    (Pipeline.ΦA spec1 c : sProp 𝕄) = iprop(others1 c iprop(∃ d, owns (c : Thread nD τ) accM fullShare d) ∗ (∃ r, prngReg c r)) := by
  unfold Pipeline.ΦA; rw [scopedRest1_eq]; simp only [accM, owns_whole]; try rfl

/-- Call 1's proof data on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => outblk (accAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = outblk (accAt V c t.val t.isLt) := by dsimp only [dat1]

end Cert.KernelIdeal.Frm

end
-- ==== Proof.KI.Region0.lean ====
import proofs.«127374_j73383811219637_1_alg».proof.Proof.KI.Data
import Idealize.ShloMosaic.Lib.Pipeline.Value

/-! # Call 0's body obligation

Call 0 keeps nothing from point to point and takes no branch. At every point its body loads each of its seven
input windows whole, computes h3 and its row maxima, and stores each of the two output windows whole, one store
each. So:

* an input window's current buffer shows that window's block at every point, whether the block was brought in
  at that point or at an earlier one (the weights and biases are brought in once, at the first point, and their
  block index never moves afterwards);
* on whole buffers holding x0 … x6 the body ends with the inputs as they were and the outputs at
  `h3blk x0 … x6` and `gmblk x0 … x6`: a load of a whole block reads the buffer's contents, and one store of a
  whole block, read back, is the stored value whatever the buffer held before;
* at a generic point the obligation's precondition is that triple's precondition at the point's blocks, and the
  triple's postcondition is the obligation's; the invariant and the core's debts pass through untouched.

The blocks are large, so the values stay variables in the triple and are only instantiated at the point's blocks,
with every argument explicit, in the step from the triple to the obligation. -/

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-! ## What the body finds in an input window's buffer

An input window's body leaves the block in place, the window is never cut short and no point is idle for it: so
its current buffer shows the array's block at the point, fetched there or not (not fetched, the block index has
not moved since the point before). -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-! ## Whole-block loads and stores -/

/-- Offsets all zero, rank 2 and rank 3. -/
theorem zeros2 : (![0, 0] : Fin 2 → ℕ) = fun _ => 0 := funext fun a => by fin_cases a <;> rfl
theorem zeros3 : (![0, 0, 0] : Fin 3 → ℕ) = fun _ => 0 := funext fun a => by fin_cases a <;> rfl

/-- One store of a whole block, read back through the view: the payload, whatever the buffer held. -/
theorem read_store_whole {sg : RefSig} {κ : Kind} {sp : Space} {S : Shape} {e : EltTy} {off : Fin S.rank → ℕ}
    (h : off = fun _ => 0) (inb : ∀ a, off a + S.size a ≤ S.size a) (v : View sg κ sp S e)
    (f : v.ty.Contents (Elt F)) (w : S.Idx → Elt F e) :
    v.read (Elt F) (v.writes (Elt F) f [(⟨Rect.unit off S.size inb, w⟩ : View.Piece (Elt F) S e)]) = w := by
  have hcov : ∀ y, ∃ p ∈ ([(⟨Rect.unit off S.size inb, w⟩ : View.Piece (Elt F) S e)]), y ∈ p.1.set :=
    fun y => ⟨_, List.mem_singleton_self _, View.mem_set_unit_zero h inb y⟩
  rw [View.read_writes_eq_canon v f _ hcov, View.canon_unit_zero h inb w]

/-- A load of the whole block reads the buffer's contents as the view shows them. -/
theorem load_whole {sg : RefSig} {κ : Kind} {sp : Space} {S : Shape} {e : EltTy} {off : Fin S.rank → ℕ}
    (h : off = fun _ => 0) (inb : ∀ a, off a + S.size a ≤ S.size a) (v : View sg κ sp S e)
    (f : v.ty.Contents (Elt F)) :
    v.readAt (Elt F) (Rect.unit off S.size inb).toLoadRect f = v.read (Elt F) f :=
  (View.readAt_eq_ld v f _).trans (View.ld_unit_zero h inb _)

/-! ## The body's triple -/

set_option maxHeartbeats 1000000 in
/-- The body on whole staging buffers, the seven inputs' at contents x0 … x6 and the two outputs' at anything, runs
    to the continuation holding the inputs' as they were and the outputs' at `h3blk x0 … x6` and `gmblk x0 … x6`.
    The body is five whole-block loads in its first part, two more after it, and one whole-block store per
    output (each preceded by a load of the output buffer whose value is never used). Each load reads the buffer's
    contents; each store, read back, is its payload; and the two payloads are by definition `h3blk` and `gmblk` of
    the loaded values. -/
theorem sound_kernel0 (c : Dev nD) (E : Set ℕ) (i : grid0.Coords) (arg1 : Memref sig .tc .vmem S1x3x4096 .f32) (harg1 : arg1.IsWhole) (arg2 : Memref sig .tc .vmem S1x1x4096 .i32) (harg2 : arg2.IsWhole) (arg3 : Memref sig .tc .vmem S128x3 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S256x128 .f32) (harg6 : arg6.IsWhole) (arg7 : Memref sig .tc .vmem S256x1 .f32) (harg7 : arg7.IsWhole) (arg8 : Memref sig .tc .vmem S1x256x4096 .f32) (harg8 : arg8.IsWhole) (arg9 : Memref sig .tc .vmem S1x256x1 .f32) (harg9 : arg9.IsWhole)
    (x0 : Vec F S1x3x4096 .f32) (x1 : Vec F S1x1x4096 .i32) (x2 : Vec F S128x3 .f32) (x3 : Vec F S128x1 .f32) (x4 : Vec F S128x1 .f32) (x5 : Vec F S256x128 .f32) (x6 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (h3blk x0 x1 x2 x3 x4 x5 x6) ∗ owns (c : Thread nD τ) arg9 fullShare (gmblk x0 x1 x2 x3 x4 x5 x6)) -∗ K ⟨⟩))
      ⊢ wp frame (wpE (defs₀ (F := F)) Variants.none c none) E (cc0__kernel1 i arg1 harg1 arg2 harg2 arg3 harg3 arg4 harg4 arg5 harg5 arg6 harg6 arg7 harg7 arg8 harg8 arg9 harg9) K := by
  simp only [cc0__kernel1_eq_skeleton]; unfold cc0__kernel1_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [read_store_whole (S := S1x256x4096) zeros3, load_whole (S := S1x3x4096) zeros3, load_whole (S := S1x1x4096) zeros3,
      load_whole (S := S128x3) zeros2, load_whole (S := S128x1) zeros2, load_whole (S := S128x1) zeros2,
      load_whole (S := S256x128) zeros2, load_whole (S := S256x1) zeros2]
    rfl
  iexists _; isplitr
  swap; · iexact H9
  ipureintro
  rw [read_store_whole (S := S1x256x1) zeros3, load_whole (S := S1x3x4096) zeros3, load_whole (S := S1x1x4096) zeros3,
      load_whole (S := S128x3) zeros2, load_whole (S := S128x1) zeros2, load_whole (S := S128x1) zeros2,
      load_whole (S := S256x128) zeros2, load_whole (S := S256x1) zeros2]
  rfl

/-! ## The body obligation, at a generic point -/

/-- What the body is handed at point t: the invariant, the core's debts, and each window's current buffer at what it
    then holds (the obligation's precondition, its windows written out one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point. The input buffers hold the point's blocks (`before0_0` … `before0_6`) and the output
    buffers hold something, which is the triple's precondition at x_w the block of window w at t; the triple leaves the
    inputs at their blocks and the outputs at `h3At` and `gmAt`, which is what the proof data say the body leaves.
    The invariant does not depend on the point and nothing is owed, so both pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  unfold h3At gmAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- Call 0's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.Region1.lean ====
import proofs.«127374_j73383811219637_1_alg».proof.Proof.KI.Data
import Idealize.ShloMosaic.Lib.Pipeline.Value

/-! # Call 1's body at every point of its grid

Call 1 runs on the grid 32 × 4, batch-major: point t is tile t mod 4 of batch t / 4. The body's control depends on the
tile only. At a batch's FIRST tile it resets the accumulator to −∞ before reading it; at every tile it replaces the
accumulator by the step of the tile's blocks from what the accumulator held; at a batch's LAST tile it also stores the
accumulator, transposed, into the output window's buffer. At the other tiles the output window's buffer is not touched
and the pipeline does not write it back.

This module proves: each input window's buffer holds the window's block at every point, fetched there or not; the body's
Hoare triple in each of the three cases, over the named values of Blocks.lean; and from them the body obligation of
call 1's proof data (Data.lean) at a generic point, with the invariant's two ends. -/

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-! ## The input windows' buffers hold their blocks

An input window's block index either moves at a point, and then the block is fetched there, or stays, and then the buffer
still holds the block of the point before, which is this point's: the body leaves every input buffer as it found it. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-! ## The two conditions of the body, as functions of the point -/

/-- The body's first condition at coordinates i: the tile index is 0. -/
abbrev isFirst (i : grid1.Coords) : Prop :=
  (Scalar.cmpi .ne (Scalar.extui (Scalar.cmpi .eq (BitVec.ofNat 32 (i 1).val) 0#32)) 0#32) = 1#1

/-- The body's second condition at coordinates i: the tile index is 3. -/
abbrev isLast (i : grid1.Coords) : Prop := k1_cond2 i = 1#1

/-- Points are batch-major with four tiles a batch: the first condition holds exactly at the points ≡ 0 (mod 4). -/
theorem isFirst_iff : ∀ t : Fin cfg1.N, isFirst (grid1.coords t) ↔ t.val % 4 = 0 :=
  (by decide +kernel : ∀ t : Fin grid1.N, isFirst (grid1.coords t) ↔ t.val % 4 = 0)

/-- The second condition holds exactly at the points ≡ 3 (mod 4). -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle

The input windows are live at every point. The output window is idle, and not written back, exactly where the second
condition fails; where it holds the window is live. -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel
theorem live1_6 : ∀ t : Fin cfg1.N, cfg1.idle 6 (grid1.coords t) = false := by decide +kernel
theorem live1_7 : ∀ t : Fin cfg1.N, cfg1.idle 7 (grid1.coords t) = false := by decide +kernel

theorem out_idle : ∀ t : Fin cfg1.N, ¬isLast (grid1.coords t) → cfg1.idle 8 (grid1.coords t) = true := by decide +kernel
theorem out_unflushed : ∀ t : Fin cfg1.N, ¬isLast (grid1.coords t) → (cfg1.win 8).flush t = false := by decide +kernel
theorem out_live : ∀ t : Fin cfg1.N, isLast (grid1.coords t) → cfg1.idle 8 (grid1.coords t) = false := by decide +kernel

/-! ## The body's triple, case by case

On whole memrefs: the eight inputs at contents x0 … x7, the accumulator's at xs (or at anything, where the body resets it
before reading it), the output's at anything (where the body stores into it) or at contents it hands back untouched. The
body loads every buffer through the rectangle of the whole shape at zero offsets and stores likewise, so a load reads the
contents and what a store leaves is its payload; a load of the accumulator after a store in the same run reads what was
stored. -/

/-- The offsets of the whole-shape rectangle are zero on every axis, in rank 2 and in rank 3. -/
theorem origin2 : (![0, 0] : Fin 2 → Nat) = fun _ => 0 := funext fun a => by fin_cases a <;> rfl
theorem origin3 : (![0, 0, 0] : Fin 3 → Nat) = fun _ => 0 := funext fun a => by fin_cases a <;> rfl

section Tile

variable (c : Dev nD) (i : grid1.Coords)
  (a0 : Memref sig .tc .vmem S1x256x1024 .f32) (w0 : a0.IsWhole)
  (a1 : Memref sig .tc .vmem S1x256x1 .f32) (w1 : a1.IsWhole)
  (a2 : Memref sig .tc .vmem S1x1x1024 .i32) (w2 : a2.IsWhole)
  (a3 : Memref sig .tc .vmem S512x512 .f32) (w3 : a3.IsWhole)
  (a4 : Memref sig .tc .vmem S512x1 .f32) (w4 : a4.IsWhole)
  (a5 : Memref sig .tc .vmem S512x1 .f32) (w5 : a5.IsWhole)
  (a6 : Memref sig .tc .vmem S1024x512 .f32) (w6 : a6.IsWhole)
  (a7 : Memref sig .tc .vmem S1024x1 .f32) (w7 : a7.IsWhole)
  (ao : Memref sig .tc .vmem S1x1x1024 .f32) (wo : ao.IsWhole)
  (aa : Memref sig .tc .vmem S1024x1 .f32) (wa : aa.IsWhole)
  (x0 : Vec F S1x256x1024 .f32) (x1 : Vec F S1x256x1 .f32) (x2 : Vec F S1x1x1024 .i32) (x3 : Vec F S512x512 .f32) (x4 : Vec F S512x1 .f32) (x5 : Vec F S512x1 .f32) (x6 : Vec F S1024x512 .f32) (x7 : Vec F S1024x1 .f32)

set_option maxHeartbeats 1000000 in
/-- A batch's FIRST tile: whatever the accumulator held, it ends at the step from −∞; the output's buffer is handed back
    as found. -/
theorem tile_first (hc0 : isFirst i) (hc1 : ¬isLast i) (xo : Vec F S1x1x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ owns (c : Thread nD τ) ao fullShare xo ∗ (∃ d, owns (c : Thread nD τ) aa fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) ao fullShare xo
            ∗ owns (c : Thread nD τ) aa fullShare (accStep x0 x1 x2 x3 x4 x5 x6 x7 accInit)) -∗ K ⟨⟩))
      ⊢ wp frame (wpE (defs₀ (F := F)) Variants.none c none) E (cc1__kernel2 i a0 w0 a1 w1 a2 w2 a3 w3 a4 w4 a5 w5 a6 w6 a7 w7 ao wo aa wa) K := by
  simp only [cc1__kernel2_eq_skeleton]; unfold cc1__kernel2_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, Ho⟩, ⟨%da, %fa, -, Ha⟩, Hk⟩
  obtain rfl := w0.eq_unread hf0; obtain rfl := w1.eq_unread hf1; obtain rfl := w2.eq_unread hf2; obtain rfl := w3.eq_unread hf3; obtain rfl := w4.eq_unread hf4; obtain rfl := w5.eq_unread hf5; obtain rfl := w6.eq_unread hf6; obtain rfl := w7.eq_unread hf7; obtain rfl := wo.eq_unread hfo
  sl_exec (disch := first | exact hc0 | exact hc1)
  sl_step
  iapply Hk
  isplitl [H0]
  · iexists _; isplitr; · ipureintro; exact w0.read_unread _
    iexact H0
  isplitl [H1]
  · iexists _; isplitr; · ipureintro; exact w1.read_unread _
    iexact H1
  isplitl [H2]
  · iexists _; isplitr; · ipureintro; exact w2.read_unread _
    iexact H2
  isplitl [H3]
  · iexists _; isplitr; · ipureintro; exact w3.read_unread _
    iexact H3
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; · ipureintro; exact w7.read_unread _
    iexact H7
  isplitl [Ho]
  · iexists _; isplitr; · ipureintro; exact wo.read_unread _
    iexact Ho
  iexists _; isplitr
  swap; · iexact Ha
  ipureintro
  sl_unfold_words
  rw [View.read_writes_eq_canon _ _ _ (fun y => ⟨_, List.Mem.head _, View.mem_set_unit_zero origin2 inb_S1024x1_S1024x1_0_0 y⟩)]
  rw [View.canon_cons_unit_zero (S := S1024x1) origin2]
  unfold accStep accInit
  simp only [View.readAt_eq_ld, w0.read_unread, w1.read_unread, w2.read_unread, w3.read_unread, w4.read_unread, w5.read_unread, w6.read_unread, w7.read_unread,
    View.ld_unit_zero (S := S1x256x1024) origin3, View.ld_unit_zero (S := S1x256x1) origin3, View.ld_unit_zero (S := S1x1x1024) origin3,
    View.ld_unit_zero (S := S512x512) origin2, View.ld_unit_zero (S := S512x1) origin2, View.ld_unit_zero (S := S1024x512) origin2,
    View.ld_unit_zero (S := S1024x1) origin2, View.readCov_unit_zero (S := S1024x1) _ origin2]

set_option maxHeartbeats 1000000 in
/-- A MIDDLE tile: the accumulator goes from xs to the step from xs; the output's buffer is handed back as found. -/
theorem tile_middle (hc0 : ¬isFirst i) (hc1 : ¬isLast i) (xs : Vec F S1024x1 .f32) (xo : Vec F S1x1x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ owns (c : Thread nD τ) ao fullShare xo ∗ owns (c : Thread nD τ) aa fullShare xs
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) ao fullShare xo
            ∗ owns (c : Thread nD τ) aa fullShare (accStep x0 x1 x2 x3 x4 x5 x6 x7 xs)) -∗ K ⟨⟩))
      ⊢ wp frame (wpE (defs₀ (F := F)) Variants.none c none) E (cc1__kernel2 i a0 w0 a1 w1 a2 w2 a3 w3 a4 w4 a5 w5 a6 w6 a7 w7 ao wo aa wa) K := by
  simp only [cc1__kernel2_eq_skeleton]; unfold cc1__kernel2_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, Ho⟩, ⟨%fa, %hfa, Ha⟩, Hk⟩
  obtain rfl := w0.eq_unread hf0; obtain rfl := w1.eq_unread hf1; obtain rfl := w2.eq_unread hf2; obtain rfl := w3.eq_unread hf3; obtain rfl := w4.eq_unread hf4; obtain rfl := w5.eq_unread hf5; obtain rfl := w6.eq_unread hf6; obtain rfl := w7.eq_unread hf7; obtain rfl := wo.eq_unread hfo; obtain rfl := wa.eq_unread hfa
  sl_exec (disch := first | exact hc0 | exact hc1)
  sl_step
  iapply Hk
  isplitl [H0]
  · iexists _; isplitr; · ipureintro; exact w0.read_unread _
    iexact H0
  isplitl [H1]
  · iexists _; isplitr; · ipureintro; exact w1.read_unread _
    iexact H1
  isplitl [H2]
  · iexists _; isplitr; · ipureintro; exact w2.read_unread _
    iexact H2
  isplitl [H3]
  · iexists _; isplitr; · ipureintro; exact w3.read_unread _
    iexact H3
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; · ipureintro; exact w7.read_unread _
    iexact H7
  isplitl [Ho]
  · iexists _; isplitr; · ipureintro; exact wo.read_unread _
    iexact Ho
  iexists _; isplitr
  swap; · iexact Ha
  ipureintro
  sl_unfold_words
  rw [View.read_writes_eq_canon _ _ _ (fun y => ⟨_, List.Mem.head _, View.mem_set_unit_zero origin2 inb_S1024x1_S1024x1_0_0 y⟩)]
  rw [View.canon_cons_unit_zero (S := S1024x1) origin2]
  unfold accStep
  simp only [View.readAt_eq_ld, w0.read_unread, w1.read_unread, w2.read_unread, w3.read_unread, w4.read_unread, w5.read_unread, w6.read_unread, w7.read_unread,
    View.ld_unit_zero (S := S1x256x1024) origin3, View.ld_unit_zero (S := S1x256x1) origin3, View.ld_unit_zero (S := S1x1x1024) origin3,
    View.ld_unit_zero (S := S512x512) origin2, View.ld_unit_zero (S := S512x1) origin2, View.ld_unit_zero (S := S1024x512) origin2,
    View.ld_unit_zero (S := S1024x1) origin2, wa.read_unread]

set_option maxHeartbeats 1000000 in
/-- A batch's LAST tile: the accumulator goes from xs to the step from xs, and the output's buffer, whatever it held,
    ends at that accumulator transposed. -/
theorem tile_last (hc0 : ¬isFirst i) (hc1 : isLast i) (xs : Vec F S1024x1 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ (∃ d, owns (c : Thread nD τ) ao fullShare d) ∗ owns (c : Thread nD τ) aa fullShare xs
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) ao fullShare (outblk (accStep x0 x1 x2 x3 x4 x5 x6 x7 xs))
            ∗ owns (c : Thread nD τ) aa fullShare (accStep x0 x1 x2 x3 x4 x5 x6 x7 xs)) -∗ K ⟨⟩))
      ⊢ wp frame (wpE (defs₀ (F := F)) Variants.none c none) E (cc1__kernel2 i a0 w0 a1 w1 a2 w2 a3 w3 a4 w4 a5 w5 a6 w6 a7 w7 ao wo aa wa) K := by
  simp only [cc1__kernel2_eq_skeleton]; unfold cc1__kernel2_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dout, %fo, -, Ho⟩, ⟨%fa, %hfa, Ha⟩, Hk⟩
  obtain rfl := w0.eq_unread hf0; obtain rfl := w1.eq_unread hf1; obtain rfl := w2.eq_unread hf2; obtain rfl := w3.eq_unread hf3; obtain rfl := w4.eq_unread hf4; obtain rfl := w5.eq_unread hf5; obtain rfl := w6.eq_unread hf6; obtain rfl := w7.eq_unread hf7; obtain rfl := wa.eq_unread hfa
  sl_exec (disch := first | exact hc0 | exact hc1)
  sl_step
  iapply Hk
  isplitl [H0]
  · iexists _; isplitr; · ipureintro; exact w0.read_unread _
    iexact H0
  isplitl [H1]
  · iexists _; isplitr; · ipureintro; exact w1.read_unread _
    iexact H1
  isplitl [H2]
  · iexists _; isplitr; · ipureintro; exact w2.read_unread _
    iexact H2
  isplitl [H3]
  · iexists _; isplitr; · ipureintro; exact w3.read_unread _
    iexact H3
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; · ipureintro; exact w7.read_unread _
    iexact H7
  isplitl [Ho]
  · iexists _; isplitr
    swap; · iexact Ho
    ipureintro
    sl_unfold_words
    rw [View.read_writes_eq_canon _ _ _ (fun y => ⟨_, List.Mem.head _, View.mem_set_unit_zero origin3 inb_S1x1x1024_S1x1x1024_0_0_0 y⟩)]
    rw [View.canon_cons_unit_zero (S := S1x1x1024) origin3]
    unfold outblk accStep
    simp only [View.readAt_eq_ld, w0.read_unread, w1.read_unread, w2.read_unread, w3.read_unread, w4.read_unread, w5.read_unread, w6.read_unread, w7.read_unread,
    View.ld_unit_zero (S := S1x256x1024) origin3, View.ld_unit_zero (S := S1x256x1) origin3, View.ld_unit_zero (S := S1x1x1024) origin3,
    View.ld_unit_zero (S := S512x512) origin2, View.ld_unit_zero (S := S512x1) origin2, View.ld_unit_zero (S := S1024x512) origin2,
    View.ld_unit_zero (S := S1024x1) origin2, wa.read_unread, View.readCov_unit_zero (S := S1024x1) _ origin2]
  iexists _; isplitr
  swap; · iexact Ha
  ipureintro
  sl_unfold_words
  rw [View.read_writes_eq_canon _ _ _ (fun y => ⟨_, List.Mem.head _, View.mem_set_unit_zero origin2 inb_S1024x1_S1024x1_0_0 y⟩)]
  rw [View.canon_cons_unit_zero (S := S1024x1) origin2]
  unfold accStep
  simp only [View.readAt_eq_ld, w0.read_unread, w1.read_unread, w2.read_unread, w3.read_unread, w4.read_unread, w5.read_unread, w6.read_unread, w7.read_unread,
    View.ld_unit_zero (S := S1x256x1024) origin3, View.ld_unit_zero (S := S1x256x1) origin3, View.ld_unit_zero (S := S1x1x1024) origin3,
    View.ld_unit_zero (S := S512x512) origin2, View.ld_unit_zero (S := S512x1) origin2, View.ld_unit_zero (S := S1024x512) origin2,
    View.ld_unit_zero (S := S1024x1) origin2, wa.read_unread]

end Tile

/-! ## The scoped rest around the accumulator

The invariant holds the accumulator's buffer beside thirteen other scoped buffers at anything. The body needs the
accumulator alone, and gives it back at new contents: the others stay. -/

/-- Take the last component out, and put another in its place. -/
theorem others1_swap (c : Dev nD) (P Q : sProp 𝕄) : others1 c P ⊢ iprop(P ∗ (Q -∗ others1 c Q)) := by
  iintro ⟨B0, B1, B2, B3, B4, B5, B6, B7, B8, B9, B10, B11, B12, HP⟩
  isplitl [HP]; · iexact HP
  iintro HQ
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  iexact HQ

/-- What stands in the last place may be weakened there. -/
theorem others1_mono (c : Dev nD) {P Q : sProp 𝕄} (h : P ⊢ Q) : others1 c P ⊢ others1 c Q :=
  (others1_swap c P Q).trans ((sep_mono_left h).trans wand_elim_right)

/-- At any point the invariant gives the class's back: the accumulator's named contents are forgotten. -/
theorem PhiS_forget (c : Dev nD) (n : ℕ) (h : n ≤ cfg1.N) :
    PhiS V c n h ⊢ iprop(others1 c iprop(∃ d, owns (c : Thread nD τ) accM fullShare d) ∗ (∃ r, prngReg c r)) := by
  cases n with
  | zero => rw [PhiS_zero V c 0 h rfl, PhiA1_eq]
  | succ n =>
    rw [PhiS_succ]
    exact BI.sep_mono (others1_mono c (by iintro H; iexists _; iexact H)) (Entails.refl _)

/-! ## The body obligation, at a generic point -/

/-- Each window's current staging memref at point t, as the pipeline passes it to the body, and its wholeness. -/
abbrev ms1_0 (t : Fin cfg1.N) : Memref sig .tc .vmem S1x256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1x1024 .f32 := win1_8.stage (cfg1.slots t 8)
abbrev hs1_8 (t : Fin cfg1.N) : (ms1_8 t).IsWhole := hstage1_8 ((cfg1.slots t 8).cast nbuf1_8)

/-- An input window is live at every point: after the body its current buffer is owned at the window's block. -/
theorem leaves1_0 (c : Dev nD) (t : Fin cfg1.N) :
    (dat1 V c).leavesExact 0 t = owns (c : Thread nD τ) (ms1_0 t) fullShare (iblk1 V c 0 t) := by
  unfold Dat.leavesExact; rw [live1_0 t, after1_0]
theorem leaves1_1 (c : Dev nD) (t : Fin cfg1.N) :
    (dat1 V c).leavesExact 1 t = owns (c : Thread nD τ) (ms1_1 t) fullShare (iblk1 V c 1 t) := by
  unfold Dat.leavesExact; rw [live1_1 t, after1_1]
theorem leaves1_2 (c : Dev nD) (t : Fin cfg1.N) :
    (dat1 V c).leavesExact 2 t = owns (c : Thread nD τ) (ms1_2 t) fullShare (iblk1 V c 2 t) := by
  unfold Dat.leavesExact; rw [live1_2 t, after1_2]
theorem leaves1_3 (c : Dev nD) (t : Fin cfg1.N) :
    (dat1 V c).leavesExact 3 t = owns (c : Thread nD τ) (ms1_3 t) fullShare (iblk1 V c 3 t) := by
  unfold Dat.leavesExact; rw [live1_3 t, after1_3]
theorem leaves1_4 (c : Dev nD) (t : Fin cfg1.N) :
    (dat1 V c).leavesExact 4 t = owns (c : Thread nD τ) (ms1_4 t) fullShare (iblk1 V c 4 t) := by
  unfold Dat.leavesExact; rw [live1_4 t, after1_4]
theorem leaves1_5 (c : Dev nD) (t : Fin cfg1.N) :
    (dat1 V c).leavesExact 5 t = owns (c : Thread nD τ) (ms1_5 t) fullShare (iblk1 V c 5 t) := by
  unfold Dat.leavesExact; rw [live1_5 t, after1_5]
theorem leaves1_6 (c : Dev nD) (t : Fin cfg1.N) :
    (dat1 V c).leavesExact 6 t = owns (c : Thread nD τ) (ms1_6 t) fullShare (iblk1 V c 6 t) := by
  unfold Dat.leavesExact; rw [live1_6 t, after1_6]
theorem leaves1_7 (c : Dev nD) (t : Fin cfg1.N) :
    (dat1 V c).leavesExact 7 t = owns (c : Thread nD τ) (ms1_7 t) fullShare (iblk1 V c 7 t) := by
  unfold Dat.leavesExact; rw [live1_7 t, after1_7]

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point t. The inputs' buffers hold their blocks. By the tile t mod 4: at a first tile the invariant's
    accumulator, whatever it holds (nothing is known of it at point 0, the point before's value afterwards), is reset and
    ends at the step from −∞, which is the accumulator after t; at the other tiles it holds the accumulator after t - 1
    and ends at the step from that. The output's buffer goes back as found where the window is idle, and at a last tile
    holds the accumulator after t, transposed. The thirteen other scoped buffers and the generator register pass through,
    and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4, leaves1_5, leaves1_6, leaves1_7]
  rw [PhiS_castSucc V c t]
  by_cases h0 : t.val % 4 = 0
  · have hc0 : isFirst (grid1.coords t) := (isFirst_iff t).mpr h0
    have hc1 : ¬isLast (grid1.coords t) := fun h => by have := (isLast_iff t).mp h; omega
    rw [Dat.leavesExact_idle (dat1 V c) 8 t (out_idle t hc1) (out_unflushed t hc1)]
    rw [accAt_first V c t h0]; unfold accStepAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := PhiS_forget V c t.val _ $$ HΦ
    icases HΦ' with ⟨Hoth, Hg⟩
    ihave Hsw := others1_swap c _ (owns (c : Thread nD τ) accM fullShare (accStep (iblk1 V c 0 t) (iblk1 V c 1 t) (iblk1 V c 2 t) (iblk1 V c 3 t) (iblk1 V c 4 t) (iblk1 V c 5 t) (iblk1 V c 6 t) (iblk1 V c 7 t) accInit)) $$ Hoth
    icases Hsw with ⟨HS, Hcl⟩
    iapply (tile_first c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (iblk1 V c 0 t) (iblk1 V c 1 t) (iblk1 V c 2 t) (iblk1 V c 3 t) (iblk1 V c 4 t) (iblk1 V c 5 t) (iblk1 V c 6 t) (iblk1 V c 7 t) hc0 hc1 ((dat1 V c).before 8 t d8) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS Hcl Hg]
    · isplitl [HS Hcl]
      · iapply Hcl; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hc0 : ¬isFirst (grid1.coords t) := fun h => h0 ((isFirst_iff t).mp h)
    have hz : t.val ≠ 0 := fun e => h0 (by rw [e])
    rw [PhiS_pos V c _ _ hz]
    by_cases h1 : t.val % 4 = 3
    · have hc1 : isLast (grid1.coords t) := (isLast_iff t).mpr h1
      rw [show (dat1 V c).leavesExact 8 t = owns (c : Thread nD τ) (ms1_8 t) fullShare ((dat1 V c).after 8 t) from by
        unfold Dat.leavesExact; rw [out_live t hc1], after1_8]
      rw [accAt_next V c t h0]; unfold accStepAt
      iintro ⟨⟨Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave Hsw := others1_swap c _ (owns (c : Thread nD τ) accM fullShare (accStep (iblk1 V c 0 t) (iblk1 V c 1 t) (iblk1 V c 2 t) (iblk1 V c 3 t) (iblk1 V c 4 t) (iblk1 V c 5 t) (iblk1 V c 6 t) (iblk1 V c 7 t) (accAt V c (t.val - 1) (Nat.lt_of_le_of_lt (Nat.sub_le _ _) t.isLt)))) $$ Hoth
      icases Hsw with ⟨HS, Hcl⟩
      iapply (tile_last c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (iblk1 V c 0 t) (iblk1 V c 1 t) (iblk1 V c 2 t) (iblk1 V c 3 t) (iblk1 V c 4 t) (iblk1 V c 5 t) (iblk1 V c 6 t) (iblk1 V c 7 t) hc0 hc1 (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS Hcl Hg]
      · isplitl [HS Hcl]
        · iapply Hcl; iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬isLast (grid1.coords t) := fun h => h1 ((isLast_iff t).mp h)
      rw [Dat.leavesExact_idle (dat1 V c) 8 t (out_idle t hc1) (out_unflushed t hc1)]
      rw [accAt_next V c t h0]; unfold accStepAt
      iintro ⟨⟨Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave Hsw := others1_swap c _ (owns (c : Thread nD τ) accM fullShare (accStep (iblk1 V c 0 t) (iblk1 V c 1 t) (iblk1 V c 2 t) (iblk1 V c 3 t) (iblk1 V c 4 t) (iblk1 V c 5 t) (iblk1 V c 6 t) (iblk1 V c 7 t) (accAt V c (t.val - 1) (Nat.lt_of_le_of_lt (Nat.sub_le _ _) t.isLt)))) $$ Hoth
      icases Hsw with ⟨HS, Hcl⟩
      iapply (tile_middle c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) accM (Memref.isWhole_whole _) (iblk1 V c 0 t) (iblk1 V c 1 t) (iblk1 V c 2 t) (iblk1 V c 3 t) (iblk1 V c 4 t) (iblk1 V c 5 t) (iblk1 V c 6 t) (iblk1 V c 7 t) hc0 hc1 (accAt V c (t.val - 1) (Nat.lt_of_le_of_lt (Nat.sub_le _ _) t.isLt)) ((dat1 V c).before 8 t d8) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS Hcl Hg]
      · isplitl [HS Hcl]
        · iapply Hcl; iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands call 1 is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact PhiS_forget V c _ _

end Cert.KernelIdeal.Frm

end
-- ==== Proof.KI.Chain.lean ====
import proofs.«127374_j73383811219637_1_alg».proof.Proof.KI.Data
import proofs.«127374_j73383811219637_1_alg».proof.Proof.Gen.KernelIdeal.Regions

/-! # The buffers' contents at each boundary of @main

@main is: seven host operations (the points transposed to channel-major, six vectors reshaped to columns), call 0,
call 1, one host operation (the output reshaped). The contents of a core's buffers at each boundary are a fold from
the launch memory: a host stretch applies its operations; a call leaves each of its arrays at what its write-backs
fold to and every other buffer as it found it. A buffer that no host operation writes and that each call only reads
or does not touch ends as launched. -/

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the seven host operations: what call 0 is entered from. -/
abbrev W1 : Dev nD → Valuation τ sig (Elt F) := fun c => StableHlo.after hostOps0 (W0 m c)
/-- The same read at the TensorCore's references. -/
abbrev V1 : Entry F := fun c b => W1 m c b
/-- After call 0: its arrays at what its write-backs leave, every other buffer as entered. What call 1 is entered from. -/
def W2 (c : Dev nD) : Valuation τ sig (Elt F) :=
  Pipeline.withArrays spec0 c (W1 m c) fun w => (dat0 (V1 m) c).arrAt w cfg0.N
abbrev V2 : Entry F := fun c b => W2 m c b
/-- After call 1. -/
def W3 (c : Dev nD) : Valuation τ sig (Elt F) :=
  Pipeline.withArrays spec1 c (W2 m c) fun w => (dat1 (V2 m) c).arrAt w cfg1.N
abbrev V3 : Entry F := fun c b => W3 m c b
/-- After the last host operation: at the return. -/
abbrev W4 : Dev nD → Valuation τ sig (Elt F) := fun c => StableHlo.after hostOps2 (W3 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An array call 0 only reads keeps its contents. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W3_in (c : Dev nD) (w : Fin cfg1.W) (hin : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hin _).trans (A_eq1 (V2 m) c w))
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- A buffer no host operation writes and each call either only reads or does not touch ends as launched. -/
theorem W4_kept (c : Dev nD) (b : Ref sig .tc) (h0 : b ∉ hostOps0_W) (h2 : b ∉ hostOps2_W)
    (h1 : (∃ w, Pipeline.arrRef spec0 w = b ∧ (cfg0.win w).isOut = false) ∨ ∀ w, Pipeline.arrRef spec0 w ≠ b)
    (h1' : (∃ w, Pipeline.arrRef spec1 w = b ∧ (cfg1.win w).isOut = false) ∨ ∀ w, Pipeline.arrRef spec1 w ≠ b) :
    W4 m c (Proc.devRef .tc b) = m ((c : Thread nD τ).loc b) := by
  have e4 : W4 m c (Proc.devRef .tc b) = W3 m c (Proc.devRef .tc b) :=
    StableHlo.after_of_writes_sub hostOps2 _ hostOps2_writes h2
  have e3 : W3 m c (Proc.devRef .tc b) = W2 m c (Proc.devRef .tc b) := by
    rcases h1' with ⟨w, rfl, hin⟩ | hne
    · exact W3_in m c w hin
    · exact W3_of_ne m c b hne
  have e2 : W2 m c (Proc.devRef .tc b) = W1 m c (Proc.devRef .tc b) := by
    rcases h1 with ⟨w, rfl, hin⟩ | hne
    · exact W2_in m c w hin
    · exact W2_of_ne m c b hne
  have e1 : W1 m c (Proc.devRef .tc b) = W0 m c (Proc.devRef .tc b) :=
    StableHlo.after_of_writes_sub hostOps0 _ hostOps0_writes h0
  exact e4.trans (e3.trans (e2.trans (e1.trans rfl)))

end Cert.KernelIdeal.Frm

end
-- ==== Proof.KI.Run.lean ====
import proofs.«127374_j73383811219637_1_alg».proof.Proof.KI.Chain

/-! # @main from the launch to the return

Over the buffers' contents at each boundary (Chain.lean) each call is a region segment of the
several-regions launch: its arrays are split out of the core's unscoped buffers at entry and put back at exit, the
generator register and the scoped rest go into the call's invariant and come back, nothing is owed. The run's post
names EVERY unscoped buffer's final contents; the frame claim and the value claim both read it.

The two body obligations, and that call 1's invariant after its last point gives the scoped rest back, are hypotheses
here; before its first point call 1's invariant is the scoped rest by definition. -/

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Both calls' proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes. -/
abbrev Tₙ (c : Dev nD) : sProp 𝕄 := iprop(StableHlo.held (c : Thread nD τ) (Pipeline.ucRefs τ sig) (W4 m c) ∗ ∃ r, prngReg c r)

/-! ## The calls as segments -/

section Segments

variable (hb0 : ∀ (V : Entry F) (c : Dev nD), BodyObligation (dat0 (F := F) V c) (defs₀ (F := F)) Variants.none () Set.univ)
  (hb1 : ∀ (V : Entry F) (c : Dev nD), BodyObligation (dat1 (F := F) V c) (defs₀ (F := F)) Variants.none () Set.univ)
  (hout1 : ∀ (V : Entry F) (c : Dev nD), (dat1 (F := F) V c).Φ (Fin.last cfg1.N) ⊢ Pipeline.ΦA (U := UR sig nD τ) spec1 c)

set_option backward.isDefEq.respectTransparency.types false in
/-- CALL 0 over the thread state: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1 over the thread state: entered from every unscoped buffer at W2, left at W3. Its invariant starts as the
    scoped rest with the generator register and ends giving them back, the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    refine (hout1 (V2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hseg hostOps0 hostOps0_sub hostOps0_fresh (W0 m)),
    .region (reg0 m hb0),
    .region (reg1 m hb1 hout1),
    .host (hseg hostOps2 hostOps2_sub hostOps2_fresh (W3 m)) ]

include hb0 hb1 hout1 in
set_option backward.isDefEq.respectTransparency.types false in
/-- THE RUN: from any memory with zero counters every weakly fair execution of @main terminates, nothing faulting, and
    in every final memory each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m hb0 hb1 hout1)
    (fun c Q => by
      rewrite [main_chain c, Pipeline.Seg.run_eq_chain,
        show (segs m hb0 hb1 hout1).map Pipeline.Seg.prog = [
          StableHlo.seq hostOps0,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => (show iprop(StableHlo.held (c : Thread nD τ) (Pipeline.ucRefs τ sig) (W4 m c) ∗ R c)
          ⊢ (iprop(Tₙ m c ∗ ∃ W, owes (c : Thread nD τ) (0 : CellTallies nD τ sig Unit) W) : sProp 𝕄) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

include hb0 hb1 hout1 in
/-- THE RESULT AND THE FRAME: the result buffer ends at the last boundary's contents, every argument array as launched. -/
theorem run_result : θ_run defs (onTc (τ := τ) (main (F := F))) ⟨m, fun _ => 0, ρ⟩ (fun r => ∀ c : Dev nD,
      r.2.mem ((c.tc : Thread nD τ).loc main_v9) = W4 m c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    h c _ (mem_uc main_v9 (by decide)),
    (h c _ (mem_uc main_arg0 (by decide))).trans (W4_kept m c main_arg0 (by decide) (by decide) (.inr (by decide)) (.inr (by decide))),
    (h c _ (mem_uc main_arg1 (by decide))).trans (W4_kept m c main_arg1 (by decide) (by decide) (.inl ⟨1, rfl, rfl⟩) (.inl ⟨2, rfl, rfl⟩)),
    (h c _ (mem_uc main_arg2 (by decide))).trans (W4_kept m c main_arg2 (by decide) (by decide) (.inl ⟨2, rfl, rfl⟩) (.inr (by decide))),
    (h c _ (mem_uc main_arg3 (by decide))).trans (W4_kept m c main_arg3 (by decide) (by decide) (.inr (by decide)) (.inr (by decide))),
    (h c _ (mem_uc main_arg4 (by decide))).trans (W4_kept m c main_arg4 (by decide) (by decide) (.inr (by decide)) (.inr (by decide))),
    (h c _ (mem_uc main_arg5 (by decide))).trans (W4_kept m c main_arg5 (by decide) (by decide) (.inl ⟨5, rfl, rfl⟩) (.inr (by decide))),
    (h c _ (mem_uc main_arg6 (by decide))).trans (W4_kept m c main_arg6 (by decide) (by decide) (.inr (by decide)) (.inr (by decide))),
    (h c _ (mem_uc main_arg7 (by decide))).trans (W4_kept m c main_arg7 (by decide) (by decide) (.inr (by decide)) (.inl ⟨3, rfl, rfl⟩)),
    (h c _ (mem_uc main_arg8 (by decide))).trans (W4_kept m c main_arg8 (by decide) (by decide) (.inr (by decide)) (.inr (by decide))),
    (h c _ (mem_uc main_arg9 (by decide))).trans (W4_kept m c main_arg9 (by decide) (by decide) (.inr (by decide)) (.inr (by decide))),
    (h c _ (mem_uc main_arg10 (by decide))).trans (W4_kept m c main_arg10 (by decide) (by decide) (.inr (by decide)) (.inl ⟨6, rfl, rfl⟩)),
    (h c _ (mem_uc main_arg11 (by decide))).trans (W4_kept m c main_arg11 (by decide) (by decide) (.inr (by decide)) (.inr (by decide)))⟩)
    (run_all m ρ hb0 hb1 hout1)

include hb0 hb1 hout1 in
/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ hb0 hb1 hout1)

end Segments

end Cert.KernelIdeal.Frm

end
-- ==== Proof.Spec.lean ====
import Idealize.ShloMosaic.PureOps.Ideal
import Idealize.ShloMosaic.PureOps.Ideal.Laws

/-! # What both programs compute, per batch element, on the extended reals

A masked point network. For one batch element: N = 4096 points P n (3 coordinates each), a mask word M n per point
(a point is visible when its word is not zero), and the weights. Per point:

  a₁ = relu (LN₁₂₈ (P n · w1ᵀ) · g1 + be1, masked)          (128 channels)
  h3 = a₁ · w2ᵀ + b2                                         (256 channels)

then gmax = the maximum of h3 over the points, channel by channel; and again per point

  d  = [gmax ; h3]                                           (512 channels)
  a₂ = relu (LN₅₁₂ (d · w3ᵀ) · g2 + be2, masked)            (512 channels)
  h7 = a₂ · w4ᵀ + b4                                         (1024 channels)

and the result is the maximum of h7 over the points, channel by channel. LN is the layer norm over the channels:
(x − mean) · rsqrt (var + ε), the mean and the variance quotients of channel sums by the channel count, ε and the
counts the programs' own float words. A maximum over points is a fold of max from −∞; a maximum over 4096 points
is the fold of the maxima of its four runs of 1024 points (SpecMax.lean): max is associative, commutative and
idempotent on the extended reals, with −∞ neutral. -/

noncomputable section

namespace Cert.Spec

open Idealize.ShloMosaic

/-- A point's visibility from its mask word. -/
def vis (w : BitVec 32) : EReal := if w = 0#32 then 0 else 1

/-- A dense layer without bias at one point: channel k of x · wᵀ. -/
def dense {C K : ℕ} (x : Fin C → EReal) (w : Fin K → Fin C → EReal) (k : Fin K) : EReal := ∑ c, x c * w k c

/-- The maximum of finitely many extended reals, from −∞. -/
def rowMax {N : ℕ} (g : Fin N → EReal) : EReal := (Finset.univ : Finset (Fin N)).fold max ⊥ g

/-- The channels' mean: their sum over the channel count's float word. -/
def mean {D : ℕ} (dW : BitVec 32) (x : Fin D → EReal) : EReal := Ideal.div (∑ j, x j) (Ideal.ofBits .f32 dW)

/-- The channels' variance about that mean. -/
def var {D : ℕ} (dW : BitVec 32) (x : Fin D → EReal) : EReal :=
  Ideal.div (∑ j, (x j - mean dW x) * (x j - mean dW x)) (Ideal.ofBits .f32 dW)

/-- Layer norm over D channels with scale g and shift be, channel k; ε is the float word of 1e-5. -/
def lnorm {D : ℕ} (dW : BitVec 32) (x g be : Fin D → EReal) (k : Fin D) : EReal :=
  (x k - mean dW x) * Ideal.rsqrt (var dW x + Ideal.ofBits .f32 0x3727C5AC#32) * g k + be k

section Layers

variable (w1 : Fin 128 → Fin 3 → EReal) (g1 be1 : Fin 128 → EReal) (w2 : Fin 256 → Fin 128 → EReal) (b2 : Fin 256 → EReal)
  (w3 : Fin 512 → Fin 512 → EReal) (g2 be2 : Fin 512 → EReal) (w4 : Fin 1024 → Fin 512 → EReal) (b4 : Fin 1024 → EReal)

/-- The first activation of a point p with mask word mw. -/
def act1 (p : Fin 3 → EReal) (mw : BitVec 32) (k : Fin 128) : EReal :=
  max (lnorm 0x43000000#32 (dense p w1) g1 be1 k * vis mw) 0

/-- h3 of a point. -/
def h3 (p : Fin 3 → EReal) (mw : BitVec 32) (o : Fin 256) : EReal := dense (act1 w1 g1 be1 p mw) w2 o + b2 o

/-- The concatenation [gm ; row]. -/
def dist (gm row : Fin 256 → EReal) (q : Fin 512) : EReal :=
  if h : q.val < 256 then gm ⟨q.val, h⟩ else row ⟨q.val - 256, by omega⟩

/-- The second activation of a point with h3 row and mask word mw, given the batch's gm. -/
def act2 (gm row : Fin 256 → EReal) (mw : BitVec 32) (q : Fin 512) : EReal :=
  max (lnorm 0x44000000#32 (dense (dist gm row) w3) g2 be2 q * vis mw) 0

/-- h7 of a point from its h3 row. -/
def h7 (gm row : Fin 256 → EReal) (mw : BitVec 32) (f : Fin 1024) : EReal :=
  dense (act2 w3 g2 be2 gm row mw) w4 f + b4 f

variable {N : ℕ} (P : Fin N → Fin 3 → EReal) (M : Fin N → BitVec 32)

/-- The batch's gmax: h3's maximum over the points. -/
def gmax (o : Fin 256) : EReal := rowMax fun n => h3 w1 g1 be1 w2 b2 (P n) (M n) o

/-- THE RESULT of a batch element: h7's maximum over the points. -/
def out (f : Fin 1024) : EReal :=
  rowMax fun n => h7 w3 g2 be2 w4 b4 (gmax w1 g1 be1 w2 b2 P M) (h3 w1 g1 be1 w2 b2 (P n) (M n)) (M n) f

end Layers

end Cert.Spec

end
-- ==== Proof.KI.Call0Spec.lean ====
import proofs.«127374_j73383811219637_1_alg».proof.Proof.KI.Blocks
import proofs.«127374_j73383811219637_1_alg».proof.Proof.Spec
import Idealize.ShloMosaic.PureOps.Ideal.Laws
import Idealize.ShloMosaic.Lib.ValueIdx
import Idealize.ShloMosaic.Lib.ValueLayout

/-! # Call 0's stored values are the specification, on the extended reals

Call 0 works channel-major on one batch element: the points are a 3 × 4096 block x, the mask one word per point,
and an entry of a block is addressed (0, channel, point). At a point n:

  * the mask word, compared with zero, widened and converted, is 0 or 1: the point's visibility;
  * (w1 · x)(k, n) = ∑ over the 3 coordinates c of w1 (k, c) · x (c, n), which is the dense layer of the point,
    ∑ c, x (c, n) · w1 (k, c), because the product of two extended reals commutes;
  * the mean and the variance are quotients of sums over the 128 channels k of that column by the word of 128.0, and
    the normalised, scaled and shifted column, times the visibility, is the first activation before its relu;
  * (w2 · relu _)(o, n) + b2 (o) is h3 of the point at channel o;

and the second stored block is, channel by channel, the maximum of h3 over the 4096 points, folded from −∞. Each
statement below reads one operation, or one layer, at explicit coordinates; the two at the end are the stored blocks
themselves. Nothing here needs finiteness: only commutativity of the product is used, the rest is the same operations
in the same order. -/

noncomputable section

namespace Cert.KernelIdeal.Val.Call0

open Cert.KernelIdeal Cert.KernelIdeal.Gen Cert.KernelIdeal.Frm Idealize.ShloMosaic Idealize.ShloMosaic.ValueIdx

/-! ## Two layout operations read at an index -/

section Layout
variable {α : Type}

/-- A column [a, 1] broadcast along the columns of [a, b] reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector's entry i: both sit at row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## Two pointwise operations read at an index -/

/-- An integer comparison at an index compares the elements. -/
theorem cmpi_apply {s : Shape} {w : ℕ} (p : CmpIPredicate) (x y : IVec s w) (i : s.Idx) :
    cmpi p x y i = IntOp.cmpi p (x i) (y i) := rfl

/-- A reciprocal square root at an index is the element's. -/
theorem rsqrt_apply {s : Shape} {φ : FTy} (a : FVec Ideal s φ) (i : s.Idx) : rsqrt a i = Ideal.rsqrt (a i) := rfl

/-! ## The mask word: "not zero", widened and converted, is the visibility 0 or 1 -/

theorem vis_word (w : BitVec 32) :
    FloatOps.sitofp (F := Ideal) .f32 ((IntOp.cmpi .ne w 0#32).setWidth 32) = Cert.Spec.vis w := by
  unfold Cert.Spec.vis
  show (((BitVec.setWidth 32 (IntOp.cmpi .ne w 0#32)).toInt : ℝ) : EReal) = _
  by_cases h : w = 0#32
  · -- the zero word: the comparison's bit is 0, and so is the integer it widens to
    subst h
    rw [if_pos rfl]
    have e : (BitVec.setWidth 32 (IntOp.cmpi .ne (0#32 : BitVec 32) 0#32)).toInt = 0 := by decide
    rw [e]; simp
  · -- any other word: the bit is 1, widened unsigned to the integer 1
    rw [if_neg h]
    have hc : IntOp.cmpi .ne w 0#32 = 1#1 := by
      show BitVec.ofBool (w != 0#32) = 1#1
      rw [show (w != 0#32) = true from bne_iff_ne.mpr h]
      rfl
    rw [hc]
    have e : (BitVec.setWidth 32 (1#1 : BitVec 1)).toInt = 1 := by decide
    rw [e]; simp

/-! ## The two products: w · x at (row, point) is the sum over the contracted channel

Each product contracts the left operand's axis 1 with the right operand's axis 0; the result's row is the left
operand's row, its column the right operand's column. The four coordinate facts say so for each record; the sum over
the one-axis contraction index is then a sum over that axis's coordinate. -/

theorem mm1_lhs_0 (i : S128x4096.Idx) (q : dot_S128x3_S3x4096_S128x4096_1_0_0_1_n_n.contr.Idx) :
    (dot_S128x3_S3x4096_S128x4096_1_0_0_1_n_n.lhsIdx i q 0).val = (i 0).val := by
  unfold DotDims.lhsIdx
  rw [dif_neg (show ¬(0 : Fin S128x3.rank) ∈ dot_S128x3_S3x4096_S128x4096_1_0_0_1_n_n.lhsBatch by decide), dif_pos (show (0 : Fin S128x3.rank) ∈ dot_S128x3_S3x4096_S128x4096_1_0_0_1_n_n.lhsNonContracting by decide)]
  rfl
theorem mm1_lhs_1 (i : S128x4096.Idx) (q : dot_S128x3_S3x4096_S128x4096_1_0_0_1_n_n.contr.Idx) :
    (dot_S128x3_S3x4096_S128x4096_1_0_0_1_n_n.lhsIdx i q 1).val = (q ⟨0, by decide⟩).val :=
  dot_S128x3_S3x4096_S128x4096_1_0_0_1_n_n.lhsIdx_val_of_single rfl i q
theorem mm1_rhs_0 (i : S128x4096.Idx) (q : dot_S128x3_S3x4096_S128x4096_1_0_0_1_n_n.contr.Idx) :
    (dot_S128x3_S3x4096_S128x4096_1_0_0_1_n_n.rhsIdx i q 0).val = (q ⟨0, by decide⟩).val :=
  dot_S128x3_S3x4096_S128x4096_1_0_0_1_n_n.rhsIdx_val_of_single rfl i q
theorem mm1_rhs_1 (i : S128x4096.Idx) (q : dot_S128x3_S3x4096_S128x4096_1_0_0_1_n_n.contr.Idx) :
    (dot_S128x3_S3x4096_S128x4096_1_0_0_1_n_n.rhsIdx i q 1).val = (i 1).val := by
  unfold DotDims.rhsIdx
  rw [dif_neg (show ¬(1 : Fin S3x4096.rank) ∈ dot_S128x3_S3x4096_S128x4096_1_0_0_1_n_n.rhsBatch by decide), dif_pos (show (1 : Fin S3x4096.rank) ∈ dot_S128x3_S3x4096_S128x4096_1_0_0_1_n_n.rhsNonContracting by decide)]
  rfl

/-- The first product at (channel k, point n): the sum over the 3 coordinates, the point's factor written first. -/
theorem mm1_apply (w : FVec Ideal S128x3 .bf16) (x : FVec Ideal S3x4096 .bf16) (k : Fin 128) (n : Fin 4096) :
    matmul dot_S128x3_S3x4096_S128x4096_1_0_0_1_n_n none w x (constant S128x4096 .f32 0x00000000#32) (ix2 k n)
      = ∑ c : Fin 3, x (ix2 c n) * w (ix2 k c) := by
  refine (Ideal.matmul_constant_zero_apply dot_S128x3_S3x4096_S128x4096_1_0_0_1_n_n none w x (ix2 k n)).trans ?_
  rw [← Equiv.sum_comp (contrEquiv1 dot_S128x3_S3x4096_S128x4096_1_0_0_1_n_n 3 rfl rfl).symm]
  refine Finset.sum_congr rfl fun c _ => ?_
  have hc := contrEquiv1_symm_val dot_S128x3_S3x4096_S128x4096_1_0_0_1_n_n 3 rfl rfl c
  have el : dot_S128x3_S3x4096_S128x4096_1_0_0_1_n_n.lhsIdx (ix2 k n) ((contrEquiv1 dot_S128x3_S3x4096_S128x4096_1_0_0_1_n_n 3 rfl rfl).symm c) = ix2 k c := funext fun a => Fin.ext (by
    match a with
    | ⟨0, _⟩ => exact mm1_lhs_0 _ _
    | ⟨1, _⟩ => exact (mm1_lhs_1 _ _).trans hc)
  have er : dot_S128x3_S3x4096_S128x4096_1_0_0_1_n_n.rhsIdx (ix2 k n) ((contrEquiv1 dot_S128x3_S3x4096_S128x4096_1_0_0_1_n_n 3 rfl rfl).symm c) = ix2 c n := funext fun a => Fin.ext (by
    match a with
    | ⟨0, _⟩ => exact (mm1_rhs_0 _ _).trans hc
    | ⟨1, _⟩ => exact mm1_rhs_1 _ _)
  rw [el, er]
  exact mul_comm _ _

theorem mm2_lhs_0 (i : S256x4096.Idx) (q : dot_S256x128_S128x4096_S256x4096_1_0_0_1_n_n.contr.Idx) :
    (dot_S256x128_S128x4096_S256x4096_1_0_0_1_n_n.lhsIdx i q 0).val = (i 0).val := by
  unfold DotDims.lhsIdx
  rw [dif_neg (show ¬(0 : Fin S256x128.rank) ∈ dot_S256x128_S128x4096_S256x4096_1_0_0_1_n_n.lhsBatch by decide), dif_pos (show (0 : Fin S256x128.rank) ∈ dot_S256x128_S128x4096_S256x4096_1_0_0_1_n_n.lhsNonContracting by decide)]
  rfl
theorem mm2_lhs_1 (i : S256x4096.Idx) (q : dot_S256x128_S128x4096_S256x4096_1_0_0_1_n_n.contr.Idx) :
    (dot_S256x128_S128x4096_S256x4096_1_0_0_1_n_n.lhsIdx i q 1).val = (q ⟨0, by decide⟩).val :=
  dot_S256x128_S128x4096_S256x4096_1_0_0_1_n_n.lhsIdx_val_of_single rfl i q
theorem mm2_rhs_0 (i : S256x4096.Idx) (q : dot_S256x128_S128x4096_S256x4096_1_0_0_1_n_n.contr.Idx) :
    (dot_S256x128_S128x4096_S256x4096_1_0_0_1_n_n.rhsIdx i q 0).val = (q ⟨0, by decide⟩).val :=
  dot_S256x128_S128x4096_S256x4096_1_0_0_1_n_n.rhsIdx_val_of_single rfl i q
theorem mm2_rhs_1 (i : S256x4096.Idx) (q : dot_S256x128_S128x4096_S256x4096_1_0_0_1_n_n.contr.Idx) :
    (dot_S256x128_S128x4096_S256x4096_1_0_0_1_n_n.rhsIdx i q 1).val = (i 1).val := by
  unfold DotDims.rhsIdx
  rw [dif_neg (show ¬(1 : Fin S128x4096.rank) ∈ dot_S256x128_S128x4096_S256x4096_1_0_0_1_n_n.rhsBatch by decide), dif_pos (show (1 : Fin S128x4096.rank) ∈ dot_S256x128_S128x4096_S256x4096_1_0_0_1_n_n.rhsNonContracting by decide)]
  rfl

/-- The second product at (channel o, point n): the sum over the 128 channels, the point's factor written first. -/
theorem mm2_apply (w : FVec Ideal S256x128 .bf16) (x : FVec Ideal S128x4096 .bf16) (o : Fin 256) (n : Fin 4096) :
    matmul dot_S256x128_S128x4096_S256x4096_1_0_0_1_n_n none w x (constant S256x4096 .f32 0x00000000#32) (ix2 o n)
      = ∑ k : Fin 128, x (ix2 k n) * w (ix2 o k) := by
  refine (Ideal.matmul_constant_zero_apply dot_S256x128_S128x4096_S256x4096_1_0_0_1_n_n none w x (ix2 o n)).trans ?_
  rw [← Equiv.sum_comp (contrEquiv1 dot_S256x128_S128x4096_S256x4096_1_0_0_1_n_n 128 rfl rfl).symm]
  refine Finset.sum_congr rfl fun k _ => ?_
  have hk := contrEquiv1_symm_val dot_S256x128_S128x4096_S256x4096_1_0_0_1_n_n 128 rfl rfl k
  have el : dot_S256x128_S128x4096_S256x4096_1_0_0_1_n_n.lhsIdx (ix2 o n) ((contrEquiv1 dot_S256x128_S128x4096_S256x4096_1_0_0_1_n_n 128 rfl rfl).symm k) = ix2 o k := funext fun a => Fin.ext (by
    match a with
    | ⟨0, _⟩ => exact mm2_lhs_0 _ _
    | ⟨1, _⟩ => exact (mm2_lhs_1 _ _).trans hk)
  have er : dot_S256x128_S128x4096_S256x4096_1_0_0_1_n_n.rhsIdx (ix2 o n) ((contrEquiv1 dot_S256x128_S128x4096_S256x4096_1_0_0_1_n_n 128 rfl rfl).symm k) = ix2 k n := funext fun a => Fin.ext (by
    match a with
    | ⟨0, _⟩ => exact (mm2_rhs_0 _ _).trans hk
    | ⟨1, _⟩ => exact mm2_rhs_1 _ _)
  rw [el, er]
  exact mul_comm _ _

/-! ## The reductions: a sum over the 128 channels of a point, a maximum over the 4096 points of a channel -/

/-- The channel sum at point n: the index (k, n) is the point's index with the channel k put in front. The
    accumulator is the zero word, an equation between f32 words. -/
theorem colsum_apply (src : FVec Ideal S128x4096 .f32) (h : S128x4096.Reduces [0] S4096) (hφ : FKind.Formats .f32)
    (hacc : @Eq (BitVec FTy.f32.bits) 0x00000000#32 0x00000000#32) (n : Fin 4096) :
    multiReduction .add [0] S4096 src 0x00000000#32 h hφ hacc (ix1 n) = ∑ k : Fin 128, src (ix2 k n) := by
  refine (Ideal.multiReduction_add_single src _ h hφ hacc (ix1 n)).trans ?_
  show ∑ k : Fin 128, src (h.lift (ix1 n) k) = _
  refine Finset.sum_congr rfl fun k _ => congrArg src ?_
  funext a
  match a with
  | ⟨0, _⟩ => exact Fin.ext rfl
  | ⟨1, _⟩ => exact Fin.ext rfl

/-- The channel sums as a function of the point's index. -/
theorem colsum_fun (src : FVec Ideal S128x4096 .f32) (h : S128x4096.Reduces [0] S4096) (hφ : FKind.Formats .f32)
    (hacc : @Eq (BitVec FTy.f32.bits) 0x00000000#32 0x00000000#32) :
    multiReduction .add [0] S4096 src 0x00000000#32 h hφ hacc = fun i => ∑ k : Fin 128, src (ix2 k (i 0)) := by
  funext i
  obtain ⟨n, rfl⟩ : ∃ n : Fin 4096, i = ix1 n := ⟨i 0, eq_ix1 i⟩
  exact colsum_apply src h hφ hacc n

/-- The maximum over the points at channel o, from −∞: the accumulator's word is the f32 pattern of −∞, the
    lattice's bottom, and the index (o, n) is the channel's index with the point n appended. -/
theorem rowmax_apply (src : FVec Ideal S256x4096 .f32) (h : S256x4096.Reduces [1] S256) (hφ : FKind.Formats .f32)
    (hacc : (0xFF800000#32 : BitVec 32) = FKind.maximumf.neutral .f32 hφ) (o : Fin 256) :
    multiReduction .maximumf [1] S256 src 0xFF800000#32 h hφ hacc (ix1 o)
      = Cert.Spec.rowMax fun n : Fin 4096 => src (ix2 o n) := by
  refine (Ideal.multiReduction_maximumf_single src _ h hφ hacc (ix1 o)).trans ?_
  have hb : Ideal.ofBits .f32 0xFF800000#32 = (⊥ : EReal) := by simp [Ideal.ofBits, Ideal.ieee]
  rw [Ideal.ofBits_def, hb]
  unfold Cert.Spec.rowMax
  show (Finset.univ : Finset (Fin 4096)).fold max ⊥ (src ∘ h.lift (ix1 o)) = _
  refine congrArg (fun g : Fin 4096 → EReal => (Finset.univ : Finset (Fin 4096)).fold max ⊥ g) ?_
  funext n
  refine congrArg src ?_
  funext a
  match a with
  | ⟨0, _⟩ => exact Fin.ext rfl
  | ⟨1, _⟩ => exact Fin.ext rfl

/-! ## Call 0's layers at an index -/

/-- Before the relu: at (channel k, point n) the layer norm of the point's 128 first-layer channels, scaled and
    shifted, times the point's visibility. The elementwise operations and the broadcasts are read at (k, n) first;
    the two channel sums, the second of squares of deviations from the first's quotient, are then sums over the
    column; what is left is the specification's layer norm written out. -/
theorem pay4_apply (x0 : Vec Ideal S1x3x4096 .f32) (x1 : Vec Ideal S1x1x4096 .i32) (x2 : Vec Ideal S128x3 .f32)
    (x3 x4 : Vec Ideal S128x1 .f32) (k : Fin 128) (n : Fin 4096) :
    k0_pay4 x0 x1 x2 x3 x4 (ix2 k n)
      = Cert.Spec.lnorm 0x43000000#32 (Cert.Spec.dense (fun c => x0 (ix3 0 c n)) fun k c => x2 (ix2 k c))
          (fun k => x3 (ix2 k 0)) (fun k => x4 (ix2 k 0)) k * Cert.Spec.vis (x1 (ix3 0 0 n)) := by
  unfold k0_pay4
  simp only [mulf_apply, addf_apply, subf_apply, divf_apply, rsqrt_apply, broadcast_apply, sitofp_apply, extui_apply, cmpi_apply,
    truncf_apply, broadcastTo_1b_ab_apply, broadcastTo_a1_ab_apply, shapeCast_self, shapeCast_a_1a_apply, shapeCast_1ab_ab_apply,
    mm1_apply, vis_word, Ideal.ofBits_def]
  rw [colsum_fun, colsum_fun]
  simp only [mulf_apply, subf_apply, divf_apply, broadcast_apply, truncf_apply, broadcastTo_1b_ab_apply, shapeCast_a_1a_apply,
    shapeCast_1ab_ab_apply, mm1_apply, Ideal.ofBits_def]
  rfl

/-- After the relu and the second layer: at (channel o, point n), over any first activation a. The zero the relu
    compares with is the zero word's value, 0. -/
theorem pay1_apply (a : FVec Ideal S128x4096 .f32) (x5 : Vec Ideal S256x128 .f32) (x6 : Vec Ideal S256x1 .f32)
    (o : Fin 256) (n : Fin 4096) :
    k0_pay1 a x5 x6 (ix2 o n) = (∑ k : Fin 128, max (a (ix2 k n)) 0 * x5 (ix2 o k)) + x6 (ix2 o 0) := by
  unfold k0_pay1
  simp only [addf_apply, maximumf_apply, broadcast_apply, truncf_apply, broadcastTo_a1_ab_apply, shapeCast_self, mm2_apply,
    Ideal.ofBits_def, Ideal.ofBits_zero_f32]

/-- The two layers together are the specification's h3 of the point. -/
theorem pay1_h3 (x0 : Vec Ideal S1x3x4096 .f32) (x1 : Vec Ideal S1x1x4096 .i32) (x2 : Vec Ideal S128x3 .f32)
    (x3 x4 : Vec Ideal S128x1 .f32) (x5 : Vec Ideal S256x128 .f32) (x6 : Vec Ideal S256x1 .f32) (o : Fin 256) (n : Fin 4096) :
    k0_pay1 (k0_pay4 x0 x1 x2 x3 x4) x5 x6 (ix2 o n)
      = Cert.Spec.h3 (fun k c => x2 (ix2 k c)) (fun k => x3 (ix2 k 0)) (fun k => x4 (ix2 k 0)) (fun o k => x5 (ix2 o k))
          (fun o => x6 (ix2 o 0)) (fun c => x0 (ix3 0 c n)) (x1 (ix3 0 0 n)) o := by
  refine (pay1_apply _ x5 x6 o n).trans ?_
  simp only [pay4_apply]
  rfl

end Cert.KernelIdeal.Val.Call0

namespace Cert.KernelIdeal.Val

open Cert.KernelIdeal Cert.KernelIdeal.Gen Cert.KernelIdeal.Frm Idealize.ShloMosaic Idealize.ShloMosaic.ValueIdx
open Cert.KernelIdeal.Val.Call0

/-! ## The stored blocks -/

/-- CALL 0's h3 BLOCK at (0, channel o, point n) is the specification's h3 of point n at channel o: the block is the
    256 × 4096 matrix with a unit axis in front. -/
theorem h3blk_apply (x0 : Vec Ideal S1x3x4096 .f32) (x1 : Vec Ideal S1x1x4096 .i32) (x2 : Vec Ideal S128x3 .f32)
    (x3 x4 : Vec Ideal S128x1 .f32) (x5 : Vec Ideal S256x128 .f32) (x6 : Vec Ideal S256x1 .f32) (o : Fin 256) (n : Fin 4096) :
    h3blk x0 x1 x2 x3 x4 x5 x6 (ix3 0 o n)
      = Cert.Spec.h3 (fun k c => x2 (ix2 k c)) (fun k => x3 (ix2 k 0)) (fun k => x4 (ix2 k 0)) (fun o k => x5 (ix2 o k))
          (fun o => x6 (ix2 o 0)) (fun c => x0 (ix3 0 c n)) (x1 (ix3 0 0 n)) o := by
  unfold h3blk k0_pay2
  refine (shapeCast_ab_1ab_apply _ _ 0 o n).trans ?_
  exact pay1_h3 x0 x1 x2 x3 x4 x5 x6 o n

/-- CALL 0's gmax BLOCK at (0, channel o, 0) is the maximum over the 4096 points of the specification's h3 at
    channel o: the row maxima, as a vector, made a column, with a unit axis in front. -/
theorem gmblk_apply (x0 : Vec Ideal S1x3x4096 .f32) (x1 : Vec Ideal S1x1x4096 .i32) (x2 : Vec Ideal S128x3 .f32)
    (x3 x4 : Vec Ideal S128x1 .f32) (x5 : Vec Ideal S256x128 .f32) (x6 : Vec Ideal S256x1 .f32) (o : Fin 256) :
    gmblk x0 x1 x2 x3 x4 x5 x6 (ix3 0 o 0)
      = Cert.Spec.rowMax fun n : Fin 4096 =>
          Cert.Spec.h3 (fun k c => x2 (ix2 k c)) (fun k => x3 (ix2 k 0)) (fun k => x4 (ix2 k 0)) (fun o k => x5 (ix2 o k))
            (fun o => x6 (ix2 o 0)) (fun c => x0 (ix3 0 c n)) (x1 (ix3 0 0 n)) o := by
  unfold gmblk k0_pay3
  refine (shapeCast_ab_1ab_apply _ _ 0 o 0).trans ?_
  refine (shapeCast_a_a1_apply _ _ o 0).trans ?_
  refine (rowmax_apply _ _ _ _ o).trans ?_
  exact congrArg Cert.Spec.rowMax (funext fun n => pay1_h3 x0 x1 x2 x3 x4 x5 x6 o n)

end Cert.KernelIdeal.Val

end
-- ==== Proof.KI.Call1Spec.lean ====
import proofs.«127374_j73383811219637_1_alg».proof.Proof.KI.Blocks
import proofs.«127374_j73383811219637_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

/-! # Call 1's stored values are the specification

At the extended reals every float operation of the second call's body is the exact one and a change of float format
is the identity, so each stored value can be read off index by index. The body is channel-major: a tile index is
(channel, point).

At a tile of 1024 points the body concatenates the batch's gmax column (broadcast along the points) on top of the
h3 tile (512 channels per point), multiplies by w3 (a sum over the 512 concatenated channels: the dense layer, the
factors of each product in the other order), normalises over the 512 channels (mean and variance as channel sums
divided by the word of 512.0, then (x − mean) · rsqrt (variance + ε)), scales by the g2 column, shifts by the be2
column, multiplies by the mask factor (1 where the point's mask word is not zero, else 0) and cuts at zero: the
second activation. It then multiplies by w4 and adds the b4 column: h7 of each point. The tile's maximum of h7 over
its 1024 points, from −∞, is taken against the old accumulator. The accumulator starts at −∞ and the output row is
the accumulator column read across.

Each layer is read at explicit coordinates (a channel and a point) and each payload stays folded until the lemma
that reads it. -/

noncomputable section

namespace Cert.KernelIdeal.Val

open Cert.KernelIdeal Cert.KernelIdeal.Gen Cert.KernelIdeal.Frm Idealize.ShloMosaic Idealize.ShloMosaic.ValueIdx

/-! ## Two keepdims layouts read at an index -/

/-- A column [a, 1] broadcast along b columns reads, at (i, j), the column at i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector [a] cast to a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The first dense layer of call 1: w3 · [gmax ; h3] -/

section Dense3

variable (x0 : FVec Ideal S1x256x1024 .f32) (x1 : FVec Ideal S1x256x1 .f32) (x3 : FVec Ideal S512x512 .f32)

/-- The 512 × 1024 operand of the first product: the gmax column broadcast along the tile's points, on top of the
    h3 tile. -/
def catv : FVec Ideal S512x1024 .f32 :=
  concatenate S512x1024 0
    [⟨S256x1024, broadcastTo S256x1024 (shapeCast S256x1 (shapeCast S256x1 x1 shapeCasts_S1x256x1_S256x1) shapeCasts_S256x1_S256x1)
        broadcasts_S256x1_S256x1024⟩,
     ⟨S256x1024, shapeCast S256x1024 x0 shapeCasts_S1x256x1024_S256x1024⟩]
    concatenates_S256x1024_S256x1024_S512x1024_d0

/-- Channel q of that operand at point n: gmax on the first 256 channels, the point's h3 on the others. -/
theorem catv_apply (q : Fin 512) (n : Fin 1024) :
    catv x0 x1 (ix2 q n) = Cert.Spec.dist (fun o => x1 (ix3 0 o 0)) (fun o => x0 (ix3 0 o n)) q := by
  unfold catv Cert.Spec.dist
  by_cases hq : q.val < 256
  · rw [dif_pos hq]
    refine (concatenate_pair_apply_left _ _ _ concatenates_S256x1024_S256x1024_S512x1024_d0 (ix2 q n) rfl
      (ix2 (⟨q.val, hq⟩ : Fin 256) n) (fun b => ?_)).trans ?_
    · match b with
      | ⟨0, _⟩ => rfl
      | ⟨1, _⟩ => rfl
    · refine (broadcastTo_a1_ab_apply _ _ _ _).trans ?_
      rw [shapeCast_self]
      exact shapeCast_1ab_ab_apply x1 _ _ _
  · rw [dif_neg hq]
    refine (concatenate_pair_apply_right _ _ _ concatenates_S256x1024_S256x1024_S512x1024_d0 (ix2 q n) rfl rfl
      (ix2 (⟨q.val - 256, by omega⟩ : Fin 256) n) (fun b hb => ?_) ?_).trans ?_
    · match b with
      | ⟨0, _⟩ => exact absurd rfl hb
      | ⟨1, _⟩ => rfl
    · show q.val - 256 + 256 = q.val
      omega
    · exact shapeCast_1ab_ab_apply x0 _ _ _

/-- The body's first product is the product over that operand. -/
theorem pay5_eq : k1_pay5 (F := Ideal) x0 x1 x3
    = matmul dot_S512x512_S512x1024_S512x1024_1_0_0_1_n_n none (truncf .bf16 x3 bitsLt_bf16_f32)
        (truncf .bf16 (catv x0 x1) bitsLt_bf16_f32) (constant S512x1024 .f32 0x00000000#32) := rfl

theorem lhs3_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
theorem lhs3_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs3_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs3_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- The first product at channel p and point n: the dense layer w3 of the point's 512 concatenated channels. -/
theorem pay5_apply (p : Fin 512) (n : Fin 1024) :
    k1_pay5 (F := Ideal) x0 x1 x3 (ix2 p n)
      = Cert.Spec.dense (Cert.Spec.dist (fun o => x1 (ix3 0 o 0)) (fun o => x0 (ix3 0 o n))) (fun p q => x3 (ix2 p q)) p := by
  rw [pay5_eq]
  refine (Ideal.matmul_constant_zero_apply _ none _ _ (ix2 p n)).trans ?_
  unfold Cert.Spec.dense
  rw [← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 p n)
      ((contrEquiv1 dot_S512x512_S512x1024_S512x1024_1_0_0_1_n_n 512 rfl rfl).symm k) = ix2 p k :=
    funext fun a => Fin.ext (by
      match a with
      | ⟨0, _⟩ => exact lhs3_0 _ _
      | ⟨1, _⟩ => exact (lhs3_1 _ _).trans hk)
  have er : dot_S512x512_S512x1024_S512x1024_1_0_0_1_n_n.rhsIdx (ix2 p n)
      ((contrEquiv1 dot_S512x512_S512x1024_S512x1024_1_0_0_1_n_n 512 rfl rfl).symm k) = ix2 k n :=
    funext fun a => Fin.ext (by
      match a with
      | ⟨0, _⟩ => exact (rhs3_0 _ _).trans hk
      | ⟨1, _⟩ => exact rhs3_1 _ _)
  rw [el, er]
  show x3 (ix2 p k) * catv x0 x1 (ix2 k n) = _
  rw [catv_apply, mul_comm]

end Dense3

/-! ## The layer norm over the 512 channels -/

/-- The float word of −∞ is the bottom of the extended reals. -/
theorem ofBits_neg_inf_f32 : Ideal.ofBits .f32 0xFF800000#32 = ⊥ := by simp [Ideal.ofBits, Ideal.ieee]

/-- The channel sum (axis 0) of a 512 × 1024 block, kept as a row, at point n. -/
theorem chanSum_apply (src : FVec Ideal S512x1024 .f32) (u : Fin 1) (n : Fin 1024) :
    shapeCast S1x1024 (multiReduction (F := Ideal) .add [0] S1024 src 0x00000000#32 reduces_S512x1024_S1024 (.inl rfl) rfl)
        shapeCasts_S1024_S1x1024 (ix2 u n)
      = ∑ k : Fin 512, src (ix2 k n) := by
  refine (shapeCast_a_1a_apply _ _ u n).trans ?_
  refine (Ideal.multiReduction_add_single src _ reduces_S512x1024_S1024 _ _ (ix1 n)).trans ?_
  show ∑ k : Fin 512, src (reduces_S512x1024_S1024.lift (ix1 n) k) = _
  refine Finset.sum_congr rfl fun k _ => congrArg src (funext fun a => ?_)
  match a with
  | ⟨0, _⟩ => rfl
  | ⟨1, _⟩ => rfl

section Norm

variable (x0 : FVec Ideal S1x256x1024 .f32) (x1 : FVec Ideal S1x256x1 .f32) (x3 : FVec Ideal S512x512 .f32)

/-- The channels' mean at point n. -/
theorem pay6_apply (u : Fin 1) (n : Fin 1024) :
    k1_pay6 (F := Ideal) x0 x1 x3 (ix2 u n)
      = Cert.Spec.mean 0x44000000#32
          (Cert.Spec.dense (Cert.Spec.dist (fun o => x1 (ix3 0 o 0)) (fun o => x0 (ix3 0 o n))) (fun p q => x3 (ix2 p q))) := by
  unfold k1_pay6 Cert.Spec.mean
  refine (divf_apply _ _ (ix2 u n)).trans ?_
  refine congrArg₂ Ideal.div ?_ rfl
  refine (chanSum_apply _ u n).trans ?_
  exact Finset.sum_congr rfl fun k _ => pay5_apply x0 x1 x3 k n

/-- The centred channel p at point n. -/
theorem pay7_apply (p : Fin 512) (n : Fin 1024) :
    k1_pay7 (F := Ideal) x0 x1 x3 (ix2 p n)
      = Cert.Spec.dense (Cert.Spec.dist (fun o => x1 (ix3 0 o 0)) (fun o => x0 (ix3 0 o n))) (fun p q => x3 (ix2 p q)) p
        - Cert.Spec.mean 0x44000000#32
          (Cert.Spec.dense (Cert.Spec.dist (fun o => x1 (ix3 0 o 0)) (fun o => x0 (ix3 0 o n))) (fun p q => x3 (ix2 p q))) := by
  unfold k1_pay7
  refine (subf_apply _ _ (ix2 p n)).trans ?_
  refine congrArg₂ (· - ·) (pay5_apply x0 x1 x3 p n) ?_
  exact (broadcastTo_1b_ab_apply _ _ p n).trans (pay6_apply x0 x1 x3 0 n)

/-- The normalising factor at point n, the same on every channel: rsqrt (variance + ε). -/
theorem pay8_apply (p : Fin 512) (n : Fin 1024) :
    k1_pay8 (F := Ideal) x0 x1 x3 (ix2 p n)
      = Ideal.rsqrt (Cert.Spec.var 0x44000000#32
          (Cert.Spec.dense (Cert.Spec.dist (fun o => x1 (ix3 0 o 0)) (fun o => x0 (ix3 0 o n))) (fun p q => x3 (ix2 p q)))
          + Ideal.ofBits .f32 0x3727C5AC#32) := by
  unfold k1_pay8 Cert.Spec.var
  refine (broadcastTo_1b_ab_apply _ _ p n).trans ?_
  refine congrArg Ideal.rsqrt ?_
  refine (addf_apply _ _ (ix2 0 n)).trans ?_
  refine congrArg₂ (· + ·) ?_ rfl
  refine (divf_apply _ _ (ix2 0 n)).trans ?_
  refine congrArg₂ Ideal.div ?_ rfl
  refine (chanSum_apply _ 0 n).trans ?_
  refine Finset.sum_congr rfl fun k _ => ?_
  refine (mulf_apply _ _ (ix2 k n)).trans ?_
  have h := pay7_apply x0 x1 x3 k n
  unfold k1_pay7 at h
  exact congrArg₂ (· * ·) h h

end Norm

/-! ## The mask factor -/

/-- The mask factor at point n: 1 where the mask word is not zero, else 0. -/
theorem pay4_apply (x2 : IVec S1x1x1024 32) (u : Fin 1) (n : Fin 1024) :
    k1_pay4 (F := Ideal) x2 (ix2 u n) = Cert.Spec.vis (x2 (ix3 0 0 n)) := by
  obtain rfl : u = 0 := Subsingleton.elim _ _
  have e : shapeCast S1x1024 x2 shapeCasts_S1x1x1024_S1x1024 (ix2 0 n) = x2 (ix3 0 0 n) :=
    shapeCast_1ab_ab_apply x2 _ 0 n
  unfold k1_pay4 Cert.Spec.vis
  show (((((IntOp.cmpi .ne (shapeCast S1x1024 x2 shapeCasts_S1x1x1024_S1x1024 (ix2 0 n)) 0#32).setWidth 32).toInt : ℝ)) : EReal) = _
  rw [e]
  by_cases h : x2 (ix3 0 0 n) = 0#32
  · rw [if_pos h, h]
    simp [IntOp.cmpi]
  · rw [if_neg h]
    have hb : (x2 (ix3 0 0 n) != 0#32) = true := by simpa using h
    simp [IntOp.cmpi, hb]

/-! ## The second activation, the second dense layer and the tile's maximum -/

/-- The maximum (axis 1) of a 1024 × 1024 block from −∞, kept as a column, at channel f. -/
theorem tileMax_apply (src : FVec Ideal S1024x1024 .f32) (f : Fin 1024) (u : Fin 1) :
    shapeCast S1024x1 (multiReduction (F := Ideal) .maximumf [1] S1024 src 0xFF800000#32 reduces_S1024x1024_S1024 (.inl rfl) rfl)
        shapeCasts_S1024_S1024x1 (ix2 f u)
      = Cert.Spec.rowMax fun n : Fin 1024 => src (ix2 f n) := by
  refine (shapeCast_a_a1_apply _ _ f u).trans ?_
  refine (Ideal.multiReduction_maximumf_single src _ reduces_S1024x1024_S1024 _ _ (ix1 f)).trans ?_
  unfold Cert.Spec.rowMax
  show (Finset.univ : Finset (Fin 1024)).fold max (Ideal.ofBits .f32 0xFF800000#32)
      (fun n => src (reduces_S1024x1024_S1024.lift (ix1 f) n)) = _
  rw [ofBits_neg_inf_f32]
  refine congrArg (Finset.fold max ⊥ · Finset.univ) (funext fun n => congrArg src (funext fun a => ?_))
  match a with
  | ⟨0, _⟩ => rfl
  | ⟨1, _⟩ => rfl

section Layer2

variable (x0 : FVec Ideal S1x256x1024 .f32) (x1 : FVec Ideal S1x256x1 .f32) (x2 : IVec S1x1x1024 32)
  (x3 : FVec Ideal S512x512 .f32) (x4 x5 : FVec Ideal S512x1 .f32) (x6 : FVec Ideal S1024x512 .f32) (x7 : FVec Ideal S1024x1 .f32)

/-- The second activation as the body computes it: the normalised channels scaled by the g2 column, shifted by
    the be2 column, masked, and cut at zero. -/
def actv : FVec Ideal S512x1024 .f32 :=
  maximumf
    (mulf
      (addf
        (mulf (mulf (k1_pay7 (F := Ideal) x0 x1 x3) (k1_pay8 (F := Ideal) x0 x1 x3))
          (broadcastTo S512x1024 (shapeCast S512x1 x4 shapeCasts_S512x1_S512x1) broadcasts_S512x1_S512x1024))
        (broadcastTo S512x1024 (shapeCast S512x1 x5 shapeCasts_S512x1_S512x1) broadcasts_S512x1_S512x1024))
      (broadcastTo S512x1024 (k1_pay4 (F := Ideal) x2) broadcasts_S1x1024_S512x1024))
    (broadcast S512x1024 (Scalar.ofBits .f32 0x00000000#32))

/-- Channel q of the second activation at point n. -/
theorem actv_apply (q : Fin 512) (n : Fin 1024) :
    actv x0 x1 x2 x3 x4 x5 (ix2 q n)
      = Cert.Spec.act2 (fun p q => x3 (ix2 p q)) (fun p => x4 (ix2 p 0)) (fun p => x5 (ix2 p 0))
          (fun o => x1 (ix3 0 o 0)) (fun o => x0 (ix3 0 o n)) (x2 (ix3 0 0 n)) q := by
  unfold actv Cert.Spec.act2 Cert.Spec.lnorm
  show max ((k1_pay7 (F := Ideal) x0 x1 x3 (ix2 q n) * k1_pay8 (F := Ideal) x0 x1 x3 (ix2 q n)
        * broadcastTo S512x1024 (shapeCast S512x1 x4 shapeCasts_S512x1_S512x1) broadcasts_S512x1_S512x1024 (ix2 q n)
      + broadcastTo S512x1024 (shapeCast S512x1 x5 shapeCasts_S512x1_S512x1) broadcasts_S512x1_S512x1024 (ix2 q n))
      * broadcastTo S512x1024 (k1_pay4 (F := Ideal) x2) broadcasts_S1x1024_S512x1024 (ix2 q n))
    (Ideal.ofBits .f32 0x00000000#32) = _
  rw [pay7_apply, pay8_apply, broadcastTo_a1_ab_apply, broadcastTo_a1_ab_apply, shapeCast_self, shapeCast_self,
    broadcastTo_1b_ab_apply, pay4_apply, Ideal.ofBits_zero_f32]

/-- h7 of the tile as the body computes it: w4 times the second activation, plus the b4 column. -/
def h7v : FVec Ideal S1024x1024 .f32 :=
  addf
    (matmul dot_S1024x512_S512x1024_S1024x1024_1_0_0_1_n_n none (truncf .bf16 x6 bitsLt_bf16_f32)
      (truncf .bf16 (actv x0 x1 x2 x3 x4 x5) bitsLt_bf16_f32) (constant S1024x1024 .f32 0x00000000#32))
    (broadcastTo S1024x1024 (shapeCast S1024x1 x7 shapeCasts_S1024x1_S1024x1) broadcasts_S1024x1_S1024x1024)

theorem lhs4_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem lhs4_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs4_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs4_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- Channel f of the tile's h7 at point n. -/
theorem h7v_apply (f : Fin 1024) (n : Fin 1024) :
    h7v x0 x1 x2 x3 x4 x5 x6 x7 (ix2 f n)
      = Cert.Spec.h7 (fun p q => x3 (ix2 p q)) (fun p => x4 (ix2 p 0)) (fun p => x5 (ix2 p 0)) (fun f p => x6 (ix2 f p))
          (fun f => x7 (ix2 f 0)) (fun o => x1 (ix3 0 o 0)) (fun o => x0 (ix3 0 o n)) (x2 (ix3 0 0 n)) f := by
  unfold h7v Cert.Spec.h7
  refine (addf_apply _ _ (ix2 f n)).trans ?_
  refine congrArg₂ (· + ·) ?_ ?_
  · refine (Ideal.matmul_constant_zero_apply _ none _ _ (ix2 f n)).trans ?_
    unfold Cert.Spec.dense
    rw [← Equiv.sum_comp (contrEquiv1 dot_S1024x512_S512x1024_S1024x1024_1_0_0_1_n_n 512 rfl rfl).symm]
    refine Finset.sum_congr rfl fun k _ => ?_
    have hk := contrEquiv1_symm_val dot_S1024x512_S512x1024_S1024x1024_1_0_0_1_n_n 512 rfl rfl k
    have el : dot_S1024x512_S512x1024_S1024x1024_1_0_0_1_n_n.lhsIdx (ix2 f n)
        ((contrEquiv1 dot_S1024x512_S512x1024_S1024x1024_1_0_0_1_n_n 512 rfl rfl).symm k) = ix2 f k :=
      funext fun a => Fin.ext (by
        match a with
        | ⟨0, _⟩ => exact lhs4_0 _ _
        | ⟨1, _⟩ => exact (lhs4_1 _ _).trans hk)
    have er : dot_S1024x512_S512x1024_S1024x1024_1_0_0_1_n_n.rhsIdx (ix2 f n)
        ((contrEquiv1 dot_S1024x512_S512x1024_S1024x1024_1_0_0_1_n_n 512 rfl rfl).symm k) = ix2 k n :=
      funext fun a => Fin.ext (by
        match a with
        | ⟨0, _⟩ => exact (rhs4_0 _ _).trans hk
        | ⟨1, _⟩ => exact rhs4_1 _ _)
    rw [el, er]
    show x6 (ix2 f k) * actv x0 x1 x2 x3 x4 x5 (ix2 k n) = _
    rw [actv_apply, mul_comm]
  · refine (broadcastTo_a1_ab_apply _ _ f n).trans ?_
    rw [shapeCast_self]

/-- The body's step over those two: the old accumulator against the tile's channel maxima. -/
theorem pay1_eq (acc : FVec Ideal S1024x1 .f32) :
    k1_pay1 (F := Ideal) (k1_pay4 x2) (k1_pay7 x0 x1 x3) (k1_pay8 x0 x1 x3) x4 x5 x6 x7 acc
      = shapeCast S1024x1
          (maximumf acc
            (shapeCast S1024x1
              (multiReduction (F := Ideal) .maximumf [1] S1024 (h7v x0 x1 x2 x3 x4 x5 x6 x7) 0xFF800000#32
                reduces_S1024x1024_S1024 (.inl rfl) rfl)
              shapeCasts_S1024_S1024x1))
          shapeCasts_S1024x1_S1024x1 := rfl

end Layer2

/-! ## Call 1's stored values are the specification -/

/-- ONE TILE'S STEP: the accumulator's channel f after the step is the old value against the maximum, over the
    tile's 1024 points, of the specification's h7 of each point (from the point's h3 row, the batch's gmax and the
    point's mask word). -/
theorem accStep_apply (x0 : Vec Ideal S1x256x1024 .f32) (x1 : Vec Ideal S1x256x1 .f32) (x2 : Vec Ideal S1x1x1024 .i32)
    (x3 : Vec Ideal S512x512 .f32) (x4 x5 : Vec Ideal S512x1 .f32) (x6 : Vec Ideal S1024x512 .f32)
    (x7 : Vec Ideal S1024x1 .f32) (acc : Vec Ideal S1024x1 .f32) (f : Fin 1024) :
    accStep x0 x1 x2 x3 x4 x5 x6 x7 acc (ix2 f 0)
      = max (acc (ix2 f 0)) (Cert.Spec.rowMax fun n : Fin 1024 =>
          Cert.Spec.h7 (fun p q => x3 (ix2 p q)) (fun p => x4 (ix2 p 0)) (fun p => x5 (ix2 p 0)) (fun f p => x6 (ix2 f p)) (fun f => x7 (ix2 f 0))
            (fun o => x1 (ix3 0 o 0)) (fun o => x0 (ix3 0 o n)) (x2 (ix3 0 0 n)) f) := by
  unfold accStep
  rw [pay1_eq, shapeCast_self]
  refine (maximumf_apply _ _ (ix2 f 0)).trans ?_
  refine congrArg (max (acc (ix2 f 0))) ?_
  refine (tileMax_apply _ f 0).trans ?_
  exact congrArg Cert.Spec.rowMax (funext fun n => h7v_apply x0 x1 x2 x3 x4 x5 x6 x7 f n)

/-- A batch's accumulator starts at −∞. -/
theorem accInit_apply (f : Fin 1024) : accInit (F := Ideal) (ix2 f 0) = ⊥ := by
  unfold accInit k1_pay3
  rw [shapeCast_self]
  exact ofBits_neg_inf_f32

/-- The output row is the accumulator column read across. -/
theorem outblk_apply (acc : Vec Ideal S1024x1 .f32) (f : Fin 1024) : outblk acc (ix3 0 0 f) = acc (ix2 f 0) := by
  unfold outblk k1_pay2
  exact (shapeCast_ab_1ab_apply _ _ 0 0 f).trans (transpose_ix2_apply acc _ 0 f)

end Cert.KernelIdeal.Val

end
-- ==== Proof.KI.SpecAt.lean ====
import proofs.«127374_j73383811219637_1_alg».proof.Proof.KI.Chain
import proofs.«127374_j73383811219637_1_alg».proof.Proof.Spec
import Idealize.ShloMosaic.Lib.ValueIdx

/-! # The specification read off the launch memory, and the arrays between the calls by name

At the ideal values: the twelve argument arrays of a core at their literal shapes; the specification's arguments
read off them (a weight matrix entry by entry, a vector entry by entry, batch element b's points and mask words);
the specification's h3, gmax and result for batch element b; and, at their literal shapes, the arrays the calls
leave: h3 and gmax after call 0, the 32 × 1 × 1024 output after call 1, the result after the last reshape. -/

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Frm

variable (m : (ℓ : Loc nD τ sig) → Buf (Elt Ideal) ℓ) (c : Dev nD)

/-! ## The argument arrays -/

abbrev ptsA : Vec Ideal S32x4096x3 .f32 := m ((c : Thread nD τ).loc main_arg0)
abbrev maskA : Vec Ideal S32x1x4096 .i32 := m ((c : Thread nD τ).loc main_arg1)
abbrev w1A : Vec Ideal S128x3 .f32 := m ((c : Thread nD τ).loc main_arg2)
abbrev g1A : Vec Ideal S128 .f32 := m ((c : Thread nD τ).loc main_arg3)
abbrev be1A : Vec Ideal S128 .f32 := m ((c : Thread nD τ).loc main_arg4)
abbrev w2A : Vec Ideal S256x128 .f32 := m ((c : Thread nD τ).loc main_arg5)
abbrev b2A : Vec Ideal S256 .f32 := m ((c : Thread nD τ).loc main_arg6)
abbrev w3A : Vec Ideal S512x512 .f32 := m ((c : Thread nD τ).loc main_arg7)
abbrev g2A : Vec Ideal S512 .f32 := m ((c : Thread nD τ).loc main_arg8)
abbrev be2A : Vec Ideal S512 .f32 := m ((c : Thread nD τ).loc main_arg9)
abbrev w4A : Vec Ideal S1024x512 .f32 := m ((c : Thread nD τ).loc main_arg10)
abbrev b4A : Vec Ideal S1024 .f32 := m ((c : Thread nD τ).loc main_arg11)

/-! ## The specification's arguments -/

def sw1 : Fin 128 → Fin 3 → EReal := fun k ch => w1A m c (ix2 k ch)
def sg1 : Fin 128 → EReal := fun k => g1A m c (ix1 k)
def sbe1 : Fin 128 → EReal := fun k => be1A m c (ix1 k)
def sw2 : Fin 256 → Fin 128 → EReal := fun o k => w2A m c (ix2 o k)
def sb2 : Fin 256 → EReal := fun o => b2A m c (ix1 o)
def sw3 : Fin 512 → Fin 512 → EReal := fun p q => w3A m c (ix2 p q)
def sg2 : Fin 512 → EReal := fun p => g2A m c (ix1 p)
def sbe2 : Fin 512 → EReal := fun p => be2A m c (ix1 p)
def sw4 : Fin 1024 → Fin 512 → EReal := fun f p => w4A m c (ix2 f p)
def sb4 : Fin 1024 → EReal := fun f => b4A m c (ix1 f)
/-- Batch element b's points. -/
def sP (b : Fin 32) : Fin 4096 → Fin 3 → EReal := fun n ch => ptsA m c (ix3 b n ch)
/-- Batch element b's mask words. -/
def sM (b : Fin 32) : Fin 4096 → BitVec 32 := fun n => maskA m c (ix3 b 0 n)

/-- The specification's h3 of point n of batch element b. -/
def specH3 (b : Fin 32) (n : Fin 4096) (o : Fin 256) : EReal :=
  Cert.Spec.h3 (sw1 m c) (sg1 m c) (sbe1 m c) (sw2 m c) (sb2 m c) (sP m c b n) (sM m c b n) o
/-- The specification's gmax of batch element b. -/
def specGm (b : Fin 32) (o : Fin 256) : EReal :=
  Cert.Spec.gmax (sw1 m c) (sg1 m c) (sbe1 m c) (sw2 m c) (sb2 m c) (sP m c b) (sM m c b) o
/-- The specification's result row of batch element b. -/
def specRow (b : Fin 32) (f : Fin 1024) : EReal :=
  Cert.Spec.out (sw1 m c) (sg1 m c) (sbe1 m c) (sw2 m c) (sb2 m c) (sw3 m c) (sg2 m c) (sbe2 m c) (sw4 m c) (sb4 m c) (sP m c b) (sM m c b) f

theorem specGm_eq (b : Fin 32) (o : Fin 256) : specGm m c b o = Cert.Spec.rowMax fun n => specH3 m c b n o := rfl

theorem specRow_eq (b : Fin 32) (f : Fin 1024) :
    specRow m c b f = Cert.Spec.rowMax fun n : Fin 4096 =>
      Cert.Spec.h7 (sw3 m c) (sg2 m c) (sbe2 m c) (sw4 m c) (sb4 m c) (specGm m c b) (specH3 m c b n) (sM m c b n) f := rfl

/-! ## The arrays the calls leave -/

/-- h3 after call 0 (32 × 256 × 4096, channel-major). -/
abbrev h3A : Vec Ideal S32x256x4096 .f32 := W2 m c (Proc.devRef .tc main_v7_0)
/-- gmax after call 0 (32 × 256 × 1). -/
abbrev gmA : Vec Ideal S32x256x1 .f32 := W2 m c (Proc.devRef .tc main_v7_1)
/-- The output after call 1 (32 × 1 × 1024). -/
abbrev o8A : Vec Ideal S32x1x1024 .f32 := W3 m c (Proc.devRef .tc main_v8)
/-- The result at the return (32 × 1024). -/
abbrev outA : Vec Ideal S32x1024 .f32 := W4 m c (Proc.devRef .tc main_v9)

end Cert.KernelIdeal.Val

end
-- ==== Proof.KI.Arr0.lean ====
import proofs.«127374_j73383811219637_1_alg».proof.Proof.KI.SpecAt
import Idealize.ShloMosaic.Lib.ValueIdx
import Idealize.ShloMosaic.Lib.Pipeline.Value
import Idealize.ShloMosaic.Lib.Tactic

/-! # After call 0 the arrays h3 and gmax are the specification's

At the ideal values. Call 0 runs once per batch element: at point t its windows show batch element t's points
(channel-major: the launch points with the last two axes exchanged by the host), its mask words, and the
weights, of which the three vectors arrive as columns (the host's reshapes). Each input block, read at an
index, is therefore an entry of a launch array. Given what call 0 stores as a function of its blocks (the two
hypotheses of the last section: the stored h3 block and the stored gmax block at an index are the
specification's h3 and its row maximum on the blocks' entries), the block stored at point t is the specification's
h3, resp. gmax, of batch element t. Point t writes its block back to rows t of the two output arrays, every point
writes back, and the 32 blocks cover the arrays; so after the call each array is the specification's, index by
index. -/

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Frm

variable (m : (ℓ : Loc nD τ sig) → Buf (Elt Ideal) ℓ) (c : Dev nD)

/-! ## The arrays the host operations wrote before call 0 -/

/-- The points, channel-major: the launch points with the last two axes exchanged. -/
theorem V1_v0 : (Frm.V1 m c main_v0 : Vec Ideal S32x3x4096 .f32)
    = transpose S32x3x4096 [0, 2, 1] (ptsA m c) transposes_S32x4096x3_S32x3x4096_0_2_1 := by
  show StableHlo.after hostOps0 _ (Proc.devRef .tc main_v0) = _
  after_results
  try rfl

/-- The first layer norm's scale as a column. -/
theorem V1_v1 : (Frm.V1 m c main_v1 : Vec Ideal S128x1 .f32) = shapeCast S128x1 (g1A m c) shapeCasts_S128_S128x1 := by
  show StableHlo.after hostOps0 _ (Proc.devRef .tc main_v1) = _
  after_results
  try rfl

/-- The first layer norm's shift as a column. -/
theorem V1_v2 : (Frm.V1 m c main_v2 : Vec Ideal S128x1 .f32) = shapeCast S128x1 (be1A m c) shapeCasts_S128_S128x1 := by
  show StableHlo.after hostOps0 _ (Proc.devRef .tc main_v2) = _
  after_results
  try rfl

/-- The second dense layer's bias as a column. -/
theorem V1_v3 : (Frm.V1 m c main_v3 : Vec Ideal S256x1 .f32) = shapeCast S256x1 (b2A m c) shapeCasts_S256_S256x1 := by
  show StableHlo.after hostOps0 _ (Proc.devRef .tc main_v3) = _
  after_results
  try rfl

/-- An array no host operation writes is found as launched. -/
theorem V1_kept (b : Ref sig .tc) (h : b ∉ hostOps0_W) : Frm.V1 m c b = m ((c : Thread nD τ).loc b) :=
  StableHlo.after_of_writes_sub hostOps0 _ hostOps0_writes h

/-! ## Call 0's index maps, decided over its 32 points

The batched windows (points, mask, h3, gmax) show batch element t at point t; the weights' windows show their
whole arrays at every point. -/

theorem idx0_0 : ∀ t : Fin cfg0.N, win0_0.index t (0 : Fin 3) = t.val ∧ win0_0.index t (1 : Fin 3) = 0
    ∧ win0_0.index t (2 : Fin 3) = 0 :=
  (by decide +kernel : ∀ t : Fin grid0.N, _)
theorem idx0_1 : ∀ t : Fin cfg0.N, win0_1.index t (0 : Fin 3) = t.val ∧ win0_1.index t (1 : Fin 3) = 0
    ∧ win0_1.index t (2 : Fin 3) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 3) = t.val ∧ win0_7.index t (1 : Fin 3) = 0
    ∧ win0_7.index t (2 : Fin 3) = 0 :=
  (by decide +kernel : ∀ t : Fin grid0.N, _)
theorem idx0_8 : ∀ t : Fin cfg0.N, win0_8.index t (0 : Fin 3) = t.val ∧ win0_8.index t (1 : Fin 3) = 0
    ∧ win0_8.index t (2 : Fin 3) = 0 :=
  (by decide +kernel : ∀ t : Fin grid0.N, _)

/-- Call 0 has 32 points. -/
theorem lt32 (t : Fin cfg0.N) : t.val < 32 := Nat.lt_of_lt_of_eq t.isLt N_0

/-! ## Call 0's input blocks at point t, read at an index, in the launch arrays -/

/-- The points block at point t: channel ch of point n of batch element t. -/
theorem iblk0_0_apply (t : Fin cfg0.N) (ht : t.val < 32) (ch : Fin 3) (n : Fin 4096) :
    (iblk0 (Frm.V1 m) c 0 t : Vec Ideal S1x3x4096 .f32) (ix3 0 ch n) = ptsA m c (ix3 ⟨t.val, ht⟩ n ch) := by
  obtain ⟨e0, e1, e2⟩ := idx0_0 t
  unfold iblk0
  rw [View.read_apply]
  show (Frm.V1 m c main_v0 : Vec Ideal S32x3x4096 .f32) (((cfg0.win 0).blk t).view.emb (ix3 0 ch n)) = _
  rw [V1_v0]
  refine transpose_apply _ _ _ _ (ix3 ⟨t.val, ht⟩ n ch) fun b => ?_
  match b with
  | ⟨0, _⟩ => show t.val = win0_0.index t (0 : Fin 3) * 1 + 1 * 0; omega
  | ⟨1, _⟩ => show ch.val = win0_0.index t (1 : Fin 3) * 3 + 1 * ch.val; omega
  | ⟨2, _⟩ => show n.val = win0_0.index t (2 : Fin 3) * 4096 + 1 * n.val; omega

/-- The mask block at point t: the mask word of point n of batch element t. -/
theorem iblk0_1_apply (t : Fin cfg0.N) (ht : t.val < 32) (n : Fin 4096) :
    (iblk0 (Frm.V1 m) c 1 t : Vec Ideal S1x1x4096 .i32) (ix3 0 0 n) = maskA m c (ix3 ⟨t.val, ht⟩ 0 n) := by
  obtain ⟨e0, e1, e2⟩ := idx0_1 t
  unfold iblk0
  rw [View.read_apply]
  show (Frm.V1 m c main_arg1 : Vec Ideal S32x1x4096 .i32) (((cfg0.win 1).blk t).view.emb (ix3 0 0 n)) = _
  refine (congrFun (V1_kept m c main_arg1 (by decide)) _).trans ?_
  refine congrArg (maskA m c) (funext fun a => Fin.ext ?_)
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 4096 + 1 * n.val = n.val; omega

/-- The first dense layer's weights: the whole array at every point. -/
theorem iblk0_2_apply (t : Fin cfg0.N) (k : Fin 128) (ch : Fin 3) :
    (iblk0 (Frm.V1 m) c 2 t : Vec Ideal S128x3 .f32) (ix2 k ch) = w1A m c (ix2 k ch) := by
  obtain ⟨e0, e1⟩ := idx0_2 t
  unfold iblk0
  rw [View.read_apply]
  show (Frm.V1 m c main_arg2 : Vec Ideal S128x3 .f32) (((cfg0.win 2).blk t).view.emb (ix2 k ch)) = _
  refine (congrFun (V1_kept m c main_arg2 (by decide)) _).trans ?_
  refine congrArg (w1A m c) (funext fun a => Fin.ext ?_)
  match a with
  | ⟨0, _⟩ => show win0_2.index t (0 : Fin 2) * 128 + 1 * k.val = k.val; omega
  | ⟨1, _⟩ => show win0_2.index t (1 : Fin 2) * 3 + 1 * ch.val = ch.val; omega

/-- The first layer norm's scale: the column's entry k is the vector's. -/
theorem iblk0_3_apply (t : Fin cfg0.N) (k : Fin 128) :
    (iblk0 (Frm.V1 m) c 3 t : Vec Ideal S128x1 .f32) (ix2 k 0) = g1A m c (ix1 k) := by
  obtain ⟨e0, e1⟩ := idx0_3 t
  unfold iblk0
  rw [View.read_apply]
  show (Frm.V1 m c main_v1 : Vec Ideal S128x1 .f32) (((cfg0.win 3).blk t).view.emb (ix2 k 0)) = _
  rw [V1_v1]
  refine shapeCast_apply _ _ _ (ix1 k) ?_
  rw [Shape.rowMajor_val_one, Shape.rowMajor_val_two]
  show k.val = (win0_3.index t (0 : Fin 2) * 128 + 1 * k.val) * 1 + (win0_3.index t (1 : Fin 2) * 1 + 1 * 0)
  omega

/-- The first layer norm's shift: the column's entry k is the vector's. -/
theorem iblk0_4_apply (t : Fin cfg0.N) (k : Fin 128) :
    (iblk0 (Frm.V1 m) c 4 t : Vec Ideal S128x1 .f32) (ix2 k 0) = be1A m c (ix1 k) := by
  obtain ⟨e0, e1⟩ := idx0_4 t
  unfold iblk0
  rw [View.read_apply]
  show (Frm.V1 m c main_v2 : Vec Ideal S128x1 .f32) (((cfg0.win 4).blk t).view.emb (ix2 k 0)) = _
  rw [V1_v2]
  refine shapeCast_apply _ _ _ (ix1 k) ?_
  rw [Shape.rowMajor_val_one, Shape.rowMajor_val_two]
  show k.val = (win0_4.index t (0 : Fin 2) * 128 + 1 * k.val) * 1 + (win0_4.index t (1 : Fin 2) * 1 + 1 * 0)
  omega

/-- The second dense layer's weights: the whole array at every point. -/
theorem iblk0_5_apply (t : Fin cfg0.N) (o : Fin 256) (k : Fin 128) :
    (iblk0 (Frm.V1 m) c 5 t : Vec Ideal S256x128 .f32) (ix2 o k) = w2A m c (ix2 o k) := by
  obtain ⟨e0, e1⟩ := idx0_5 t
  unfold iblk0
  rw [View.read_apply]
  show (Frm.V1 m c main_arg5 : Vec Ideal S256x128 .f32) (((cfg0.win 5).blk t).view.emb (ix2 o k)) = _
  refine (congrFun (V1_kept m c main_arg5 (by decide)) _).trans ?_
  refine congrArg (w2A m c) (funext fun a => Fin.ext ?_)
  match a with
  | ⟨0, _⟩ => show win0_5.index t (0 : Fin 2) * 256 + 1 * o.val = o.val; omega
  | ⟨1, _⟩ => show win0_5.index t (1 : Fin 2) * 128 + 1 * k.val = k.val; omega

/-- The second dense layer's bias: the column's entry o is the vector's. -/
theorem iblk0_6_apply (t : Fin cfg0.N) (o : Fin 256) :
    (iblk0 (Frm.V1 m) c 6 t : Vec Ideal S256x1 .f32) (ix2 o 0) = b2A m c (ix1 o) := by
  obtain ⟨e0, e1⟩ := idx0_6 t
  unfold iblk0
  rw [View.read_apply]
  show (Frm.V1 m c main_v3 : Vec Ideal S256x1 .f32) (((cfg0.win 6).blk t).view.emb (ix2 o 0)) = _
  rw [V1_v3]
  refine shapeCast_apply _ _ _ (ix1 o) ?_
  rw [Shape.rowMajor_val_one, Shape.rowMajor_val_two]
  show o.val = (win0_6.index t (0 : Fin 2) * 256 + 1 * o.val) * 1 + (win0_6.index t (1 : Fin 2) * 1 + 1 * 0)
  omega

/-! ## What call 0 stores at point t is the specification's h3 and gmax of batch element t -/

/-- The specification's h3 depends on its arguments only through their values. -/
theorem h3_congr {w1 w1' : Fin 128 → Fin 3 → EReal} {g1 g1' be1 be1' : Fin 128 → EReal} {w2 w2' : Fin 256 → Fin 128 → EReal}
    {b2 b2' : Fin 256 → EReal} {p p' : Fin 3 → EReal} {mw mw' : BitVec 32} (o : Fin 256)
    (h1 : w1 = w1') (h2 : g1 = g1') (h3 : be1 = be1') (h4 : w2 = w2') (h5 : b2 = b2') (h6 : p = p') (h7 : mw = mw') :
    Cert.Spec.h3 w1 g1 be1 w2 b2 p mw o = Cert.Spec.h3 w1' g1' be1' w2' b2' p' mw' o := by
  subst h1 h2 h3 h4 h5 h6 h7; rfl

/-- The specification's h3 on call 0's blocks at point t is its h3 of point n of batch element t. -/
theorem h3_blocks (t : Fin cfg0.N) (ht : t.val < 32) (o : Fin 256) (n : Fin 4096) :
    Cert.Spec.h3 (fun k ch => (iblk0 (Frm.V1 m) c 2 t : Vec Ideal S128x3 .f32) (ix2 k ch))
      (fun k => (iblk0 (Frm.V1 m) c 3 t : Vec Ideal S128x1 .f32) (ix2 k 0))
      (fun k => (iblk0 (Frm.V1 m) c 4 t : Vec Ideal S128x1 .f32) (ix2 k 0))
      (fun o k => (iblk0 (Frm.V1 m) c 5 t : Vec Ideal S256x128 .f32) (ix2 o k))
      (fun o => (iblk0 (Frm.V1 m) c 6 t : Vec Ideal S256x1 .f32) (ix2 o 0))
      (fun ch => (iblk0 (Frm.V1 m) c 0 t : Vec Ideal S1x3x4096 .f32) (ix3 0 ch n))
      ((iblk0 (Frm.V1 m) c 1 t : Vec Ideal S1x1x4096 .i32) (ix3 0 0 n)) o = specH3 m c ⟨t.val, ht⟩ n o :=
  h3_congr o (funext fun k => funext fun ch => iblk0_2_apply m c t k ch) (funext fun k => iblk0_3_apply m c t k)
    (funext fun k => iblk0_4_apply m c t k) (funext fun o => funext fun k => iblk0_5_apply m c t o k)
    (funext fun o => iblk0_6_apply m c t o) (funext fun ch => iblk0_0_apply m c t ht ch n) (iblk0_1_apply m c t ht n)

/-! ## The specification's two arrays, and the cover of the output windows -/

/-- The specification's h3 as one array, channel-major: batch element, channel, point. -/
def h3G : Vec Ideal S32x256x4096 .f32 := fun i => specH3 m c (i 0) (i 2) (i 1)
/-- The specification's gmax as one array: batch element, channel, one column. -/
def gmG : Vec Ideal S32x256x1 .f32 := fun i => specGm m c (i 0) (i 1)

theorem h3G_apply (b : Fin 32) (o : Fin 256) (n : Fin 4096) : h3G m c (ix3 b o n) = specH3 m c b n o := rfl
theorem gmG_apply (b : Fin 32) (o : Fin 256) (q : Fin 1) : gmG m c (ix3 b o q) = specGm m c b o := rfl

/-- An index of the array is in point t's block of window 7 iff each coordinate is in the block's range on its axis. -/
theorem mem_blk0_7 (t : Fin cfg0.N) (i : S32x256x4096.Idx) :
    i ∈ ((cfg0.win 7).blk t).view.set ↔ ∀ a : Fin 3, win0_7.index t a * S1x256x4096.size a ≤ (i a).val
      ∧ (i a).val < win0_7.index t a * S1x256x4096.size a + S1x256x4096.size a := by
  show i ∈ ((View.whole main_v7_0).slice (win0_7.rect t)).set ↔ _
  rw [View.set_slice_whole, Rect.mem_set_unit]
  exact Iff.rfl

/-- Every index of the array lies in the block of the point its batch coordinate names, and that point writes back. -/
theorem cover0_7 (i : S32x256x4096.Idx) :
    ∃ t : Fin cfg0.N, (cfg0.win 7).flush t = true ∧ i ∈ ((cfg0.win 7).blk t).view.set := by
  have h0 : (i 0).val < 32 := (i 0).isLt
  have h1 : (i 1).val < 256 := (i 1).isLt
  have h2 : (i 2).val < 4096 := (i 2).isLt
  obtain ⟨t, ht⟩ : ∃ t : Fin cfg0.N, t.val = (i 0).val := ⟨⟨(i 0).val, Nat.lt_of_lt_of_eq h0 N_0.symm⟩, rfl⟩
  obtain ⟨e0, e1, e2⟩ := idx0_7 t
  refine ⟨t, flush0_7 t, ?_⟩
  rw [mem_blk0_7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 4096 ≤ (i 2).val ∧ (i 2).val < win0_7.index t (2 : Fin 3) * 4096 + 4096; omega

/-- An index of the array is in point t's block of window 8 iff each coordinate is in the block's range on its axis. -/
theorem mem_blk0_8 (t : Fin cfg0.N) (i : S32x256x1.Idx) :
    i ∈ ((cfg0.win 8).blk t).view.set ↔ ∀ a : Fin 3, win0_8.index t a * S1x256x1.size a ≤ (i a).val
      ∧ (i a).val < win0_8.index t a * S1x256x1.size a + S1x256x1.size a := by
  show i ∈ ((View.whole main_v7_1).slice (win0_8.rect t)).set ↔ _
  rw [View.set_slice_whole, Rect.mem_set_unit]
  exact Iff.rfl

/-- Every index of the array lies in the block of the point its batch coordinate names, and that point writes back. -/
theorem cover0_8 (i : S32x256x1.Idx) :
    ∃ t : Fin cfg0.N, (cfg0.win 8).flush t = true ∧ i ∈ ((cfg0.win 8).blk t).view.set := by
  have h0 : (i 0).val < 32 := (i 0).isLt
  have h1 : (i 1).val < 256 := (i 1).isLt
  have h2 : (i 2).val < 1 := (i 2).isLt
  obtain ⟨t, ht⟩ : ∃ t : Fin cfg0.N, t.val = (i 0).val := ⟨⟨(i 0).val, Nat.lt_of_lt_of_eq h0 N_0.symm⟩, rfl⟩
  obtain ⟨e0, e1, e2⟩ := idx0_8 t
  refine ⟨t, flush0_8 t, ?_⟩
  rw [mem_blk0_8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 256 ≤ (i 1).val ∧ (i 1).val < win0_8.index t (1 : Fin 3) * 256 + 256; omega
  | ⟨2, _⟩ => show win0_8.index t (2 : Fin 3) * 1 ≤ (i 2).val ∧ (i 2).val < win0_8.index t (2 : Fin 3) * 1 + 1; omega

section Stored

variable (hH3 : ∀ (x0 : Vec Ideal S1x3x4096 .f32) (x1 : Vec Ideal S1x1x4096 .i32) (x2 : Vec Ideal S128x3 .f32) (x3 x4 : Vec Ideal S128x1 .f32) (x5 : Vec Ideal S256x128 .f32) (x6 : Vec Ideal S256x1 .f32) (o : Fin 256) (n : Fin 4096),
    h3blk x0 x1 x2 x3 x4 x5 x6 (ix3 0 o n) = Cert.Spec.h3 (fun k ch => x2 (ix2 k ch)) (fun k => x3 (ix2 k 0)) (fun k => x4 (ix2 k 0)) (fun o k => x5 (ix2 o k)) (fun o => x6 (ix2 o 0)) (fun ch => x0 (ix3 0 ch n)) (x1 (ix3 0 0 n)) o)
variable (hGm : ∀ (x0 : Vec Ideal S1x3x4096 .f32) (x1 : Vec Ideal S1x1x4096 .i32) (x2 : Vec Ideal S128x3 .f32) (x3 x4 : Vec Ideal S128x1 .f32) (x5 : Vec Ideal S256x128 .f32) (x6 : Vec Ideal S256x1 .f32) (o : Fin 256),
    gmblk x0 x1 x2 x3 x4 x5 x6 (ix3 0 o 0) = Cert.Spec.rowMax fun n : Fin 4096 => Cert.Spec.h3 (fun k ch => x2 (ix2 k ch)) (fun k => x3 (ix2 k 0)) (fun k => x4 (ix2 k 0)) (fun o k => x5 (ix2 o k)) (fun o => x6 (ix2 o 0)) (fun ch => x0 (ix3 0 ch n)) (x1 (ix3 0 0 n)) o)
include hH3 hGm

/-- What call 0 leaves in the h3 window's buffer at point t. -/
theorem h3At_apply (t : Fin cfg0.N) (ht : t.val < 32) (o : Fin 256) (n : Fin 4096) :
    h3At (Frm.V1 m) c t (ix3 0 o n) = specH3 m c ⟨t.val, ht⟩ n o :=
  (hH3 (iblk0 (Frm.V1 m) c 0 t) (iblk0 (Frm.V1 m) c 1 t) (iblk0 (Frm.V1 m) c 2 t) (iblk0 (Frm.V1 m) c 3 t) (iblk0 (Frm.V1 m) c 4 t) (iblk0 (Frm.V1 m) c 5 t) (iblk0 (Frm.V1 m) c 6 t) o n).trans (h3_blocks m c t ht o n)

/-- What call 0 leaves in the gmax window's buffer at point t. -/
theorem gmAt_apply (t : Fin cfg0.N) (ht : t.val < 32) (o : Fin 256) :
    gmAt (Frm.V1 m) c t (ix3 0 o 0) = specGm m c ⟨t.val, ht⟩ o :=
  (hGm (iblk0 (Frm.V1 m) c 0 t) (iblk0 (Frm.V1 m) c 1 t) (iblk0 (Frm.V1 m) c 2 t) (iblk0 (Frm.V1 m) c 3 t) (iblk0 (Frm.V1 m) c 4 t) (iblk0 (Frm.V1 m) c 5 t) (iblk0 (Frm.V1 m) c 6 t) o).trans
    ((congrArg Cert.Spec.rowMax (funext fun n => h3_blocks m c t ht o n)).trans (specGm_eq m c ⟨t.val, ht⟩ o).symm)

/-! ## The two arrays after call 0 -/

/-- What point t writes back of the h3 window is block t of the specification's h3 array. -/
theorem flushed0_7 (t : Fin cfg0.N) :
    (dat0 (Frm.V1 m) c).flushed 7 t = ((cfg0.win 7).blk t).view.read (Elt Ideal) (h3G m c) := by
  have ht : t.val < 32 := lt32 t
  obtain ⟨e0, e1, e2⟩ := idx0_7 t
  show (cfg0.win 7).cut (cfg0.grid.coords t) ((dat0 (Frm.V1 m) c).after 7 t) = _
  rw [after0_7]
  funext y
  obtain ⟨p, o, n, rfl⟩ : ∃ (p : Fin 1) (o : Fin 256) (n : Fin 4096), y = ix3 p o n :=
    ⟨y 0, y 1, y 2, eq_ix3 (n0 := 1) (n1 := 256) (n2 := 4096) y⟩
  obtain rfl : p = 0 := Subsingleton.elim _ _
  rw [View.read_apply]
  show h3At (Frm.V1 m) c t (ix3 0 o n) = h3G m c (((cfg0.win 7).blk t).view.emb (ix3 0 o n))
  have e : ((cfg0.win 7).blk t).view.emb (ix3 (0 : Fin 1) o n) = (ix3 ⟨t.val, ht⟩ o n : S32x256x4096.Idx) := by
    funext a; apply Fin.ext
    match a with
    | ⟨0, _⟩ => show win0_7.index t (0 : Fin 3) * 1 + 1 * 0 = t.val; omega
    | ⟨1, _⟩ => show win0_7.index t (1 : Fin 3) * 256 + 1 * o.val = o.val; omega
    | ⟨2, _⟩ => show win0_7.index t (2 : Fin 3) * 4096 + 1 * n.val = n.val; omega
  exact (h3At_apply m c hH3 hGm t ht o n).trans ((h3G_apply m c ⟨t.val, ht⟩ o n).symm.trans (congrArg (h3G m c) e.symm))

/-- What point t writes back of the gmax window is block t of the specification's gmax array. -/
theorem flushed0_8 (t : Fin cfg0.N) :
    (dat0 (Frm.V1 m) c).flushed 8 t = ((cfg0.win 8).blk t).view.read (Elt Ideal) (gmG m c) := by
  have ht : t.val < 32 := lt32 t
  obtain ⟨e0, e1, e2⟩ := idx0_8 t
  show (cfg0.win 8).cut (cfg0.grid.coords t) ((dat0 (Frm.V1 m) c).after 8 t) = _
  rw [after0_8]
  funext y
  obtain ⟨p, o, q, rfl⟩ : ∃ (p : Fin 1) (o : Fin 256) (q : Fin 1), y = ix3 p o q :=
    ⟨y 0, y 1, y 2, eq_ix3 (n0 := 1) (n1 := 256) (n2 := 1) y⟩
  obtain rfl : p = 0 := Subsingleton.elim _ _
  obtain rfl : q = 0 := Subsingleton.elim _ _
  rw [View.read_apply]
  show gmAt (Frm.V1 m) c t (ix3 0 o 0) = gmG m c (((cfg0.win 8).blk t).view.emb (ix3 0 o 0))
  have e : ((cfg0.win 8).blk t).view.emb (ix3 (0 : Fin 1) o (0 : Fin 1)) = (ix3 ⟨t.val, ht⟩ o 0 : S32x256x1.Idx) := by
    funext a; apply Fin.ext
    match a with
    | ⟨0, _⟩ => show win0_8.index t (0 : Fin 3) * 1 + 1 * 0 = t.val; omega
    | ⟨1, _⟩ => show win0_8.index t (1 : Fin 3) * 256 + 1 * o.val = o.val; omega
    | ⟨2, _⟩ => show win0_8.index t (2 : Fin 3) * 1 + 1 * 0 = 0; omega
  exact (gmAt_apply m c hH3 hGm t ht o).trans ((gmG_apply m c ⟨t.val, ht⟩ o 0).symm.trans (congrArg (gmG m c) e.symm))

/-- After call 0 the h3 array is the specification's. -/
theorem h3A_eq : h3A m c = h3G m c :=
  (W2_arr m c 7).trans ((dat0 (Frm.V1 m) c).arrAt_eq_of_cover 7 (h3G m c) (fun t _ => flushed0_7 m c hH3 hGm t) cover0_7)

/-- After call 0 the gmax array is the specification's. -/
theorem gmA_eq : gmA m c = gmG m c :=
  (W2_arr m c 8).trans ((dat0 (Frm.V1 m) c).arrAt_eq_of_cover 8 (gmG m c) (fun t _ => flushed0_8 m c hH3 hGm t) cover0_8)

/-- AFTER CALL 0 the h3 array holds, at batch element b, channel o and point n, the specification's h3. -/
theorem h3A_apply (b : Fin 32) (o : Fin 256) (n : Fin 4096) : h3A m c (ix3 b o n) = specH3 m c b n o :=
  (congrFun (h3A_eq m c hH3 hGm) (ix3 b o n)).trans (h3G_apply m c b o n)

/-- AFTER CALL 0 the gmax array holds, at batch element b and channel o, the specification's gmax. -/
theorem gmA_apply (b : Fin 32) (o : Fin 256) : gmA m c (ix3 b o 0) = specGm m c b o :=
  (congrFun (gmA_eq m c hH3 hGm) (ix3 b o 0)).trans (gmG_apply m c b o 0)

end Stored

end Cert.KernelIdeal.Val

end
-- ==== Proof.SpecMax.lean ====
import proofs.«127374_j73383811219637_1_alg».proof.Proof.Spec

/-! # A maximum over 4096 points from the maxima of its four runs of 1024

The maximum of a finite family of extended reals, folded from −∞, is its least upper bound: it lies below a bound
exactly when every member does. Two extended reals with the same upper bounds are equal. The 4096 indices are the
disjoint union of the four runs n, 1024 + n, 2048 + n, 3072 + n (n < 1024), so a bound on all four runs is a bound
on every index, and conversely. Nothing here is evaluated at 4096: the split is by comparing an index with 1024,
2048 and 3072. -/

noncomputable section

namespace Cert.Spec

/-- The maximum of a finite family is below a bound exactly when every member is. -/
theorem rowMax_le_iff {N : ℕ} (g : Fin N → EReal) (c : EReal) : rowMax g ≤ c ↔ ∀ n, g n ≤ c := by
  unfold rowMax
  rw [Finset.fold_max_le]
  constructor
  · intro h n
    exact h.2 n (Finset.mem_univ n)
  · intro h
    exact ⟨bot_le, fun n _ => h n⟩

/-- Every index below 4096 lies in exactly one of the four runs of 1024; a bound on each run is a bound on
all indices. -/
theorem forall_four (p : Fin 4096 → Prop)
    (k0 : ∀ n : Fin 1024, p ⟨n.val, by omega⟩) (k1 : ∀ n : Fin 1024, p ⟨1024 + n.val, by omega⟩)
    (k2 : ∀ n : Fin 1024, p ⟨2048 + n.val, by omega⟩) (k3 : ∀ n : Fin 1024, p ⟨3072 + n.val, by omega⟩) :
    ∀ n, p n := by
  intro n
  have hn := n.isLt
  by_cases c0 : n.val < 1024
  · exact k0 ⟨n.val, c0⟩
  by_cases c1 : n.val < 2048
  · have e : (⟨1024 + (n.val - 1024), by omega⟩ : Fin 4096) = n := Fin.ext (by simp only []; omega)
    exact e ▸ k1 ⟨n.val - 1024, by omega⟩
  by_cases c2 : n.val < 3072
  · have e : (⟨2048 + (n.val - 2048), by omega⟩ : Fin 4096) = n := Fin.ext (by simp only []; omega)
    exact e ▸ k2 ⟨n.val - 2048, by omega⟩
  · have e : (⟨3072 + (n.val - 3072), by omega⟩ : Fin 4096) = n := Fin.ext (by simp only []; omega)
    exact e ▸ k3 ⟨n.val - 3072, by omega⟩

/-- A maximum over 4096 is the fold, from −∞, of the maxima of its four runs of 1024: both sides have the same
upper bounds. -/
theorem rowMax_four' (g : Fin 4096 → EReal) :
    rowMax g = max (max (max (max ⊥ (rowMax fun n : Fin 1024 => g ⟨n.val, by omega⟩))
      (rowMax fun n : Fin 1024 => g ⟨1024 + n.val, by omega⟩))
      (rowMax fun n : Fin 1024 => g ⟨2048 + n.val, by omega⟩))
      (rowMax fun n : Fin 1024 => g ⟨3072 + n.val, by omega⟩) := by
  refine eq_of_forall_ge_iff fun c => ?_
  rw [max_le_iff, max_le_iff, max_le_iff, max_le_iff, rowMax_le_iff, rowMax_le_iff, rowMax_le_iff, rowMax_le_iff,
    rowMax_le_iff]
  constructor
  · intro h
    exact ⟨⟨⟨⟨bot_le, fun n => h _⟩, fun n => h _⟩, fun n => h _⟩, fun n => h _⟩
  · rintro ⟨⟨⟨⟨_, k0⟩, k1⟩, k2⟩, k3⟩
    exact forall_four (fun n => g n ≤ c) k0 k1 k2 k3

end Cert.Spec

end
-- ==== Proof.KI.Arr1.lean ====
import proofs.«127374_j73383811219637_1_alg».proof.Proof.KI.SpecAt
import proofs.«127374_j73383811219637_1_alg».proof.Proof.SpecMax
import Idealize.ShloMosaic.Lib.Pipeline.Value
import Idealize.ShloMosaic.Lib.StableHlo.Run

/-! # After call 1 and the last reshape the result is the specification's

At the ideal values. Call 1 runs on the grid 32 × 4, batch-major: point t works on tile t % 4 (1024 positions) of
batch t / 4. Its input blocks are read off the arrays it is entered from: h3 and gmax as call 0 left them, the mask
and the second layer's weights as launched, the three columns as the host reshaped them. One tile's step folds into
the accumulator the maximum of h7 over the tile's positions; from −∞ at a batch's first tile, after the fourth the
accumulator holds the fold of the four tiles' maxima, which is the maximum over all 4096 positions: the
specification's result row. Only a batch's last tile writes back, and it writes the batch's row of the output, so
the output array is the specification's result row by row; the last host operation drops its unit axis.

What a step, the initial accumulator and the stored row are entry by entry, and what call 0 left in its two arrays,
enter as hypotheses. -/

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Frm

variable (m : (ℓ : Loc nD τ sig) → Buf (Elt Ideal) ℓ) (c : Dev nD)

/-! ## Call 1's index maps

Decided over the 128 points of the grid 32 × 4 (batch-major): the batch of point t is t / 4, its tile t % 4; the
weights' windows stay at block 0. -/

theorem idx1_w0 : ∀ t : Fin cfg1.N,
    win1_0.index t (0 : Fin 3) = t.val / 4 ∧ win1_0.index t (1 : Fin 3) = 0 ∧ win1_0.index t (2 : Fin 3) = t.val % 4 :=
  (by decide +kernel : ∀ t : Fin grid1.N, _)
theorem idx1_w1 : ∀ t : Fin cfg1.N,
    win1_1.index t (0 : Fin 3) = t.val / 4 ∧ win1_1.index t (1 : Fin 3) = 0 ∧ win1_1.index t (2 : Fin 3) = 0 :=
  (by decide +kernel : ∀ t : Fin grid1.N, _)
theorem idx1_w2 : ∀ t : Fin cfg1.N,
    win1_2.index t (0 : Fin 3) = t.val / 4 ∧ win1_2.index t (1 : Fin 3) = 0 ∧ win1_2.index t (2 : Fin 3) = t.val % 4 :=
  (by decide +kernel : ∀ t : Fin grid1.N, _)
theorem idx1_w3 : ∀ t : Fin cfg1.N, win1_3.index t (0 : Fin 2) = 0 ∧ win1_3.index t (1 : Fin 2) = 0 :=
  (by decide +kernel : ∀ t : Fin grid1.N, _)
theorem idx1_w4 : ∀ t : Fin cfg1.N, win1_4.index t (0 : Fin 2) = 0 ∧ win1_4.index t (1 : Fin 2) = 0 :=
  (by decide +kernel : ∀ t : Fin grid1.N, _)
theorem idx1_w5 : ∀ t : Fin cfg1.N, win1_5.index t (0 : Fin 2) = 0 ∧ win1_5.index t (1 : Fin 2) = 0 :=
  (by decide +kernel : ∀ t : Fin grid1.N, _)
theorem idx1_w6 : ∀ t : Fin cfg1.N, win1_6.index t (0 : Fin 2) = 0 ∧ win1_6.index t (1 : Fin 2) = 0 :=
  (by decide +kernel : ∀ t : Fin grid1.N, _)
theorem idx1_w7 : ∀ t : Fin cfg1.N, win1_7.index t (0 : Fin 2) = 0 ∧ win1_7.index t (1 : Fin 2) = 0 :=
  (by decide +kernel : ∀ t : Fin grid1.N, _)
theorem idx1_w8 : ∀ t : Fin cfg1.N,
    win1_8.index t (0 : Fin 3) = t.val / 4 ∧ win1_8.index t (1 : Fin 3) = 0 ∧ win1_8.index t (2 : Fin 3) = 0 :=
  (by decide +kernel : ∀ t : Fin grid1.N, _)

/-! ## The arrays call 1 is entered from

Call 0 writes only h3 and gmax; the mask it only reads, and the second layer's weights it does not touch. The
seven host operations before it write the transposed points and six columns: g2, be2 and b4 reach call 1 as
512 × 1, 512 × 1 and 1024 × 1 columns, entry (p, 0) of a column being entry p of its vector. -/

theorem W2_arg1 : W2 m c (Proc.devRef .tc main_arg1) = maskA m c :=
  (W2_in m c 1 rfl).trans (StableHlo.after_of_writes_sub hostOps0 _ hostOps0_writes (by decide))
theorem W2_arg7 : W2 m c (Proc.devRef .tc main_arg7) = w3A m c :=
  (W2_of_ne m c main_arg7 (by decide)).trans (StableHlo.after_of_writes_sub hostOps0 _ hostOps0_writes (by decide))
theorem W2_arg10 : W2 m c (Proc.devRef .tc main_arg10) = w4A m c :=
  (W2_of_ne m c main_arg10 (by decide)).trans (StableHlo.after_of_writes_sub hostOps0 _ hostOps0_writes (by decide))

theorem W2_v4 : (W2 m c (Proc.devRef .tc main_v4) : Vec Ideal S512x1 .f32) = shapeCast S512x1 (g2A m c) shapeCasts_S512_S512x1 := by
  refine (W2_of_ne m c main_v4 (by decide)).trans ?_
  show StableHlo.after hostOps0 (W0 m c) (Proc.devRef .tc main_v4) = _
  after_results; rfl
theorem W2_v5 : (W2 m c (Proc.devRef .tc main_v5) : Vec Ideal S512x1 .f32) = shapeCast S512x1 (be2A m c) shapeCasts_S512_S512x1 := by
  refine (W2_of_ne m c main_v5 (by decide)).trans ?_
  show StableHlo.after hostOps0 (W0 m c) (Proc.devRef .tc main_v5) = _
  after_results; rfl
theorem W2_v6 : (W2 m c (Proc.devRef .tc main_v6) : Vec Ideal S1024x1 .f32) = shapeCast S1024x1 (b4A m c) shapeCasts_S1024_S1024x1 := by
  refine (W2_of_ne m c main_v6 (by decide)).trans ?_
  show StableHlo.after hostOps0 (W0 m c) (Proc.devRef .tc main_v6) = _
  after_results; rfl

/-- Entry (p, 0) of a vector reshaped to a column is entry p of the vector: the same row-major position. -/
theorem col512_apply (x : Vec Ideal S512 .f32) (p : Fin 512) :
    shapeCast S512x1 x shapeCasts_S512_S512x1 (ix2 p 0) = x (ix1 p) :=
  shapeCast_apply x shapeCasts_S512_S512x1 (ix2 p 0) (ix1 p)
    (by rw [Shape.rowMajor_val_one, Shape.rowMajor_val_two]; show p.val = p.val * 1 + 0; omega)
theorem col1024_apply (x : Vec Ideal S1024 .f32) (p : Fin 1024) :
    shapeCast S1024x1 x shapeCasts_S1024_S1024x1 (ix2 p 0) = x (ix1 p) :=
  shapeCast_apply x shapeCasts_S1024_S1024x1 (ix2 p 0) (ix1 p)
    (by rw [Shape.rowMajor_val_one, Shape.rowMajor_val_two]; show p.val = p.val * 1 + 0; omega)

/-! ## Call 1's input blocks at a point, entry by entry

A block's entry sits in its array, on each axis, at block index × block size + the entry's own coordinate. At
point t, of batch b = t / 4 and tile t % 4: the h3 tile is positions 1024 · (t % 4) + n of batch b's h3, the
gmax block is batch b's gmax, the mask tile the same positions of batch b's mask; the weights' blocks are the
whole arrays. -/

theorem blk1_0 (t : Fin cfg1.N) (b : Fin 32) (hb : b.val = t.val / 4) (o : Fin 256) (n : Fin 1024) (p : Fin 4096)
    (hp : p.val = 1024 * (t.val % 4) + n.val) :
    (iblk1 (V2 m) c 0 t : Vec Ideal S1x256x1024 .f32) (ix3 0 o n) = h3A m c (ix3 b o p) := by
  obtain ⟨e0, e1, e2⟩ := idx1_w0 t
  unfold iblk1
  rw [View.read_apply]
  show W2 m c (Proc.devRef .tc main_v7_0) _ = W2 m c (Proc.devRef .tc main_v7_0) _
  congr 1
  funext a
  apply Fin.ext
  match a with
  | ⟨0, _⟩ => show win1_0.index t (0 : Fin 3) * 1 + 1 * 0 = b.val; omega
  | ⟨1, _⟩ => show win1_0.index t (1 : Fin 3) * 256 + 1 * o.val = o.val; omega
  | ⟨2, _⟩ => show win1_0.index t (2 : Fin 3) * 1024 + 1 * n.val = p.val; omega

theorem blk1_1 (t : Fin cfg1.N) (b : Fin 32) (hb : b.val = t.val / 4) (o : Fin 256) :
    (iblk1 (V2 m) c 1 t : Vec Ideal S1x256x1 .f32) (ix3 0 o 0) = gmA m c (ix3 b o 0) := by
  obtain ⟨e0, e1, e2⟩ := idx1_w1 t
  unfold iblk1
  rw [View.read_apply]
  show W2 m c (Proc.devRef .tc main_v7_1) _ = W2 m c (Proc.devRef .tc main_v7_1) _
  congr 1
  funext a
  apply Fin.ext
  match a with
  | ⟨0, _⟩ => show win1_1.index t (0 : Fin 3) * 1 + 1 * 0 = b.val; omega
  | ⟨1, _⟩ => show win1_1.index t (1 : Fin 3) * 256 + 1 * o.val = o.val; omega
  | ⟨2, _⟩ => show win1_1.index t (2 : Fin 3) * 1 + 1 * 0 = 0; omega

theorem blk1_2 (t : Fin cfg1.N) (b : Fin 32) (hb : b.val = t.val / 4) (n : Fin 1024) (p : Fin 4096)
    (hp : p.val = 1024 * (t.val % 4) + n.val) :
    (iblk1 (V2 m) c 2 t : Vec Ideal S1x1x1024 .i32) (ix3 0 0 n) = maskA m c (ix3 b 0 p) := by
  obtain ⟨e0, e1, e2⟩ := idx1_w2 t
  unfold iblk1
  rw [View.read_apply]
  show W2 m c (Proc.devRef .tc main_arg1) _ = maskA m c _
  rw [W2_arg1 m c]
  congr 1
  funext a
  apply Fin.ext
  match a with
  | ⟨0, _⟩ => show win1_2.index t (0 : Fin 3) * 1 + 1 * 0 = b.val; omega
  | ⟨1, _⟩ => show win1_2.index t (1 : Fin 3) * 1 + 1 * 0 = 0; omega
  | ⟨2, _⟩ => show win1_2.index t (2 : Fin 3) * 1024 + 1 * n.val = p.val; omega

theorem blk1_3 (t : Fin cfg1.N) (p q : Fin 512) :
    (iblk1 (V2 m) c 3 t : Vec Ideal S512x512 .f32) (ix2 p q) = w3A m c (ix2 p q) := by
  obtain ⟨e0, e1⟩ := idx1_w3 t
  unfold iblk1
  rw [View.read_apply]
  show W2 m c (Proc.devRef .tc main_arg7) _ = w3A m c _
  rw [W2_arg7 m c]
  congr 1
  funext a
  apply Fin.ext
  match a with
  | ⟨0, _⟩ => show win1_3.index t (0 : Fin 2) * 512 + 1 * p.val = p.val; omega
  | ⟨1, _⟩ => show win1_3.index t (1 : Fin 2) * 512 + 1 * q.val = q.val; omega

theorem blk1_4 (t : Fin cfg1.N) (p : Fin 512) :
    (iblk1 (V2 m) c 4 t : Vec Ideal S512x1 .f32) (ix2 p 0) = g2A m c (ix1 p) := by
  obtain ⟨e0, e1⟩ := idx1_w4 t
  unfold iblk1
  rw [View.read_apply]
  show (W2 m c (Proc.devRef .tc main_v4) : Vec Ideal S512x1 .f32) _ = g2A m c _
  rw [W2_v4 m c]
  refine Eq.trans (congrArg _ (funext fun a => Fin.ext ?_)) (col512_apply (g2A m c) p)
  match a with
  | ⟨0, _⟩ => show win1_4.index t (0 : Fin 2) * 512 + 1 * p.val = p.val; omega
  | ⟨1, _⟩ => show win1_4.index t (1 : Fin 2) * 1 + 1 * 0 = 0; omega

theorem blk1_5 (t : Fin cfg1.N) (p : Fin 512) :
    (iblk1 (V2 m) c 5 t : Vec Ideal S512x1 .f32) (ix2 p 0) = be2A m c (ix1 p) := by
  obtain ⟨e0, e1⟩ := idx1_w5 t
  unfold iblk1
  rw [View.read_apply]
  show (W2 m c (Proc.devRef .tc main_v5) : Vec Ideal S512x1 .f32) _ = be2A m c _
  rw [W2_v5 m c]
  refine Eq.trans (congrArg _ (funext fun a => Fin.ext ?_)) (col512_apply (be2A m c) p)
  match a with
  | ⟨0, _⟩ => show win1_5.index t (0 : Fin 2) * 512 + 1 * p.val = p.val; omega
  | ⟨1, _⟩ => show win1_5.index t (1 : Fin 2) * 1 + 1 * 0 = 0; omega

theorem blk1_6 (t : Fin cfg1.N) (f : Fin 1024) (p : Fin 512) :
    (iblk1 (V2 m) c 6 t : Vec Ideal S1024x512 .f32) (ix2 f p) = w4A m c (ix2 f p) := by
  obtain ⟨e0, e1⟩ := idx1_w6 t
  unfold iblk1
  rw [View.read_apply]
  show W2 m c (Proc.devRef .tc main_arg10) _ = w4A m c _
  rw [W2_arg10 m c]
  congr 1
  funext a
  apply Fin.ext
  match a with
  | ⟨0, _⟩ => show win1_6.index t (0 : Fin 2) * 1024 + 1 * f.val = f.val; omega
  | ⟨1, _⟩ => show win1_6.index t (1 : Fin 2) * 512 + 1 * p.val = p.val; omega

theorem blk1_7 (t : Fin cfg1.N) (f : Fin 1024) :
    (iblk1 (V2 m) c 7 t : Vec Ideal S1024x1 .f32) (ix2 f 0) = b4A m c (ix1 f) := by
  obtain ⟨e0, e1⟩ := idx1_w7 t
  unfold iblk1
  rw [View.read_apply]
  show (W2 m c (Proc.devRef .tc main_v6) : Vec Ideal S1024x1 .f32) _ = b4A m c _
  rw [W2_v6 m c]
  refine Eq.trans (congrArg _ (funext fun a => Fin.ext ?_)) (col1024_apply (b4A m c) f)
  match a with
  | ⟨0, _⟩ => show win1_7.index t (0 : Fin 2) * 1024 + 1 * f.val = f.val; omega
  | ⟨1, _⟩ => show win1_7.index t (1 : Fin 2) * 1 + 1 * 0 = 0; omega

/-! ## One tile's step on the specification -/

/-- h7 of position p of batch element b, channel f, on the specification's own h3 and gmax. -/
def ptH7 (b : Fin 32) (f : Fin 1024) (p : Fin 4096) : EReal :=
  Cert.Spec.h7 (sw3 m c) (sg2 m c) (sbe2 m c) (sw4 m c) (sb4 m c) (specGm m c b) (specH3 m c b p) (sM m c b p) f

theorem specRow_eq_rowMax (b : Fin 32) (f : Fin 1024) : specRow m c b f = Cert.Spec.rowMax (ptH7 m c b f) := rfl

/-- h7 depends on its arguments only. -/
theorem h7_congr {w3 w3' : Fin 512 → Fin 512 → EReal} {g2 g2' be2 be2' : Fin 512 → EReal} {w4 w4' : Fin 1024 → Fin 512 → EReal}
    {b4 b4' : Fin 1024 → EReal} {gm gm' row row' : Fin 256 → EReal} {mw mw' : BitVec 32} (f : Fin 1024)
    (h1 : w3 = w3') (h2 : g2 = g2') (h3 : be2 = be2') (h4 : w4 = w4') (h5 : b4 = b4') (h6 : gm = gm') (h7 : row = row')
    (h8 : mw = mw') :
    Cert.Spec.h7 w3 g2 be2 w4 b4 gm row mw f = Cert.Spec.h7 w3' g2' be2' w4' b4' gm' row' mw' f := by
  subst h1 h2 h3 h4 h5 h6 h7 h8; rfl

variable (hStep : ∀ (x0 : Vec Ideal S1x256x1024 .f32) (x1 : Vec Ideal S1x256x1 .f32) (x2 : Vec Ideal S1x1x1024 .i32) (x3 : Vec Ideal S512x512 .f32) (x4 x5 : Vec Ideal S512x1 .f32) (x6 : Vec Ideal S1024x512 .f32) (x7 : Vec Ideal S1024x1 .f32) (acc : Vec Ideal S1024x1 .f32) (f : Fin 1024),
      accStep x0 x1 x2 x3 x4 x5 x6 x7 acc (ix2 f 0) = max (acc (ix2 f 0)) (Cert.Spec.rowMax fun n : Fin 1024 => Cert.Spec.h7 (fun p q => x3 (ix2 p q)) (fun p => x4 (ix2 p 0)) (fun p => x5 (ix2 p 0)) (fun f p => x6 (ix2 f p)) (fun f => x7 (ix2 f 0)) (fun o => x1 (ix3 0 o 0)) (fun o => x0 (ix3 0 o n)) (x2 (ix3 0 0 n)) f))
variable (hInit : ∀ f : Fin 1024, accInit (F := Ideal) (ix2 f 0) = ⊥)
variable (hOut : ∀ (acc : Vec Ideal S1024x1 .f32) (f : Fin 1024), outblk acc (ix3 0 0 f) = acc (ix2 f 0))
variable (hH3A : ∀ (b : Fin 32) (o : Fin 256) (n : Fin 4096), h3A m c (ix3 b o n) = specH3 m c b n o)
variable (hGmA : ∀ (b : Fin 32) (o : Fin 256), gmA m c (ix3 b o 0) = specGm m c b o)

include hStep hInit hOut hH3A hGmA

/-- At point t (batch b = t / 4, tile t % 4) the step folds into the accumulator the maximum, over the tile's 1024
    positions idx n = 1024 · (t % 4) + n, of the specification's h7 of batch b. -/
theorem step_spec (t : Fin cfg1.N) (b : Fin 32) (hb : b.val = t.val / 4) (idx : Fin 1024 → Fin 4096)
    (hidx : ∀ n, (idx n).val = 1024 * (t.val % 4) + n.val) (acc : Vec Ideal S1024x1 .f32) (f : Fin 1024) :
    accStepAt (V2 m) c t acc (ix2 f 0) = max (acc (ix2 f 0)) (Cert.Spec.rowMax fun n => ptH7 m c b f (idx n)) := by
  unfold accStepAt
  refine (hStep (iblk1 (V2 m) c 0 t) (iblk1 (V2 m) c 1 t) (iblk1 (V2 m) c 2 t) (iblk1 (V2 m) c 3 t) (iblk1 (V2 m) c 4 t)
    (iblk1 (V2 m) c 5 t) (iblk1 (V2 m) c 6 t) (iblk1 (V2 m) c 7 t) acc f).trans ?_
  refine congrArg (max (acc (ix2 f 0))) (congrArg Cert.Spec.rowMax (funext fun n => ?_))
  unfold ptH7
  exact h7_congr f (funext fun p => funext fun q => blk1_3 m c t p q) (funext fun p => blk1_4 m c t p)
    (funext fun p => blk1_5 m c t p) (funext fun g => funext fun p => blk1_6 m c t g p) (funext fun g => blk1_7 m c t g)
    (funext fun o => (blk1_1 m c t b hb o).trans (hGmA b o))
    (funext fun o => (blk1_0 m c t b hb o n (idx n) (hidx n)).trans (hH3A b o (idx n)))
    (blk1_2 m c t b hb n (idx n) (hidx n))

/-! ## The accumulator after a batch's four tiles -/

omit hStep hInit hOut hH3A hGmA in
theorem accAt_congr (n n' : ℕ) (h : n = n') (hn : n < cfg1.N) (hn' : n' < cfg1.N) :
    accAt (V2 m) c n hn = accAt (V2 m) c n' hn' := by subst h; rfl

omit hStep hInit hOut hH3A hGmA in
/-- A tile that is not a batch's first steps from what the point before left. -/
theorem accAt_succ' (n : ℕ) (hn : n + 1 < cfg1.N) (hmod : ¬ (n + 1) % 4 = 0) :
    accAt (V2 m) c (n + 1) hn = accStepAt (V2 m) c ⟨n + 1, hn⟩ (accAt (V2 m) c n (Nat.lt_of_succ_lt hn)) :=
  (accAt_next (V2 m) c ⟨n + 1, hn⟩ hmod).trans
    (congrArg (accStepAt (V2 m) c ⟨n + 1, hn⟩) (accAt_congr m c _ _ (Nat.add_sub_cancel n 1) _ _))

/-- After batch b's last tile the accumulator's entry f is the specification's result: the fold from −∞ of the
    four tiles' maxima is the maximum over all 4096 positions. -/
theorem acc_last (b : Fin 32) (f : Fin 1024) (h3 : 4 * b.val + 3 < cfg1.N) :
    accAt (V2 m) c (4 * b.val + 3) h3 (ix2 f 0) = specRow m c b f := by
  have hN : cfg1.N = 128 := N_1
  have hb := b.isLt
  have h0 : 4 * b.val < cfg1.N := by omega
  have h1 : 4 * b.val + 1 < cfg1.N := by omega
  have h2 : 4 * b.val + 1 + 1 < cfg1.N := by omega
  have h3' : 4 * b.val + 1 + 1 + 1 < cfg1.N := by omega
  have a0 : accAt (V2 m) c (4 * b.val) h0 (ix2 f 0)
      = max ⊥ (Cert.Spec.rowMax fun n : Fin 1024 => ptH7 m c b f ⟨n.val, by omega⟩) := by
    refine (congrFun (accAt_first (V2 m) c ⟨4 * b.val, h0⟩ (by show 4 * b.val % 4 = 0; omega)) (ix2 f 0)).trans ?_
    refine (step_spec m c hStep hInit hOut hH3A hGmA ⟨4 * b.val, h0⟩ b (by show b.val = 4 * b.val / 4; omega)
      (fun n => ⟨n.val, by omega⟩) (fun n => by show n.val = 1024 * (4 * b.val % 4) + n.val; omega) accInit f).trans ?_
    rw [hInit f]
  have a1 : accAt (V2 m) c (4 * b.val + 1) h1 (ix2 f 0)
      = max (max ⊥ (Cert.Spec.rowMax fun n : Fin 1024 => ptH7 m c b f ⟨n.val, by omega⟩))
          (Cert.Spec.rowMax fun n : Fin 1024 => ptH7 m c b f ⟨1024 + n.val, by omega⟩) := by
    refine (congrFun (accAt_succ' m c (4 * b.val) h1 (by omega)) (ix2 f 0)).trans ?_
    refine (step_spec m c hStep hInit hOut hH3A hGmA ⟨4 * b.val + 1, h1⟩ b (by show b.val = (4 * b.val + 1) / 4; omega)
      (fun n => ⟨1024 + n.val, by omega⟩) (fun n => by show 1024 + n.val = 1024 * ((4 * b.val + 1) % 4) + n.val; omega) _ f).trans ?_
    rw [a0]
  have a2 : accAt (V2 m) c (4 * b.val + 1 + 1) h2 (ix2 f 0)
      = max (max (max ⊥ (Cert.Spec.rowMax fun n : Fin 1024 => ptH7 m c b f ⟨n.val, by omega⟩))
          (Cert.Spec.rowMax fun n : Fin 1024 => ptH7 m c b f ⟨1024 + n.val, by omega⟩))
          (Cert.Spec.rowMax fun n : Fin 1024 => ptH7 m c b f ⟨2048 + n.val, by omega⟩) := by
    refine (congrFun (accAt_succ' m c (4 * b.val + 1) h2 (by omega)) (ix2 f 0)).trans ?_
    refine (step_spec m c hStep hInit hOut hH3A hGmA ⟨4 * b.val + 1 + 1, h2⟩ b (by show b.val = (4 * b.val + 1 + 1) / 4; omega)
      (fun n => ⟨2048 + n.val, by omega⟩) (fun n => by show 2048 + n.val = 1024 * ((4 * b.val + 1 + 1) % 4) + n.val; omega) _ f).trans ?_
    rw [a1]
  have a3 : accAt (V2 m) c (4 * b.val + 1 + 1 + 1) h3' (ix2 f 0)
      = max (max (max (max ⊥ (Cert.Spec.rowMax fun n : Fin 1024 => ptH7 m c b f ⟨n.val, by omega⟩))
          (Cert.Spec.rowMax fun n : Fin 1024 => ptH7 m c b f ⟨1024 + n.val, by omega⟩))
          (Cert.Spec.rowMax fun n : Fin 1024 => ptH7 m c b f ⟨2048 + n.val, by omega⟩))
          (Cert.Spec.rowMax fun n : Fin 1024 => ptH7 m c b f ⟨3072 + n.val, by omega⟩) := by
    refine (congrFun (accAt_succ' m c (4 * b.val + 1 + 1) h3' (by omega)) (ix2 f 0)).trans ?_
    refine (step_spec m c hStep hInit hOut hH3A hGmA ⟨4 * b.val + 1 + 1 + 1, h3'⟩ b (by show b.val = (4 * b.val + 1 + 1 + 1) / 4; omega)
      (fun n => ⟨3072 + n.val, by omega⟩) (fun n => by show 3072 + n.val = 1024 * ((4 * b.val + 1 + 1 + 1) % 4) + n.val; omega) _ f).trans ?_
    rw [a2]
  refine (congrFun (accAt_congr m c (4 * b.val + 3) (4 * b.val + 1 + 1 + 1) (by omega) h3 h3') (ix2 f 0)).trans ?_
  rw [a3, specRow_eq_rowMax, Cert.Spec.rowMax_four' (ptH7 m c b f)]

/-! ## The output array after call 1 -/

omit hStep hInit hOut hH3A hGmA in
/-- The specification's result rows as one array of the output's shape. -/
def rowsG : Vec Ideal S32x1x1024 .f32 := fun i => specRow m c ⟨(i 0).val, (i 0).isLt⟩ ⟨(i 2).val, (i 2).isLt⟩

omit hStep hInit hOut hH3A hGmA in
theorem specRow_congr (b b' : Fin 32) (f f' : Fin 1024) (hb : b.val = b'.val) (hf : f.val = f'.val) :
    specRow m c b f = specRow m c b' f' := by
  obtain rfl : b = b' := Fin.ext hb
  obtain rfl : f = f' := Fin.ext hf
  rfl

omit hStep hInit hOut hH3A hGmA in
/-- An index of the output array is in point t's block iff each coordinate is in the block's range on its axis. -/
theorem mem_blk1_8 (t : Fin cfg1.N) (i : S32x1x1024.Idx) :
    i ∈ ((cfg1.win 8).blk t).view.set ↔ ∀ a : Fin 3, win1_8.index t a * S1x1x1024.size a ≤ (i a).val
      ∧ (i a).val < win1_8.index t a * S1x1x1024.size a + S1x1x1024.size a := by
  show i ∈ ((View.whole main_v8).slice (win1_8.rect t)).set ↔ _
  rw [View.set_slice_whole, Rect.mem_set_unit]
  exact Iff.rfl

/-- What a batch's last tile writes back is that batch's row of the specification's result. -/
theorem flushed1_8_eq (t : Fin cfg1.N) (hf : (cfg1.win 8).flush t = true) :
    (dat1 (V2 m) c).flushed 8 t = ((cfg1.win 8).blk t).view.read (Elt Ideal) (rowsG m c) := by
  have hN : cfg1.N = 128 := N_1
  have ht := t.isLt
  have h3 : t.val % 4 = 3 := (flush1_8 t).mp hf
  obtain ⟨e0, e1, e2⟩ := idx1_w8 t
  show (cfg1.win 8).cut (grid1.coords t) ((dat1 (V2 m) c).after 8 t) = _
  rw [after1_8]
  funext y
  rw [View.read_apply]
  have y0 : (y 0).val < 1 := (y 0).isLt
  have y1 : (y 1).val < 1 := (y 1).isLt
  have y2 : (y 2).val < 1024 := (y 2).isLt
  have hy : (cfg1.win 8).xinj (grid1.coords t) y = ix3 0 0 ⟨(y 2).val, y2⟩ := funext fun a => Fin.ext (by
    match a with
    | ⟨0, _⟩ => show (y 0).val = 0; omega
    | ⟨1, _⟩ => show (y 1).val = 0; omega
    | ⟨2, _⟩ => rfl)
  show outblk (accAt (V2 m) c t.val t.isLt) ((cfg1.win 8).xinj (grid1.coords t) y) = rowsG m c (((cfg1.win 8).blk t).view.emb y)
  rw [hy, hOut]
  have hb : t.val / 4 < 32 := by omega
  refine ((congrFun (accAt_congr m c t.val (4 * (t.val / 4) + 3) (by omega) t.isLt (by omega)) _).trans
    (acc_last m c hStep hInit hOut hH3A hGmA ⟨t.val / 4, hb⟩ ⟨(y 2).val, y2⟩ (by show 4 * (t.val / 4) + 3 < cfg1.N; omega))).trans ?_
  unfold rowsG
  refine specRow_congr m c _ _ _ _ ?_ ?_
  · show t.val / 4 = win1_8.index t (0 : Fin 3) * 1 + 1 * (y 0).val; omega
  · show (y 2).val = win1_8.index t (2 : Fin 3) * 1024 + 1 * (y 2).val; omega

omit hStep hInit hOut hH3A hGmA in
/-- Row b of the output array lies in the block of batch b's last tile, the point 4 b + 3. -/
theorem cover1_8 (i : S32x1x1024.Idx) :
    ∃ t : Fin cfg1.N, (cfg1.win 8).flush t = true ∧ i ∈ ((cfg1.win 8).blk t).view.set := by
  have hN : cfg1.N = 128 := N_1
  have i0 : (i 0).val < 32 := (i 0).isLt
  have i1 : (i 1).val < 1 := (i 1).isLt
  have i2 : (i 2).val < 1024 := (i 2).isLt
  have htN : 4 * (i 0).val + 3 < cfg1.N := by omega
  obtain ⟨e0, e1, e2⟩ := idx1_w8 ⟨4 * (i 0).val + 3, htN⟩
  have e0' : win1_8.index ⟨4 * (i 0).val + 3, htN⟩ (0 : Fin 3) = (4 * (i 0).val + 3) / 4 := e0
  refine ⟨⟨4 * (i 0).val + 3, htN⟩, (flush1_8 _).mpr (by show (4 * (i 0).val + 3) % 4 = 3; omega), ?_⟩
  rw [mem_blk1_8]
  intro a
  match a with
  | ⟨0, _⟩ =>
    show win1_8.index ⟨4 * (i 0).val + 3, htN⟩ (0 : Fin 3) * 1 ≤ (i 0).val
      ∧ (i 0).val < win1_8.index ⟨4 * (i 0).val + 3, htN⟩ (0 : Fin 3) * 1 + 1
    omega
  | ⟨1, _⟩ =>
    show win1_8.index ⟨4 * (i 0).val + 3, htN⟩ (1 : Fin 3) * 1 ≤ (i 1).val
      ∧ (i 1).val < win1_8.index ⟨4 * (i 0).val + 3, htN⟩ (1 : Fin 3) * 1 + 1
    omega
  | ⟨2, _⟩ =>
    show win1_8.index ⟨4 * (i 0).val + 3, htN⟩ (2 : Fin 3) * 1024 ≤ (i 2).val
      ∧ (i 2).val < win1_8.index ⟨4 * (i 0).val + 3, htN⟩ (2 : Fin 3) * 1024 + 1024
    omega

/-- THE OUTPUT ARRAY after call 1 is the specification's result, row by row. -/
theorem o8A_eq : o8A m c = rowsG m c :=
  (W3_arr m c 8).trans ((dat1 (V2 m) c).arrAt_eq_of_cover 8 (rowsG m c)
    (fun t hf => flushed1_8_eq m c hStep hInit hOut hH3A hGmA t hf) cover1_8)

theorem o8A_apply (b : Fin 32) (f : Fin 1024) : o8A m c (ix3 b 0 f) = specRow m c b f :=
  congrFun (o8A_eq m c hStep hInit hOut hH3A hGmA) (ix3 b 0 f)

/-! ## The result at the return: the output array with its unit axis dropped -/

omit hStep hInit hOut hH3A hGmA in
theorem outA_eq : outA m c = shapeCast S32x1024 (o8A m c) shapeCasts_S32x1x1024_S32x1024 := by
  show StableHlo.after hostOps2 (W3 m c) (Proc.devRef .tc main_v9) = _
  after_results; rfl

theorem outA_apply (b : Fin 32) (f : Fin 1024) : outA m c (ix2 b f) = specRow m c b f :=
  ((congrFun (outA_eq m c) (ix2 b f)).trans
    (shapeCast_apply (o8A m c) shapeCasts_S32x1x1024_S32x1024 (ix2 b f) (ix3 b 0 f)
      (by rw [Shape.rowMajor_val_three, Shape.rowMajor_val_two]
          show (b.val * 1 + 0) * 1024 + f.val = b.val * 1024 + f.val; omega))).trans
    (o8A_apply m c hStep hInit hOut hH3A hGmA b f)

end Cert.KernelIdeal.Val

end
-- ==== Proof.RefRunH.lean ====
import proofs.«127374_j73383811219637_1_alg».proof.Proof.RefOps
import proofs.«127374_j73383811219637_1_alg».proof.Proof.RefRead
import Idealize.ShloMosaic.Lib.StableHlo.Run

/-! # The reference's run, stated over the stages

The reference is a straight line of 91 host operations. Its run leaves every buffer at the fold of the operations'
results over the launch contents. The fold over a concatenation of two lists is the fold over the second from the
fold over the first, so the line is cut just before its one concatenation of two computed operands (the broadcast
row maxima and h3): the first 49 operations leave h3, the broadcast maxima, the mask factor and the untouched
weights at their stages, and the last 42, from ANY contents with those buffers at those stages, leave the result at
its stage. No operation writes an argument. -/

noncomputable section

namespace Cert.ReferenceIdeal.RunH

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The fold over two lines run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The first 49 operations: up to and including the broadcast of the row maxima. -/
abbrev opsA : List (HloOp τ sig (Elt F)) :=
  [ reshape main_arg1 main_v0 rfl shapeCasts_S32x1x4096_S32x4096,
    nullary main_c (constantI S_ 32 0#32),
    unary main_c main_v1 (broadcastInDim S32x4096 ![] bcast_S_S32x4096 : (⟨S_, .i32⟩ : BufTy).Contents (Elt F) → (⟨S32x4096, .i32⟩ : BufTy).Contents (Elt F)),
    binary main_v0 main_v1 main_v2 (cmpi .ne : (⟨S32x4096, .i32⟩ : BufTy).Contents (Elt F) → (⟨S32x4096, .i32⟩ : BufTy).Contents (Elt F) → (⟨S32x4096, .i1⟩ : BufTy).Contents (Elt F)),
    unary main_v2 main_v3 (uitofp .f32 : (⟨S32x4096, .i1⟩ : BufTy).Contents (Elt F) → (⟨S32x4096, .f32⟩ : BufTy).Contents (Elt F)),
    unary main_v3 main_v4 (broadcastInDim S32x4096x1 ![0, 1] bcast_S32x4096_S32x4096x1_0_1 : (⟨S32x4096, .f32⟩ : BufTy).Contents (Elt F) → (⟨S32x4096x1, .f32⟩ : BufTy).Contents (Elt F)),
    binary main_arg0 main_arg2 main_v5 ((fun l r => Host.dotGeneral dot_S32x4096x3_S128x3_S32x4096x128_2_1_01_0_n_n none l r) : (⟨S32x4096x3, .f32⟩ : BufTy).Contents (Elt F) → (⟨S128x3, .f32⟩ : BufTy).Contents (Elt F) → (⟨S32x4096x128, .f32⟩ : BufTy).Contents (Elt F)),
    nullary main_cst (constant S_ .f32 0x00000000#32),
    binary main_v5 main_cst main_v6 ((fun x v => Host.reduceAdd x v reducesTo_S32x4096x128_S32x4096_d2 h_S_) : (⟨S32x4096x128, .f32⟩ : BufTy).Contents (Elt F) → (⟨S_, .f32⟩ : BufTy).Contents (Elt F) → (⟨S32x4096, .f32⟩ : BufTy).Contents (Elt F)),
    unary main_v6 main_v7 (broadcastInDim S32x4096x1 ![0, 1] bcast_S32x4096_S32x4096x1_0_1 : (⟨S32x4096, .f32⟩ : BufTy).Contents (Elt F) → (⟨S32x4096x1, .f32⟩ : BufTy).Contents (Elt F)),
    nullary main_cst_0 (constant S_ .f32 0x43000000#32),
    unary main_cst_0 main_v8 (broadcastInDim S32x4096x1 ![] bcast_S_S32x4096x1 : (⟨S_, .f32⟩ : BufTy).Contents (Elt F) → (⟨S32x4096x1, .f32⟩ : BufTy).Contents (Elt F)),
    binary main_v7 main_v8 main_v9 (Host.divf : (⟨S32x4096x1, .f32⟩ : BufTy).Contents (Elt F) → (⟨S32x4096x1, .f32⟩ : BufTy).Contents (Elt F) → (⟨S32x4096x1, .f32⟩ : BufTy).Contents (Elt F)),
    unary main_v9 main_v10 (broadcastInDim S32x4096x128 ![0, 1, 2] bcast_S32x4096x1_S32x4096x128_0_1_2 : (⟨S32x4096x1, .f32⟩ : BufTy).Contents (Elt F) → (⟨S32x4096x128, .f32⟩ : BufTy).Contents (Elt F)),
    binary main_v5 main_v10 main_v11 (subf : (⟨S32x4096x128, .f32⟩ : BufTy).Contents (Elt F) → (⟨S32x4096x128, .f32⟩ : BufTy).Contents (Elt F) → (⟨S32x4096x128, .f32⟩ : BufTy).Contents (Elt F)),
    binary main_v11 main_v11 main_v12 (mulf : (⟨S32x4096x128, .f32⟩ : BufTy).Contents (Elt F) → (⟨S32x4096x128, .f32⟩ : BufTy).Contents (Elt F) → (⟨S32x4096x128, .f32⟩ : BufTy).Contents (Elt F)),
    nullary main_cst_1 (constant S_ .f32 0x00000000#32),
    binary main_v12 main_cst_1 main_v13 ((fun x v => Host.reduceAdd x v reducesTo_S32x4096x128_S32x4096_d2 h_S_) : (⟨S32x4096x128, .f32⟩ : BufTy).Contents (Elt F) → (⟨S_, .f32⟩ : BufTy).Contents (Elt F) → (⟨S32x4096, .f32⟩ : BufTy).Contents (Elt F)),
    unary main_v13 main_v14 (broadcastInDim S32x4096x1 ![0, 1] bcast_S32x4096_S32x4096x1_0_1 : (⟨S32x4096, .f32⟩ : BufTy).Contents (Elt F) → (⟨S32x4096x1, .f32⟩ : BufTy).Contents (Elt F)),
    nullary main_cst_2 (constant S_ .f32 0x43000000#32),
    unary main_cst_2 main_v15 (broadcastInDim S32x4096x1 ![] bcast_S_S32x4096x1 : (⟨S_, .f32⟩ : BufTy).Contents (Elt F) → (⟨S32x4096x1, .f32⟩ : BufTy).Contents (Elt F)),
    binary main_v14 main_v15 main_v16 (Host.divf : (⟨S32x4096x1, .f32⟩ : BufTy).Contents (Elt F) → (⟨S32x4096x1, .f32⟩ : BufTy).Contents (Elt F) → (⟨S32x4096x1, .f32⟩ : BufTy).Contents (Elt F)),
    unary main_v9 main_v17 (broadcastInDim S32x4096x128 ![0, 1, 2] bcast_S32x4096x1_S32x4096x128_0_1_2 : (⟨S32x4096x1, .f32⟩ : BufTy).Contents (Elt F) → (⟨S32x4096x128, .f32⟩ : BufTy).Contents (Elt F)),
    binary main_v5 main_v17 main_v18 (subf : (⟨S32x4096x128, .f32⟩ : BufTy).Contents (Elt F) → (⟨S32x4096x128, .f32⟩ : BufTy).Contents (Elt F) → (⟨S32x4096x128, .f32⟩ : BufTy).Contents (Elt F)),
    nullary main_cst_3 (constant S_ .f32 0x3727C5AC#32),
    unary main_cst_3 main_v19 (broadcastInDim S32x4096x1 ![] bcast_S_S32x4096x1 : (⟨S_, .f32⟩ : BufTy).Contents (Elt F) → (⟨S32x4096x1, .f32⟩ : BufTy).Contents (Elt F)),
    binary main_v16 main_v19 main_v20 (addf : (⟨S32x4096x1, .f32⟩ : BufTy).Contents (Elt F) → (⟨S32x4096x1, .f32⟩ : BufTy).Contents (Elt F) → (⟨S32x4096x1, .f32⟩ : BufTy).Contents (Elt F)),
    unary main_v20 main_v21 (Host.rsqrt : (⟨S32x4096x1, .f32⟩ : BufTy).Contents (Elt F) → (⟨S32x4096x1, .f32⟩ : BufTy).Contents (Elt F)),
    unary main_v21 main_v22 (broadcastInDim S32x4096x128 ![0, 1, 2] bcast_S32x4096x1_S32x4096x128_0_1_2 : (⟨S32x4096x1, .f32⟩ : BufTy).Contents (Elt F) → (⟨S32x4096x128, .f32⟩ : BufTy).Contents (Elt F)),
    binary main_v18 main_v22 main_v23 (mulf : (⟨S32x4096x128, .f32⟩ : BufTy).Contents (Elt F) → (⟨S32x4096x128, .f32⟩ : BufTy).Contents (Elt F) → (⟨S32x4096x128, .f32⟩ : BufTy).Contents (Elt F)),
    unary main_arg3 main_v24 (broadcastInDim S1x1x128 ![2] bcast_S128_S1x1x128_2 : (⟨S128, .f32⟩ : BufTy).Contents (Elt F) → (⟨S1x1x128, .f32⟩ : BufTy).Contents (Elt F)),
    unary main_v24 main_v25 (broadcastInDim S32x4096x128 ![0, 1, 2] bcast_S1x1x128_S32x4096x128_0_1_2 : (⟨S1x1x128, .f32⟩ : BufTy).Contents (Elt F) → (⟨S32x4096x128, .f32⟩ : BufTy).Contents (Elt F)),
    binary main_v23 main_v25 main_v26 (mulf : (⟨S32x4096x128, .f32⟩ : BufTy).Contents (Elt F) → (⟨S32x4096x128, .f32⟩ : BufTy).Contents (Elt F) → (⟨S32x4096x128, .f32⟩ : BufTy).Contents (Elt F)),
    unary main_arg4 main_v27 (broadcastInDim S1x1x128 ![2] bcast_S128_S1x1x128_2 : (⟨S128, .f32⟩ : BufTy).Contents (Elt F) → (⟨S1x1x128, .f32⟩ : BufTy).Contents (Elt F)),
    unary main_v27 main_v28 (broadcastInDim S32x4096x128 ![0, 1, 2] bcast_S1x1x128_S32x4096x128_0_1_2 : (⟨S1x1x128, .f32⟩ : BufTy).Contents (Elt F) → (⟨S32x4096x128, .f32⟩ : BufTy).Contents (Elt F)),
    binary main_v26 main_v28 main_v29 (addf : (⟨S32x4096x128, .f32⟩ : BufTy).Contents (Elt F) → (⟨S32x4096x128, .f32⟩ : BufTy).Contents (Elt F) → (⟨S32x4096x128, .f32⟩ : BufTy).Contents (Elt F)),
    unary main_v4 main_v30 (broadcastInDim S32x4096x128 ![0, 1, 2] bcast_S32x4096x1_S32x4096x128_0_1_2 : (⟨S32x4096x1, .f32⟩ : BufTy).Contents (Elt F) → (⟨S32x4096x128, .f32⟩ : BufTy).Contents (Elt F)),
    binary main_v29 main_v30 main_v31 (mulf : (⟨S32x4096x128, .f32⟩ : BufTy).Contents (Elt F) → (⟨S32x4096x128, .f32⟩ : BufTy).Contents (Elt F) → (⟨S32x4096x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32x4096x128, .f32⟩) main_call0_v0) (broadcastInDim S32x4096x128 ![] bcast_S_S32x4096x128),
    TRef.binary (TRef.of (T := ⟨S32x4096x128, .f32⟩) main_v31) (TRef.of (T := ⟨S32x4096x128, .f32⟩) main_call0_v0) (TRef.of (T := ⟨S32x4096x128, .f32⟩) main_v32) maximumf,
    binary main_v32 main_arg5 main_v33 ((fun l r => Host.dotGeneral dot_S32x4096x128_S256x128_S32x4096x256_2_1_01_0_n_n none l r) : (⟨S32x4096x128, .f32⟩ : BufTy).Contents (Elt F) → (⟨S256x128, .f32⟩ : BufTy).Contents (Elt F) → (⟨S32x4096x256, .f32⟩ : BufTy).Contents (Elt F)),
    unary main_arg6 main_v34 (broadcastInDim S1x1x256 ![2] bcast_S256_S1x1x256_2 : (⟨S256, .f32⟩ : BufTy).Contents (Elt F) → (⟨S1x1x256, .f32⟩ : BufTy).Contents (Elt F)),
    unary main_v34 main_v35 (broadcastInDim S32x4096x256 ![0, 1, 2] bcast_S1x1x256_S32x4096x256_0_1_2 : (⟨S1x1x256, .f32⟩ : BufTy).Contents (Elt F) → (⟨S32x4096x256, .f32⟩ : BufTy).Contents (Elt F)),
    binary main_v33 main_v35 main_v36 (addf : (⟨S32x4096x256, .f32⟩ : BufTy).Contents (Elt F) → (⟨S32x4096x256, .f32⟩ : BufTy).Contents (Elt F) → (⟨S32x4096x256, .f32⟩ : BufTy).Contents (Elt F)),
    nullary main_cst_4 (constant S_ .f32 0xFF800000#32),
    binary main_v36 main_cst_4 main_v37 ((fun x v => Host.reduce FloatOps.maximumf x v reducesTo_S32x4096x256_S32x256_d1 h_S_) : (⟨S32x4096x256, .f32⟩ : BufTy).Contents (Elt F) → (⟨S_, .f32⟩ : BufTy).Contents (Elt F) → (⟨S32x256, .f32⟩ : BufTy).Contents (Elt F)),
    unary main_v37 main_v38 (broadcastInDim S32x1x256 ![0, 2] bcast_S32x256_S32x1x256_0_2 : (⟨S32x256, .f32⟩ : BufTy).Contents (Elt F) → (⟨S32x1x256, .f32⟩ : BufTy).Contents (Elt F)),
    unary main_v38 main_v39 (broadcastInDim S32x4096x256 ![0, 1, 2] bcast_S32x1x256_S32x4096x256_0_1_2 : (⟨S32x1x256, .f32⟩ : BufTy).Contents (Elt F) → (⟨S32x4096x256, .f32⟩ : BufTy).Contents (Elt F)) ]

/-- The last 42 operations: from the concatenation on. -/
abbrev opsB : List (HloOp τ sig (Elt F)) :=
  [ binary main_v39 main_v36 main_v40 ((fun a b => concatenate S32x4096x512 2 [⟨S32x4096x256, a⟩, ⟨S32x4096x256, b⟩] concatenates_S32x4096x256_S32x4096x256_S32x4096x512_d2) : (⟨S32x4096x256, .f32⟩ : BufTy).Contents (Elt F) → (⟨S32x4096x256, .f32⟩ : BufTy).Contents (Elt F) → (⟨S32x4096x512, .f32⟩ : BufTy).Contents (Elt F)),
    binary main_v40 main_arg7 main_v41 ((fun l r => Host.dotGeneral dot_S32x4096x512_S512x512_S32x4096x512_2_1_01_0_n_n none l r) : (⟨S32x4096x512, .f32⟩ : BufTy).Contents (Elt F) → (⟨S512x512, .f32⟩ : BufTy).Contents (Elt F) → (⟨S32x4096x512, .f32⟩ : BufTy).Contents (Elt F)),
    nullary main_cst_5 (constant S_ .f32 0x00000000#32),
    binary main_v41 main_cst_5 main_v42 ((fun x v => Host.reduceAdd x v reducesTo_S32x4096x512_S32x4096_d2 h_S_) : (⟨S32x4096x512, .f32⟩ : BufTy).Contents (Elt F) → (⟨S_, .f32⟩ : BufTy).Contents (Elt F) → (⟨S32x4096, .f32⟩ : BufTy).Contents (Elt F)),
    unary main_v42 main_v43 (broadcastInDim S32x4096x1 ![0, 1] bcast_S32x4096_S32x4096x1_0_1 : (⟨S32x4096, .f32⟩ : BufTy).Contents (Elt F) → (⟨S32x4096x1, .f32⟩ : BufTy).Contents (Elt F)),
    nullary main_cst_6 (constant S_ .f32 0x44000000#32),
    unary main_cst_6 main_v44 (broadcastInDim S32x4096x1 ![] bcast_S_S32x4096x1 : (⟨S_, .f32⟩ : BufTy).Contents (Elt F) → (⟨S32x4096x1, .f32⟩ : BufTy).Contents (Elt F)),
    binary main_v43 main_v44 main_v45 (Host.divf : (⟨S32x4096x1, .f32⟩ : BufTy).Contents (Elt F) → (⟨S32x4096x1, .f32⟩ : BufTy).Contents (Elt F) → (⟨S32x4096x1, .f32⟩ : BufTy).Contents (Elt F)),
    unary main_v45 main_v46 (broadcastInDim S32x4096x512 ![0, 1, 2] bcast_S32x4096x1_S32x4096x512_0_1_2 : (⟨S32x4096x1, .f32⟩ : BufTy).Contents (Elt F) → (⟨S32x4096x512, .f32⟩ : BufTy).Contents (Elt F)),
    binary main_v41 main_v46 main_v47 (subf : (⟨S32x4096x512, .f32⟩ : BufTy).Contents (Elt F) → (⟨S32x4096x512, .f32⟩ : BufTy).Contents (Elt F) → (⟨S32x4096x512, .f32⟩ : BufTy).Contents (Elt F)),
    binary main_v47 main_v47 main_v48 (mulf : (⟨S32x4096x512, .f32⟩ : BufTy).Contents (Elt F) → (⟨S32x4096x512, .f32⟩ : BufTy).Contents (Elt F) → (⟨S32x4096x512, .f32⟩ : BufTy).Contents (Elt F)),
    nullary main_cst_7 (constant S_ .f32 0x00000000#32),
    binary main_v48 main_cst_7 main_v49 ((fun x v => Host.reduceAdd x v reducesTo_S32x4096x512_S32x4096_d2 h_S_) : (⟨S32x4096x512, .f32⟩ : BufTy).Contents (Elt F) → (⟨S_, .f32⟩ : BufTy).Contents (Elt F) → (⟨S32x4096, .f32⟩ : BufTy).Contents (Elt F)),
    unary main_v49 main_v50 (broadcastInDim S32x4096x1 ![0, 1] bcast_S32x4096_S32x4096x1_0_1 : (⟨S32x4096, .f32⟩ : BufTy).Contents (Elt F) → (⟨S32x4096x1, .f32⟩ : BufTy).Contents (Elt F)),
    nullary main_cst_8 (constant S_ .f32 0x44000000#32),
    unary main_cst_8 main_v51 (broadcastInDim S32x4096x1 ![] bcast_S_S32x4096x1 : (⟨S_, .f32⟩ : BufTy).Contents (Elt F) → (⟨S32x4096x1, .f32⟩ : BufTy).Contents (Elt F)),
    binary main_v50 main_v51 main_v52 (Host.divf : (⟨S32x4096x1, .f32⟩ : BufTy).Contents (Elt F) → (⟨S32x4096x1, .f32⟩ : BufTy).Contents (Elt F) → (⟨S32x4096x1, .f32⟩ : BufTy).Contents (Elt F)),
    unary main_v45 main_v53 (broadcastInDim S32x4096x512 ![0, 1, 2] bcast_S32x4096x1_S32x4096x512_0_1_2 : (⟨S32x4096x1, .f32⟩ : BufTy).Contents (Elt F) → (⟨S32x4096x512, .f32⟩ : BufTy).Contents (Elt F)),
    binary main_v41 main_v53 main_v54 (subf : (⟨S32x4096x512, .f32⟩ : BufTy).Contents (Elt F) → (⟨S32x4096x512, .f32⟩ : BufTy).Contents (Elt F) → (⟨S32x4096x512, .f32⟩ : BufTy).Contents (Elt F)),
    nullary main_cst_9 (constant S_ .f32 0x3727C5AC#32),
    unary main_cst_9 main_v55 (broadcastInDim S32x4096x1 ![] bcast_S_S32x4096x1 : (⟨S_, .f32⟩ : BufTy).Contents (Elt F) → (⟨S32x4096x1, .f32⟩ : BufTy).Contents (Elt F)),
    binary main_v52 main_v55 main_v56 (addf : (⟨S32x4096x1, .f32⟩ : BufTy).Contents (Elt F) → (⟨S32x4096x1, .f32⟩ : BufTy).Contents (Elt F) → (⟨S32x4096x1, .f32⟩ : BufTy).Contents (Elt F)),
    unary main_v56 main_v57 (Host.rsqrt : (⟨S32x4096x1, .f32⟩ : BufTy).Contents (Elt F) → (⟨S32x4096x1, .f32⟩ : BufTy).Contents (Elt F)),
    unary main_v57 main_v58 (broadcastInDim S32x4096x512 ![0, 1, 2] bcast_S32x4096x1_S32x4096x512_0_1_2 : (⟨S32x4096x1, .f32⟩ : BufTy).Contents (Elt F) → (⟨S32x4096x512, .f32⟩ : BufTy).Contents (Elt F)),
    binary main_v54 main_v58 main_v59 (mulf : (⟨S32x4096x512, .f32⟩ : BufTy).Contents (Elt F) → (⟨S32x4096x512, .f32⟩ : BufTy).Contents (Elt F) → (⟨S32x4096x512, .f32⟩ : BufTy).Contents (Elt F)),
    unary main_arg8 main_v60 (broadcastInDim S1x1x512 ![2] bcast_S512_S1x1x512_2 : (⟨S512, .f32⟩ : BufTy).Contents (Elt F) → (⟨S1x1x512, .f32⟩ : BufTy).Contents (Elt F)),
    unary main_v60 main_v61 (broadcastInDim S32x4096x512 ![0, 1, 2] bcast_S1x1x512_S32x4096x512_0_1_2 : (⟨S1x1x512, .f32⟩ : BufTy).Contents (Elt F) → (⟨S32x4096x512, .f32⟩ : BufTy).Contents (Elt F)),
    binary main_v59 main_v61 main_v62 (mulf : (⟨S32x4096x512, .f32⟩ : BufTy).Contents (Elt F) → (⟨S32x4096x512, .f32⟩ : BufTy).Contents (Elt F) → (⟨S32x4096x512, .f32⟩ : BufTy).Contents (Elt F)),
    unary main_arg9 main_v63 (broadcastInDim S1x1x512 ![2] bcast_S512_S1x1x512_2 : (⟨S512, .f32⟩ : BufTy).Contents (Elt F) → (⟨S1x1x512, .f32⟩ : BufTy).Contents (Elt F)),
    unary main_v63 main_v64 (broadcastInDim S32x4096x512 ![0, 1, 2] bcast_S1x1x512_S32x4096x512_0_1_2 : (⟨S1x1x512, .f32⟩ : BufTy).Contents (Elt F) → (⟨S32x4096x512, .f32⟩ : BufTy).Contents (Elt F)),
    binary main_v62 main_v64 main_v65 (addf : (⟨S32x4096x512, .f32⟩ : BufTy).Contents (Elt F) → (⟨S32x4096x512, .f32⟩ : BufTy).Contents (Elt F) → (⟨S32x4096x512, .f32⟩ : BufTy).Contents (Elt F)),
    unary main_v4 main_v66 (broadcastInDim S32x4096x512 ![0, 1, 2] bcast_S32x4096x1_S32x4096x512_0_1_2 : (⟨S32x4096x1, .f32⟩ : BufTy).Contents (Elt F) → (⟨S32x4096x512, .f32⟩ : BufTy).Contents (Elt F)),
    binary main_v65 main_v66 main_v67 (mulf : (⟨S32x4096x512, .f32⟩ : BufTy).Contents (Elt F) → (⟨S32x4096x512, .f32⟩ : BufTy).Contents (Elt F) → (⟨S32x4096x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S32x4096x512, .f32⟩) main_call1_v0) (broadcastInDim S32x4096x512 ![] bcast_S_S32x4096x512),
    TRef.binary (TRef.of (T := ⟨S32x4096x512, .f32⟩) main_v67) (TRef.of (T := ⟨S32x4096x512, .f32⟩) main_call1_v0) (TRef.of (T := ⟨S32x4096x512, .f32⟩) main_v68) maximumf,
    binary main_v68 main_arg10 main_v69 ((fun l r => Host.dotGeneral dot_S32x4096x512_S1024x512_S32x4096x1024_2_1_01_0_n_n none l r) : (⟨S32x4096x512, .f32⟩ : BufTy).Contents (Elt F) → (⟨S1024x512, .f32⟩ : BufTy).Contents (Elt F) → (⟨S32x4096x1024, .f32⟩ : BufTy).Contents (Elt F)),
    unary main_arg11 main_v70 (broadcastInDim S1x1x1024 ![2] bcast_S1024_S1x1x1024_2 : (⟨S1024, .f32⟩ : BufTy).Contents (Elt F) → (⟨S1x1x1024, .f32⟩ : BufTy).Contents (Elt F)),
    unary main_v70 main_v71 (broadcastInDim S32x4096x1024 ![0, 1, 2] bcast_S1x1x1024_S32x4096x1024_0_1_2 : (⟨S1x1x1024, .f32⟩ : BufTy).Contents (Elt F) → (⟨S32x4096x1024, .f32⟩ : BufTy).Contents (Elt F)),
    binary main_v69 main_v71 main_v72 (addf : (⟨S32x4096x1024, .f32⟩ : BufTy).Contents (Elt F) → (⟨S32x4096x1024, .f32⟩ : BufTy).Contents (Elt F) → (⟨S32x4096x1024, .f32⟩ : BufTy).Contents (Elt F)),
    nullary main_cst_10 (constant S_ .f32 0xFF800000#32),
    binary main_v72 main_cst_10 main_v73 ((fun x v => Host.reduce FloatOps.maximumf x v reducesTo_S32x4096x1024_S32x1024_d1 h_S_) : (⟨S32x4096x1024, .f32⟩ : BufTy).Contents (Elt F) → (⟨S_, .f32⟩ : BufTy).Contents (Elt F) → (⟨S32x1024, .f32⟩ : BufTy).Contents (Elt F)) ]

set_option maxRecDepth 8192 in
/-- The line is the two parts, in order. -/
theorem ops_cut : (ops : List (HloOp τ sig (Elt F))) = opsA ++ opsB := rfl

/-! ## The first part: what the second part reads -/

section PartA

variable (m : (ℓ : Loc nD τ sig) → Buf (Elt F) ℓ) (c : Dev nD)

set_option maxRecDepth 8192 in
set_option maxHeartbeats 4000000 in
theorem A_v4 : after (opsA (F := F)) (launchContents m c) (Proc.devRef .tc main_v4)
    = val_main_v4 (F := F) (m ((c.tc : Thread nD τ).loc main_arg1)) := by
  after_results_simp <;> rfl

set_option maxRecDepth 8192 in
set_option maxHeartbeats 4000000 in
theorem A_v36 : after (opsA (F := F)) (launchContents m c) (Proc.devRef .tc main_v36)
    = val_main_v36 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  after_results_simp <;> rfl

set_option maxRecDepth 8192 in
set_option maxHeartbeats 4000000 in
theorem A_v39 : after (opsA (F := F)) (launchContents m c) (Proc.devRef .tc main_v39)
    = val_main_v39 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  after_results_simp <;> rfl

set_option maxRecDepth 8192 in
theorem A_arg7 : after (opsA (F := F)) (launchContents m c) (Proc.devRef .tc main_arg7) = (m ((c.tc : Thread nD τ).loc main_arg7)) := by
  after_results_simp <;> rfl

set_option maxRecDepth 8192 in
theorem A_arg8 : after (opsA (F := F)) (launchContents m c) (Proc.devRef .tc main_arg8) = (m ((c.tc : Thread nD τ).loc main_arg8)) := by
  after_results_simp <;> rfl

set_option maxRecDepth 8192 in
theorem A_arg9 : after (opsA (F := F)) (launchContents m c) (Proc.devRef .tc main_arg9) = (m ((c.tc : Thread nD τ).loc main_arg9)) := by
  after_results_simp <;> rfl

set_option maxRecDepth 8192 in
theorem A_arg10 : after (opsA (F := F)) (launchContents m c) (Proc.devRef .tc main_arg10) = (m ((c.tc : Thread nD τ).loc main_arg10)) := by
  after_results_simp <;> rfl

set_option maxRecDepth 8192 in
theorem A_arg11 : after (opsA (F := F)) (launchContents m c) (Proc.devRef .tc main_arg11) = (m ((c.tc : Thread nD τ).loc main_arg11)) := by
  after_results_simp <;> rfl

end PartA

/-! ## The second part, from any contents -/

set_option maxRecDepth 8192 in
set_option maxHeartbeats 4000000 in
theorem B_v73 (W : Valuation τ sig (Elt F)) (a0 : (⟨S32x4096x3, .f32⟩ : BufTy).Contents (Elt F)) (a1 : (⟨S32x1x4096, .i32⟩ : BufTy).Contents (Elt F)) (a2 : (⟨S128x3, .f32⟩ : BufTy).Contents (Elt F)) (a3 : (⟨S128, .f32⟩ : BufTy).Contents (Elt F)) (a4 : (⟨S128, .f32⟩ : BufTy).Contents (Elt F)) (a5 : (⟨S256x128, .f32⟩ : BufTy).Contents (Elt F)) (a6 : (⟨S256, .f32⟩ : BufTy).Contents (Elt F)) (a7 : (⟨S512x512, .f32⟩ : BufTy).Contents (Elt F)) (a8 : (⟨S512, .f32⟩ : BufTy).Contents (Elt F)) (a9 : (⟨S512, .f32⟩ : BufTy).Contents (Elt F)) (a10 : (⟨S1024x512, .f32⟩ : BufTy).Contents (Elt F)) (a11 : (⟨S1024, .f32⟩ : BufTy).Contents (Elt F))
    (h39 : W (Proc.devRef .tc main_v39) = val_main_v39 (F := F) a0 a1 a2 a3 a4 a5 a6)
    (h36 : W (Proc.devRef .tc main_v36) = val_main_v36 (F := F) a0 a1 a2 a3 a4 a5 a6)
    (h4 : W (Proc.devRef .tc main_v4) = val_main_v4 (F := F) a1)
    (h7 : W (Proc.devRef .tc main_arg7) = a7) (h8 : W (Proc.devRef .tc main_arg8) = a8)
    (h9 : W (Proc.devRef .tc main_arg9) = a9) (h10 : W (Proc.devRef .tc main_arg10) = a10)
    (h11 : W (Proc.devRef .tc main_arg11) = a11) :
    after (opsB (F := F)) W (Proc.devRef .tc main_v73) = val_main_v73 (F := F) a0 a1 a2 a3 a4 a5 a6 a7 a8 a9 a10 a11 := by
  after_results_simp
  rw [h39, h36, h4, h7, h8, h9, h10, h11]
  unfold val_main_v73 val_main_cst_10 val_main_v72 val_main_v71 val_main_v70 val_main_v69 val_main_v68 val_main_call1_v0 val_main_call1_cst val_main_v67 val_main_v66 val_main_v65 val_main_v64 val_main_v63 val_main_v62 val_main_v61 val_main_v60 val_main_v59 val_main_v58 val_main_v57 val_main_v56 val_main_v55 val_main_cst_9 val_main_v54 val_main_v53 val_main_v52 val_main_v51 val_main_cst_8 val_main_v50 val_main_v49 val_main_cst_7 val_main_v48 val_main_v47 val_main_v46 val_main_v45 val_main_v44 val_main_cst_6 val_main_v43 val_main_v42 val_main_cst_5 val_main_v41 val_main_v40
  rfl

/-! ## The run -/

section Run

variable (m : (ℓ : Loc nD τ sig) → Buf (Elt F) ℓ) (c : Dev nD)

/-- The result buffer after the whole line is the last stage of the arguments. -/
theorem result_eq : after (ops (F := F)) (launchContents m c) (Proc.devRef .tc main_v73)
    = val_main_v73 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [ops_cut, after_app]
  exact B_v73 (after opsA (launchContents m c)) _ _ _ _ _ _ _ _ _ _ _ _
    (A_v39 m c) (A_v36 m c) (A_v4 m c) (A_arg7 m c) (A_arg8 m c) (A_arg9 m c) (A_arg10 m c) (A_arg11 m c)

set_option maxRecDepth 8192 in
theorem arg0_eq : after (ops (F := F)) (launchContents m c) (Proc.devRef .tc main_arg0) = (m ((c.tc : Thread nD τ).loc main_arg0)) := by
  after_results_simp <;> rfl

set_option maxRecDepth 8192 in
theorem arg1_eq : after (ops (F := F)) (launchContents m c) (Proc.devRef .tc main_arg1) = (m ((c.tc : Thread nD τ).loc main_arg1)) := by
  after_results_simp <;> rfl

set_option maxRecDepth 8192 in
theorem arg2_eq : after (ops (F := F)) (launchContents m c) (Proc.devRef .tc main_arg2) = (m ((c.tc : Thread nD τ).loc main_arg2)) := by
  after_results_simp <;> rfl

set_option maxRecDepth 8192 in
theorem arg3_eq : after (ops (F := F)) (launchContents m c) (Proc.devRef .tc main_arg3) = (m ((c.tc : Thread nD τ).loc main_arg3)) := by
  after_results_simp <;> rfl

set_option maxRecDepth 8192 in
theorem arg4_eq : after (ops (F := F)) (launchContents m c) (Proc.devRef .tc main_arg4) = (m ((c.tc : Thread nD τ).loc main_arg4)) := by
  after_results_simp <;> rfl

set_option maxRecDepth 8192 in
theorem arg5_eq : after (ops (F := F)) (launchContents m c) (Proc.devRef .tc main_arg5) = (m ((c.tc : Thread nD τ).loc main_arg5)) := by
  after_results_simp <;> rfl

set_option maxRecDepth 8192 in
theorem arg6_eq : after (ops (F := F)) (launchContents m c) (Proc.devRef .tc main_arg6) = (m ((c.tc : Thread nD τ).loc main_arg6)) := by
  after_results_simp <;> rfl

set_option maxRecDepth 8192 in
theorem arg7_eq : after (ops (F := F)) (launchContents m c) (Proc.devRef .tc main_arg7) = (m ((c.tc : Thread nD τ).loc main_arg7)) := by
  after_results_simp <;> rfl

set_option maxRecDepth 8192 in
theorem arg8_eq : after (ops (F := F)) (launchContents m c) (Proc.devRef .tc main_arg8) = (m ((c.tc : Thread nD τ).loc main_arg8)) := by
  after_results_simp <;> rfl

set_option maxRecDepth 8192 in
theorem arg9_eq : after (ops (F := F)) (launchContents m c) (Proc.devRef .tc main_arg9) = (m ((c.tc : Thread nD τ).loc main_arg9)) := by
  after_results_simp <;> rfl

set_option maxRecDepth 8192 in
theorem arg10_eq : after (ops (F := F)) (launchContents m c) (Proc.devRef .tc main_arg10) = (m ((c.tc : Thread nD τ).loc main_arg10)) := by
  after_results_simp <;> rfl

set_option maxRecDepth 8192 in
theorem arg11_eq : after (ops (F := F)) (launchContents m c) (Proc.devRef .tc main_arg11) = (m ((c.tc : Thread nD τ).loc main_arg11)) := by
  after_results_simp <;> rfl

end Run

/-- On every device, for any float values, from any memory with zero counters: every weakly fair execution of
    @main terminates with the result at its last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73) = val_main_v73 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v73).trans (result_eq m c),
      (h c main_arg0).trans (arg0_eq m c),
      (h c main_arg1).trans (arg1_eq m c),
      (h c main_arg2).trans (arg2_eq m c),
      (h c main_arg3).trans (arg3_eq m c),
      (h c main_arg4).trans (arg4_eq m c),
      (h c main_arg5).trans (arg5_eq m c),
      (h c main_arg6).trans (arg6_eq m c),
      (h c main_arg7).trans (arg7_eq m c),
      (h c main_arg8).trans (arg8_eq m c),
      (h c main_arg9).trans (arg9_eq m c),
      (h c main_arg10).trans (arg10_eq m c),
      (h c main_arg11).trans (arg11_eq m c)⟩)
    (run_seq scopedRefs_eq scopedSems_eq defs main (fun _ => ops) main_eq (fun _ => ops_sub) m ρ)

end Cert.ReferenceIdeal.RunH

end
-- ==== Proof.RefSpec.lean ====
import proofs.«127374_j73383811219637_1_alg».proof.Proof.RefRead
import proofs.«127374_j73383811219637_1_alg».proof.Proof.Spec

/-! # The reference computes the specification

The reference program is a masked point network written as whole-array operations over [32, 4096, ·] arrays. Read
at one index — batch element b, point n, a channel — every operation's element is a function of a few elements of
its operands: a broadcast reads one element, a contraction is a sum over the contracted channel, a channel sum is
the initial zero plus the sum over the channels, a quotient, a difference, a product, a maximum act on the two
elements. Stage by stage these readings are the specification's definitions at the point's row:

  the mask word's comparison and conversion      the visibility
  points · w1ᵀ                                    the dense layer
  the mean, the variance and the normalisation   the layer norm over 128 channels, then over 512
  the product with the mask and the maximum with 0   the activations
  the contraction with w2 (w4) plus the bias     h3 (h7)
  the maximum-reduce over the point axis         the fold of max from −∞ over the points
  the concatenation on the channel axis          [gmax ; h3]

so the result at (b, f) is the specification's result for batch element b at channel f. -/

noncomputable section

namespace Cert.ReferenceIdeal.RefSpec

open Cert.ReferenceIdeal Cert.ReferenceIdeal.ReadP Cert.ReferenceIdeal.Gen Idealize.ShloMosaic Idealize.ShloMosaic.ValueIdx

/-- Two rank-3 indices with the same three coordinates are one index. -/
local macro "idx3" : tactic =>
  `(tactic| exact funext fun a => by match a with | ⟨0, _⟩ => rfl | ⟨1, _⟩ => rfl | ⟨2, _⟩ => rfl)
/-- Two rank-2 indices with the same two coordinates are one index. -/
local macro "idx2" : tactic =>
  `(tactic| exact funext fun a => by match a with | ⟨0, _⟩ => rfl | ⟨1, _⟩ => rfl)
/-- Two rank-1 indices with the same coordinate are one index. -/
local macro "idx1" : tactic =>
  `(tactic| exact funext fun a => by match a with | ⟨0, _⟩ => rfl)

/-! ## Where each layout operation reads

Every broadcast, contraction and sum of the reference reads its operand at an index computed from the result's;
at a result index given by its coordinates (batch b, point n, channel) that index is again one given by coordinates. -/

section Idx

variable (b : Fin 32) (n : Fin 4096)

/-- The mask is read as a [32, 4096] array: row-major position b · 4096 + n of the [32, 1, 4096] one is (b, 0, n). -/
theorem i0 : idx_main_v0 (ix2 b n) = ix3 b 0 n := funext fun a => Fin.ext (by
  match a with
  | ⟨0, _⟩ => show (b.val * 4096 + n.val) / 4096 = b.val; have := b.isLt; have := n.isLt; omega
  | ⟨1, _⟩ => rfl
  | ⟨2, _⟩ => show (b.val * 4096 + n.val) % 4096 = n.val; have := b.isLt; have := n.isLt; omega)

theorem i4 (z : Fin 1) : idx_main_v4 (ix3 b n z) = ix2 b n := by idx2
theorem l5 (k : Fin 128) (c : Fin 3) : lidx_main_v5 (ix3 b n k) c = ix3 b n c := by idx3
theorem r5 (k : Fin 128) (c : Fin 3) : ridx_main_v5 (ix3 b n k) c = ix2 k c := by idx2
theorem i6 (k : Fin 128) : idx_main_v6 (ix2 b n) k = ix3 b n k := by idx3
theorem i7 (z : Fin 1) : idx_main_v7 (ix3 b n z) = ix2 b n := by idx2
theorem i10 (k : Fin 128) : idx_main_v10 (ix3 b n k) = ix3 b n 0 := by idx3
theorem i13 (k : Fin 128) : idx_main_v13 (ix2 b n) k = ix3 b n k := by idx3
theorem i14 (z : Fin 1) : idx_main_v14 (ix3 b n z) = ix2 b n := by idx2
theorem i17 (k : Fin 128) : idx_main_v17 (ix3 b n k) = ix3 b n 0 := by idx3
theorem i22 (k : Fin 128) : idx_main_v22 (ix3 b n k) = ix3 b n 0 := by idx3
theorem i24 (z z' : Fin 1) (k : Fin 128) : idx_main_v24 (ix3 z z' k) = ix1 k := by idx1
theorem i25 (k : Fin 128) : idx_main_v25 (ix3 b n k) = ix3 0 0 k := by idx3
theorem i27 (z z' : Fin 1) (k : Fin 128) : idx_main_v27 (ix3 z z' k) = ix1 k := by idx1
theorem i28 (k : Fin 128) : idx_main_v28 (ix3 b n k) = ix3 0 0 k := by idx3
theorem i30 (k : Fin 128) : idx_main_v30 (ix3 b n k) = ix3 b n 0 := by idx3
theorem l33 (o : Fin 256) (k : Fin 128) : lidx_main_v33 (ix3 b n o) k = ix3 b n k := by idx3
theorem r33 (o : Fin 256) (k : Fin 128) : ridx_main_v33 (ix3 b n o) k = ix2 o k := by idx2
theorem i34 (z z' : Fin 1) (o : Fin 256) : idx_main_v34 (ix3 z z' o) = ix1 o := by idx1
theorem i35 (o : Fin 256) : idx_main_v35 (ix3 b n o) = ix3 0 0 o := by idx3
theorem i38 (z : Fin 1) (o : Fin 256) : idx_main_v38 (ix3 b z o) = ix2 b o := by idx2
theorem i39 (o : Fin 256) : idx_main_v39 (ix3 b n o) = ix3 b 0 o := by idx3
theorem l41 (p k : Fin 512) : lidx_main_v41 (ix3 b n p) k = ix3 b n k := by idx3
theorem r41 (p k : Fin 512) : ridx_main_v41 (ix3 b n p) k = ix2 p k := by idx2
theorem i42 (k : Fin 512) : idx_main_v42 (ix2 b n) k = ix3 b n k := by idx3
theorem i43 (z : Fin 1) : idx_main_v43 (ix3 b n z) = ix2 b n := by idx2
theorem i46 (p : Fin 512) : idx_main_v46 (ix3 b n p) = ix3 b n 0 := by idx3
theorem i49 (k : Fin 512) : idx_main_v49 (ix2 b n) k = ix3 b n k := by idx3
theorem i50 (z : Fin 1) : idx_main_v50 (ix3 b n z) = ix2 b n := by idx2
theorem i53 (p : Fin 512) : idx_main_v53 (ix3 b n p) = ix3 b n 0 := by idx3
theorem i58 (p : Fin 512) : idx_main_v58 (ix3 b n p) = ix3 b n 0 := by idx3
theorem i60 (z z' : Fin 1) (p : Fin 512) : idx_main_v60 (ix3 z z' p) = ix1 p := by idx1
theorem i61 (p : Fin 512) : idx_main_v61 (ix3 b n p) = ix3 0 0 p := by idx3
theorem i63 (z z' : Fin 1) (p : Fin 512) : idx_main_v63 (ix3 z z' p) = ix1 p := by idx1
theorem i64 (p : Fin 512) : idx_main_v64 (ix3 b n p) = ix3 0 0 p := by idx3
theorem i66 (p : Fin 512) : idx_main_v66 (ix3 b n p) = ix3 b n 0 := by idx3
theorem l69 (f : Fin 1024) (k : Fin 512) : lidx_main_v69 (ix3 b n f) k = ix3 b n k := by idx3
theorem r69 (f : Fin 1024) (k : Fin 512) : ridx_main_v69 (ix3 b n f) k = ix2 f k := by idx2
theorem i70 (z z' : Fin 1) (f : Fin 1024) : idx_main_v70 (ix3 z z' f) = ix1 f := by idx1
theorem i71 (f : Fin 1024) : idx_main_v71 (ix3 b n f) = ix3 0 0 f := by idx3

end Idx

/-! ## Three float words -/

/-- The mask's comparison against the zero word, converted to a float, is the visibility. -/
theorem vis_scalar (w : BitVec 32) :
    FloatOps.uitofp (F := Ideal) .f32 (IntOp.cmpi .ne w 0#32) = Cert.Spec.vis w := by
  show (((IntOp.cmpi .ne w 0#32).toNat : ℝ) : EReal) = Cert.Spec.vis w
  unfold Cert.Spec.vis IntOp.cmpi
  by_cases h : w = 0#32
  · subst h; simp
  · have hb : (w != 0#32) = true := bne_iff_ne.mpr h
    rw [if_neg h, hb]; simp

/-- The word of −∞ is the bottom of the extended reals. -/
theorem ninf_word : Ideal.ofBits .f32 0xFF800000#32 = (⊥ : EReal) := by simp [Ideal.ofBits, Ideal.ieee]

variable (x0 : (⟨S32x4096x3, .f32⟩ : BufTy).Contents (Elt Ideal)) (x1 : (⟨S32x1x4096, .i32⟩ : BufTy).Contents (Elt Ideal))
  (x2 : (⟨S128x3, .f32⟩ : BufTy).Contents (Elt Ideal)) (x3 x4 : (⟨S128, .f32⟩ : BufTy).Contents (Elt Ideal))
  (x5 : (⟨S256x128, .f32⟩ : BufTy).Contents (Elt Ideal)) (x6 : (⟨S256, .f32⟩ : BufTy).Contents (Elt Ideal))
  (x7 : (⟨S512x512, .f32⟩ : BufTy).Contents (Elt Ideal)) (x8 x9 : (⟨S512, .f32⟩ : BufTy).Contents (Elt Ideal))
  (x10 : (⟨S1024x512, .f32⟩ : BufTy).Contents (Elt Ideal)) (x11 : (⟨S1024, .f32⟩ : BufTy).Contents (Elt Ideal))
  (b : Fin 32) (n : Fin 4096)

/-! ## The mask -/

/-- The mask stage at (b, n): the visibility of the point's mask word. -/
theorem vis_at (z : Fin 1) : val_main_v4 (F := Ideal) x1 (ix3 b n z) = Cert.Spec.vis (x1 (ix3 b 0 n)) := by
  rw [val_main_v4_apply, i4, val_main_v3_apply, val_main_v2_apply, val_main_v0_apply, i0, val_main_v1_apply,
    val_main_c_apply]
  exact vis_scalar _

/-! ## The first dense layer and its layer norm -/

/-- The first contraction at (b, n, k): channel k of the point times w1ᵀ. -/
theorem dense1_at (k : Fin 128) : val_main_v5 (F := Ideal) x0 x2 (ix3 b n k)
    = Cert.Spec.dense (fun c => x0 (ix3 b n c)) (fun k c => x2 (ix2 k c)) k := by
  rw [val_main_v5_apply]
  simp only [l5, r5, Cert.Spec.dense]

/-- The point's row of the first contraction is the dense layer of the point. -/
theorem row1_eq : (fun j : Fin 128 => val_main_v5 (F := Ideal) x0 x2 (ix3 b n j))
    = Cert.Spec.dense (fun c => x0 (ix3 b n c)) (fun k c => x2 (ix2 k c)) :=
  funext fun j => dense1_at x0 x2 b n j

/-- The row's mean: the sum from the zero word over the word of 128. -/
theorem mean1_at (z : Fin 1) : val_main_v9 (F := Ideal) x0 x2 (ix3 b n z)
    = Cert.Spec.mean 0x43000000#32 (fun j : Fin 128 => val_main_v5 (F := Ideal) x0 x2 (ix3 b n j)) := by
  rw [val_main_v9_apply, val_main_v7_apply, i7, val_main_v6_apply, val_main_v8_apply, val_main_cst_0_apply,
    val_main_cst_apply]
  simp only [i6, Ideal.hostDivf_def, Ideal.ofBits_def, Ideal.ofBits_zero_f32, zero_add, Cert.Spec.mean]

/-- The centred row. -/
theorem cen1_at (k : Fin 128) : val_main_v11 (F := Ideal) x0 x2 (ix3 b n k)
    = val_main_v5 (F := Ideal) x0 x2 (ix3 b n k)
      - Cert.Spec.mean 0x43000000#32 (fun j : Fin 128 => val_main_v5 (F := Ideal) x0 x2 (ix3 b n j)) := by
  rw [val_main_v11_apply, val_main_v10_apply, i10, mean1_at, Ideal.subf_def]

/-- The row's variance: the sum of the centred squares from the zero word over the word of 128. -/
theorem var1_at (z : Fin 1) : val_main_v16 (F := Ideal) x0 x2 (ix3 b n z)
    = Cert.Spec.var 0x43000000#32 (fun j : Fin 128 => val_main_v5 (F := Ideal) x0 x2 (ix3 b n j)) := by
  rw [val_main_v16_apply, val_main_v14_apply, i14, val_main_v13_apply, val_main_v15_apply, val_main_cst_2_apply,
    val_main_cst_1_apply]
  simp only [i13, val_main_v12_apply, cen1_at, Ideal.hostDivf_def, Ideal.mulf_def, Ideal.ofBits_def,
    Ideal.ofBits_zero_f32, zero_add, Cert.Spec.var]

/-- The first layer norm at (b, n, k), of the row of the first contraction. -/
theorem ln1_at (k : Fin 128) : val_main_v29 (F := Ideal) x0 x2 x3 x4 (ix3 b n k)
    = Cert.Spec.lnorm 0x43000000#32 (fun j : Fin 128 => val_main_v5 (F := Ideal) x0 x2 (ix3 b n j))
        (fun j => x3 (ix1 j)) (fun j => x4 (ix1 j)) k := by
  rw [val_main_v29_apply, val_main_v26_apply, val_main_v23_apply, val_main_v18_apply, val_main_v17_apply, i17,
    mean1_at, val_main_v22_apply, i22, val_main_v21_apply, val_main_v20_apply, var1_at, val_main_v19_apply,
    val_main_cst_3_apply, val_main_v25_apply, i25, val_main_v24_apply, i24, val_main_v28_apply, i28,
    val_main_v27_apply, i27]
  simp only [Cert.Spec.lnorm, Ideal.addf_def, Ideal.mulf_def, Ideal.subf_def, Ideal.hostUnary_rsqrt_def,
    Ideal.ofBits_def]

/-- The first activation at (b, n, k): the masked layer norm, floored at zero. -/
theorem act1_at (k : Fin 128) : val_main_v32 (F := Ideal) x0 x1 x2 x3 x4 (ix3 b n k)
    = Cert.Spec.act1 (fun k c => x2 (ix2 k c)) (fun j => x3 (ix1 j)) (fun j => x4 (ix1 j))
        (fun c => x0 (ix3 b n c)) (x1 (ix3 b 0 n)) k := by
  rw [val_main_v32_apply, val_main_v31_apply, ln1_at, row1_eq, val_main_v30_apply, i30, vis_at,
    val_main_call0_v0_apply, val_main_call0_cst_apply, Ideal.ofBits_def, Ideal.ofBits_zero_f32]
  simp only [Cert.Spec.act1, Ideal.maximumf_def, Ideal.mulf_def]

/-! ## h3 and its maximum over the points -/

/-- h3 at (b, n, o). -/
theorem h3_at (o : Fin 256) : val_main_v36 (F := Ideal) x0 x1 x2 x3 x4 x5 x6 (ix3 b n o)
    = Cert.Spec.h3 (fun k c => x2 (ix2 k c)) (fun j => x3 (ix1 j)) (fun j => x4 (ix1 j))
        (fun o k => x5 (ix2 o k)) (fun o => x6 (ix1 o)) (fun c => x0 (ix3 b n c)) (x1 (ix3 b 0 n)) o := by
  rw [val_main_v36_apply, val_main_v33_apply, val_main_v35_apply, i35, val_main_v34_apply, i34]
  simp only [l33, r33, act1_at, Cert.Spec.h3, Cert.Spec.dense, Ideal.addf_def]

/-- The point axis of a [32, 4096, 256] array can be folded away. -/
theorem red37 : S32x4096x256.Reduces [1] S32x256 := by decide

/-- Result index (b, o) with point k put back is (b, k, o). -/
theorem lift37 (o : Fin 256) (k : Fin 4096) : red37.lift (ix2 b o) k = ix3 b k o :=
  funext fun c => Fin.ext (by match c with | ⟨0, _⟩ => rfl | ⟨1, _⟩ => rfl | ⟨2, _⟩ => rfl)

/-- The first maximum at (b, o): the fold of max from −∞ of h3 over the batch element's points. -/
theorem gmax_at (o : Fin 256) : val_main_v37 (F := Ideal) x0 x1 x2 x3 x4 x5 x6 (ix2 b o)
    = Cert.Spec.gmax (fun k c => x2 (ix2 k c)) (fun j => x3 (ix1 j)) (fun j => x4 (ix1 j))
        (fun o k => x5 (ix2 o k)) (fun o => x6 (ix1 o)) (fun n c => x0 (ix3 b n c)) (fun n => x1 (ix3 b 0 n)) o := by
  unfold val_main_v37
  refine (Host.reduce_eq_fold_single (FloatOps.maximumf (F := Ideal) (φ := .f32)) _ _
    reducesTo_S32x4096x256_S32x256_d1 red37 h_S_ (ix2 b o)).trans ?_
  rw [val_main_cst_4_apply, Ideal.ofBits_def, ninf_word]
  have hf : (val_main_v36 (F := Ideal) x0 x1 x2 x3 x4 x5 x6 ∘ red37.lift (ix2 b o))
      = fun k : Fin 4096 => Cert.Spec.h3 (fun k c => x2 (ix2 k c)) (fun j => x3 (ix1 j)) (fun j => x4 (ix1 j))
          (fun o k => x5 (ix2 o k)) (fun o => x6 (ix1 o)) (fun c => x0 (ix3 b k c)) (x1 (ix3 b 0 k)) o :=
    funext fun k => (congrArg (val_main_v36 (F := Ideal) x0 x1 x2 x3 x4 x5 x6) (lift37 b o k)).trans
      (h3_at x0 x1 x2 x3 x4 x5 x6 b k o)
  unfold Cert.Spec.gmax Cert.Spec.rowMax
  exact congrArg (fun g => Finset.fold max (⊥ : EReal) g (Finset.univ : Finset (Fin 4096))) hf

/-! ## The concatenation [gmax ; h3] -/

/-- The broadcast maximum at (b, n, o). -/
theorem v39_at (o : Fin 256) : val_main_v39 (F := Ideal) x0 x1 x2 x3 x4 x5 x6 (ix3 b n o)
    = (Cert.Spec.gmax (fun k c => x2 (ix2 k c)) (fun j => x3 (ix1 j)) (fun j => x4 (ix1 j))
        (fun o k => x5 (ix2 o k)) (fun o => x6 (ix1 o)) (fun n c => x0 (ix3 b n c)) (fun n => x1 (ix3 b 0 n))) o := by
  rw [val_main_v39_apply, i39, val_main_v38_apply, i38, gmax_at]

/-- Below channel 256 the concatenation reads its first piece. -/
theorem v40_left (q : Fin 512) (hq : q.val < 256) : val_main_v40 (F := Ideal) x0 x1 x2 x3 x4 x5 x6 (ix3 b n q)
    = val_main_v39 (F := Ideal) x0 x1 x2 x3 x4 x5 x6 (ix3 b n ⟨q.val, hq⟩) := by
  unfold val_main_v40
  exact concatenate_pair_apply_left _ _ _ concatenates_S32x4096x256_S32x4096x256_S32x4096x512_d2
    (ix3 b n q) rfl (ix3 b n ⟨q.val, hq⟩)
    (fun c => by match c with | ⟨0, _⟩ => rfl | ⟨1, _⟩ => rfl | ⟨2, _⟩ => rfl)

/-- From channel 256 on it reads its second piece, 256 channels back. -/
theorem v40_right (q : Fin 512) (hq : ¬ q.val < 256) : val_main_v40 (F := Ideal) x0 x1 x2 x3 x4 x5 x6 (ix3 b n q)
    = val_main_v36 (F := Ideal) x0 x1 x2 x3 x4 x5 x6 (ix3 b n ⟨q.val - 256, by have := q.isLt; omega⟩) := by
  unfold val_main_v40
  exact concatenate_pair_apply_right _ _ _ concatenates_S32x4096x256_S32x4096x256_S32x4096x512_d2
    (ix3 b n q) rfl rfl (ix3 b n ⟨q.val - 256, by have := q.isLt; omega⟩)
    (fun c hc => by
      match c with
      | ⟨0, _⟩ => rfl
      | ⟨1, _⟩ => rfl
      | ⟨2, _⟩ => exact absurd rfl hc)
    (by show q.val - 256 + 256 = q.val; omega)

/-- The concatenation at (b, n, q). -/
theorem dist_at (q : Fin 512) : val_main_v40 (F := Ideal) x0 x1 x2 x3 x4 x5 x6 (ix3 b n q)
    = Cert.Spec.dist (Cert.Spec.gmax (fun k c => x2 (ix2 k c)) (fun j => x3 (ix1 j)) (fun j => x4 (ix1 j))
        (fun o k => x5 (ix2 o k)) (fun o => x6 (ix1 o)) (fun n c => x0 (ix3 b n c)) (fun n => x1 (ix3 b 0 n)))
        (Cert.Spec.h3 (fun k c => x2 (ix2 k c)) (fun j => x3 (ix1 j)) (fun j => x4 (ix1 j))
        (fun o k => x5 (ix2 o k)) (fun o => x6 (ix1 o)) (fun c => x0 (ix3 b n c)) (x1 (ix3 b 0 n))) q := by
  unfold Cert.Spec.dist
  by_cases hq : q.val < 256
  · rw [dif_pos hq, v40_left _ _ _ _ _ _ _ _ _ _ hq, v39_at]
  · rw [dif_neg hq, v40_right _ _ _ _ _ _ _ _ _ _ hq, h3_at]

/-! ## The second dense layer and its layer norm -/

/-- The third contraction at (b, n, p). -/
theorem dense3_at (p : Fin 512) : val_main_v41 (F := Ideal) x0 x1 x2 x3 x4 x5 x6 x7 (ix3 b n p)
    = Cert.Spec.dense (Cert.Spec.dist (Cert.Spec.gmax (fun k c => x2 (ix2 k c)) (fun j => x3 (ix1 j)) (fun j => x4 (ix1 j))
        (fun o k => x5 (ix2 o k)) (fun o => x6 (ix1 o)) (fun n c => x0 (ix3 b n c)) (fun n => x1 (ix3 b 0 n)))
        (Cert.Spec.h3 (fun k c => x2 (ix2 k c)) (fun j => x3 (ix1 j)) (fun j => x4 (ix1 j))
        (fun o k => x5 (ix2 o k)) (fun o => x6 (ix1 o)) (fun c => x0 (ix3 b n c)) (x1 (ix3 b 0 n)))) (fun p q => x7 (ix2 p q)) p := by
  rw [val_main_v41_apply]
  exact Finset.sum_congr rfl fun k _ => by rw [l41, r41, dist_at]

/-- The point's row of the third contraction is the dense layer of the concatenation. -/
theorem row2_eq : (fun j : Fin 512 => val_main_v41 (F := Ideal) x0 x1 x2 x3 x4 x5 x6 x7 (ix3 b n j))
    = Cert.Spec.dense (Cert.Spec.dist (Cert.Spec.gmax (fun k c => x2 (ix2 k c)) (fun j => x3 (ix1 j)) (fun j => x4 (ix1 j))
        (fun o k => x5 (ix2 o k)) (fun o => x6 (ix1 o)) (fun n c => x0 (ix3 b n c)) (fun n => x1 (ix3 b 0 n)))
        (Cert.Spec.h3 (fun k c => x2 (ix2 k c)) (fun j => x3 (ix1 j)) (fun j => x4 (ix1 j))
        (fun o k => x5 (ix2 o k)) (fun o => x6 (ix1 o)) (fun c => x0 (ix3 b n c)) (x1 (ix3 b 0 n)))) (fun p q => x7 (ix2 p q)) :=
  funext fun j => dense3_at x0 x1 x2 x3 x4 x5 x6 x7 b n j

/-- The row's mean: the sum from the zero word over the word of 512. -/
theorem mean2_at (z : Fin 1) : val_main_v45 (F := Ideal) x0 x1 x2 x3 x4 x5 x6 x7 (ix3 b n z)
    = Cert.Spec.mean 0x44000000#32 (fun j : Fin 512 => val_main_v41 (F := Ideal) x0 x1 x2 x3 x4 x5 x6 x7 (ix3 b n j)) := by
  rw [val_main_v45_apply, val_main_v43_apply, i43, val_main_v42_apply, val_main_v44_apply, val_main_cst_6_apply,
    val_main_cst_5_apply]
  simp only [i42, Ideal.hostDivf_def, Ideal.ofBits_def, Ideal.ofBits_zero_f32, zero_add, Cert.Spec.mean]

/-- The centred row. -/
theorem cen2_at (p : Fin 512) : val_main_v47 (F := Ideal) x0 x1 x2 x3 x4 x5 x6 x7 (ix3 b n p)
    = val_main_v41 (F := Ideal) x0 x1 x2 x3 x4 x5 x6 x7 (ix3 b n p)
      - Cert.Spec.mean 0x44000000#32 (fun j : Fin 512 => val_main_v41 (F := Ideal) x0 x1 x2 x3 x4 x5 x6 x7 (ix3 b n j)) := by
  rw [val_main_v47_apply, val_main_v46_apply, i46, mean2_at, Ideal.subf_def]

/-- The row's variance: the sum of the centred squares from the zero word over the word of 512. -/
theorem var2_at (z : Fin 1) : val_main_v52 (F := Ideal) x0 x1 x2 x3 x4 x5 x6 x7 (ix3 b n z)
    = Cert.Spec.var 0x44000000#32 (fun j : Fin 512 => val_main_v41 (F := Ideal) x0 x1 x2 x3 x4 x5 x6 x7 (ix3 b n j)) := by
  rw [val_main_v52_apply, val_main_v50_apply, i50, val_main_v49_apply, val_main_v51_apply, val_main_cst_8_apply,
    val_main_cst_7_apply]
  simp only [Ideal.hostDivf_def, Ideal.ofBits_def, Ideal.ofBits_zero_f32, zero_add]
  unfold Cert.Spec.var
  refine congrArg (fun s => Ideal.div s (Ideal.ofBits .f32 0x44000000#32)) (Finset.sum_congr rfl fun k _ => ?_)
  rw [i49, val_main_v48_apply, cen2_at, Ideal.mulf_def]

/-- The second layer norm at (b, n, p), of the row of the third contraction. -/
theorem ln2_at (p : Fin 512) : val_main_v65 (F := Ideal) x0 x1 x2 x3 x4 x5 x6 x7 x8 x9 (ix3 b n p)
    = Cert.Spec.lnorm 0x44000000#32 (fun j : Fin 512 => val_main_v41 (F := Ideal) x0 x1 x2 x3 x4 x5 x6 x7 (ix3 b n j))
        (fun j => x8 (ix1 j)) (fun j => x9 (ix1 j)) p := by
  rw [val_main_v65_apply, val_main_v62_apply, val_main_v59_apply, val_main_v54_apply, val_main_v53_apply, i53,
    mean2_at, val_main_v58_apply, i58, val_main_v57_apply, val_main_v56_apply, var2_at, val_main_v55_apply,
    val_main_cst_9_apply, val_main_v61_apply, i61, val_main_v60_apply, i60, val_main_v64_apply, i64,
    val_main_v63_apply, i63]
  simp only [Cert.Spec.lnorm, Ideal.addf_def, Ideal.mulf_def, Ideal.subf_def, Ideal.hostUnary_rsqrt_def,
    Ideal.ofBits_def]

/-- The second activation at (b, n, q): the masked layer norm, floored at zero. -/
theorem act2_at (q : Fin 512) : val_main_v68 (F := Ideal) x0 x1 x2 x3 x4 x5 x6 x7 x8 x9 (ix3 b n q)
    = Cert.Spec.act2 (fun p q => x7 (ix2 p q)) (fun j => x8 (ix1 j)) (fun j => x9 (ix1 j))
        (Cert.Spec.gmax (fun k c => x2 (ix2 k c)) (fun j => x3 (ix1 j)) (fun j => x4 (ix1 j))
        (fun o k => x5 (ix2 o k)) (fun o => x6 (ix1 o)) (fun n c => x0 (ix3 b n c)) (fun n => x1 (ix3 b 0 n)))
        (Cert.Spec.h3 (fun k c => x2 (ix2 k c)) (fun j => x3 (ix1 j)) (fun j => x4 (ix1 j))
        (fun o k => x5 (ix2 o k)) (fun o => x6 (ix1 o)) (fun c => x0 (ix3 b n c)) (x1 (ix3 b 0 n))) (x1 (ix3 b 0 n)) q := by
  rw [val_main_v68_apply, val_main_v67_apply, ln2_at, row2_eq, val_main_v66_apply, i66, vis_at,
    val_main_call1_v0_apply, val_main_call1_cst_apply, Ideal.ofBits_def, Ideal.ofBits_zero_f32]
  simp only [Cert.Spec.act2, Ideal.maximumf_def, Ideal.mulf_def]

/-! ## h7 and the result -/

/-- h7 at (b, n, f). -/
theorem h7_at (f : Fin 1024) : val_main_v72 (F := Ideal) x0 x1 x2 x3 x4 x5 x6 x7 x8 x9 x10 x11 (ix3 b n f)
    = Cert.Spec.h7 (fun p q => x7 (ix2 p q)) (fun j => x8 (ix1 j)) (fun j => x9 (ix1 j))
        (fun f p => x10 (ix2 f p)) (fun f => x11 (ix1 f))
        (Cert.Spec.gmax (fun k c => x2 (ix2 k c)) (fun j => x3 (ix1 j)) (fun j => x4 (ix1 j))
        (fun o k => x5 (ix2 o k)) (fun o => x6 (ix1 o)) (fun n c => x0 (ix3 b n c)) (fun n => x1 (ix3 b 0 n)))
        (Cert.Spec.h3 (fun k c => x2 (ix2 k c)) (fun j => x3 (ix1 j)) (fun j => x4 (ix1 j))
        (fun o k => x5 (ix2 o k)) (fun o => x6 (ix1 o)) (fun c => x0 (ix3 b n c)) (x1 (ix3 b 0 n))) (x1 (ix3 b 0 n)) f := by
  rw [val_main_v72_apply, val_main_v69_apply, val_main_v71_apply, i71, val_main_v70_apply, i70, Ideal.addf_def]
  unfold Cert.Spec.h7 Cert.Spec.dense
  refine congrArg (fun s => s + x11 (ix1 f)) (Finset.sum_congr rfl fun k _ => ?_)
  rw [l69, r69, act2_at]

/-- The point axis of a [32, 4096, 1024] array can be folded away. -/
theorem red73 : S32x4096x1024.Reduces [1] S32x1024 := by decide

/-- Result index (b, f) with point k put back is (b, k, f). -/
theorem lift73 (f : Fin 1024) (k : Fin 4096) : red73.lift (ix2 b f) k = ix3 b k f :=
  funext fun c => Fin.ext (by match c with | ⟨0, _⟩ => rfl | ⟨1, _⟩ => rfl | ⟨2, _⟩ => rfl)

/-- THE RESULT at (b, f): the fold of max from −∞ of h7 over the batch element's points. -/
theorem out_at (f : Fin 1024) : val_main_v73 (F := Ideal) x0 x1 x2 x3 x4 x5 x6 x7 x8 x9 x10 x11 (ix2 b f)
    = Cert.Spec.out (fun k c => x2 (ix2 k c)) (fun j => x3 (ix1 j)) (fun j => x4 (ix1 j))
        (fun o k => x5 (ix2 o k)) (fun o => x6 (ix1 o))
        (fun p q => x7 (ix2 p q)) (fun j => x8 (ix1 j)) (fun j => x9 (ix1 j))
        (fun f p => x10 (ix2 f p)) (fun f => x11 (ix1 f))
        (fun n c => x0 (ix3 b n c)) (fun n => x1 (ix3 b 0 n)) f := by
  unfold val_main_v73
  refine (Host.reduce_eq_fold_single (FloatOps.maximumf (F := Ideal) (φ := .f32)) _ _
    reducesTo_S32x4096x1024_S32x1024_d1 red73 h_S_ (ix2 b f)).trans ?_
  rw [val_main_cst_10_apply, Ideal.ofBits_def, ninf_word, Function.comp_def]
  have hf : (fun k : Fin 4096 => val_main_v72 (F := Ideal) x0 x1 x2 x3 x4 x5 x6 x7 x8 x9 x10 x11 (red73.lift (ix2 b f) k))
      = fun k : Fin 4096 => Cert.Spec.h7 (fun p q => x7 (ix2 p q)) (fun j => x8 (ix1 j)) (fun j => x9 (ix1 j))
          (fun f p => x10 (ix2 f p)) (fun f => x11 (ix1 f))
          (Cert.Spec.gmax (fun k c => x2 (ix2 k c)) (fun j => x3 (ix1 j)) (fun j => x4 (ix1 j))
        (fun o k => x5 (ix2 o k)) (fun o => x6 (ix1 o)) (fun n c => x0 (ix3 b n c)) (fun n => x1 (ix3 b 0 n)))
          (Cert.Spec.h3 (fun k c => x2 (ix2 k c)) (fun j => x3 (ix1 j)) (fun j => x4 (ix1 j))
        (fun o k => x5 (ix2 o k)) (fun o => x6 (ix1 o)) (fun c => x0 (ix3 b k c)) (x1 (ix3 b 0 k))) (x1 (ix3 b 0 k)) f := by
    funext k
    rw [lift73, h7_at]
  unfold Cert.Spec.out Cert.Spec.rowMax
  exact congrArg (fun g => Finset.fold max (⊥ : EReal) g (Finset.univ : Finset (Fin 4096))) hf

/-- THE REFERENCE COMPUTES THE SPECIFICATION: its result at (b, f) is the specification's result of batch element b,
    channel f, at the weights and that element's points and mask words. -/
theorem result_apply (x0 : (⟨S32x4096x3, .f32⟩ : BufTy).Contents (Elt Ideal)) (x1 : (⟨S32x1x4096, .i32⟩ : BufTy).Contents (Elt Ideal)) (x2 : (⟨S128x3, .f32⟩ : BufTy).Contents (Elt Ideal)) (x3 x4 : (⟨S128, .f32⟩ : BufTy).Contents (Elt Ideal)) (x5 : (⟨S256x128, .f32⟩ : BufTy).Contents (Elt Ideal)) (x6 : (⟨S256, .f32⟩ : BufTy).Contents (Elt Ideal)) (x7 : (⟨S512x512, .f32⟩ : BufTy).Contents (Elt Ideal)) (x8 x9 : (⟨S512, .f32⟩ : BufTy).Contents (Elt Ideal)) (x10 : (⟨S1024x512, .f32⟩ : BufTy).Contents (Elt Ideal)) (x11 : (⟨S1024, .f32⟩ : BufTy).Contents (Elt Ideal)) (b : Fin 32) (f : Fin 1024) :
    val_main_v73 (F := Ideal) x0 x1 x2 x3 x4 x5 x6 x7 x8 x9 x10 x11 (ix2 b f)
      = Cert.Spec.out (fun k c => x2 (ix2 k c)) (fun k => x3 (ix1 k)) (fun k => x4 (ix1 k)) (fun o k => x5 (ix2 o k)) (fun o => x6 (ix1 o))
          (fun p q => x7 (ix2 p q)) (fun p => x8 (ix1 p)) (fun p => x9 (ix1 p)) (fun f p => x10 (ix2 f p)) (fun f => x11 (ix1 f))
          (fun n c => x0 (ix3 b n c)) (fun n => x1 (ix3 b 0 n)) f :=
  out_at x0 x1 x2 x3 x4 x5 x6 x7 x8 x9 x10 x11 b f

end Cert.ReferenceIdeal.RefSpec

end
-- ==== Proof.lean ====
/- The proof of `Cert.Claim` for the masked point network in two pallas_calls.

   The kernel program runs call 0 per batch element (conv1, layer norm, mask, relu, conv2 + bias, and the row maxima
   gmax over the 4096 points) and call 1 per batch element and tile of 1024 points (the concatenation [gmax ; h3], conv3,
   layer norm, mask, relu, conv4 + bias, the tile's row maxima folded into an accumulator that starts at −∞ and is
   written out, transposed, at the fourth tile). The reference computes the same layers point-major on the host and
   takes one maximum over the 4096 points.

   Frames. The word-level program and the idealized one are the same text; their frames are one argument generic in
   the float instance (KB/ and KI/): each call's body obligation over proof data that names what every window's buffer
   holds after the body (call 1's invariant carries the accumulator), the two calls as region segments over the
   buffers' contents at each boundary of @main, and the several-regions launch; the run's post names every unscoped
   buffer at the return, so the arguments are read back unchanged. The reference's frame is its run.

   Values, on the extended reals. Both sides are the specification (Spec.lean) of one batch element: on the kernel
   side the stored blocks are the specification's h3, gmax and tile maxima at an index (Call0Spec, Call1Spec), the
   blocks tile the arrays (Arr0, Arr1), and the accumulator after four tiles is the maximum over the 4096 points
   because max is associative, commutative and idempotent with −∞ neutral (SpecMax); on the reference side the host
   operations are read one at a time at an index (RefSpec). No finiteness is needed: the two sides differ only by the
   order of factors in the products under the sums and by the grouping of the maximum. -/
import proofs.«127374_j73383811219637_1_alg».proof.Defs
import proofs.«127374_j73383811219637_1_alg».proof.Proof.Gen.Kernel
import proofs.«127374_j73383811219637_1_alg».proof.Proof.Gen.KernelIdeal
import proofs.«127374_j73383811219637_1_alg».proof.Proof.Gen.ReferenceIdeal
import proofs.«127374_j73383811219637_1_alg».proof.Proof.Gen.Pre_finite_inputs
import proofs.«127374_j73383811219637_1_alg».proof.Proof.KB.Region0
import proofs.«127374_j73383811219637_1_alg».proof.Proof.KB.Region1
import proofs.«127374_j73383811219637_1_alg».proof.Proof.KB.Run
import proofs.«127374_j73383811219637_1_alg».proof.Proof.KI.Region0
import proofs.«127374_j73383811219637_1_alg».proof.Proof.KI.Region1
import proofs.«127374_j73383811219637_1_alg».proof.Proof.KI.Run
import proofs.«127374_j73383811219637_1_alg».proof.Proof.KI.Call0Spec
import proofs.«127374_j73383811219637_1_alg».proof.Proof.KI.Call1Spec
import proofs.«127374_j73383811219637_1_alg».proof.Proof.KI.Arr0
import proofs.«127374_j73383811219637_1_alg».proof.Proof.KI.Arr1
import proofs.«127374_j73383811219637_1_alg».proof.Proof.RefRunH
import proofs.«127374_j73383811219637_1_alg».proof.Proof.RefSpec
import Idealize.ShloMosaic.Adequacy
import Idealize.ShloMosaic.Init

noncomputable section

namespace Cert.Proof

open Idealize.ShloMosaic Idealize.ShloMosaic.ValueIdx Idealize.SL.Sem

/-- The word-level program runs and leaves its arguments as launched. -/
theorem frame_k : Cert.frame_Kernel := fun m ρ _ =>
  Cert.Kernel.Frm.frame m ρ (fun V c => Cert.Kernel.Frm.body_obligation0 V c) (fun V c => Cert.Kernel.Frm.body_obligation1 V c)
    (fun V c => Cert.Kernel.Frm.hout1 V c)

/-- So does the idealized program: the same argument at the ideal instance. -/
theorem frame_ki : Cert.frame_KernelIdeal := fun m ρ _ =>
  Cert.KernelIdeal.Frm.frame m ρ (fun V c => Cert.KernelIdeal.Frm.body_obligation0 V c) (fun V c => Cert.KernelIdeal.Frm.body_obligation1 V c)
    (fun V c => Cert.KernelIdeal.Frm.hout1 V c)

/-- The reference's frame is its run with the result dropped. -/
theorem frame_ri : Cert.frame_ReferenceIdeal := fun m ρ _ =>
  (θ_run Cert.ReferenceIdeal.defs _ _).mono (fun _ h c => (h c).2) (Cert.ReferenceIdeal.RunH.run (F := Ideal) m ρ)

/-- The ideal pass rewrote nothing. -/
theorem preserves : Cert.preserves_Kernel_KernelIdeal := trivial

/-- Both programs end with the specification's result row for every batch element. -/
theorem algebraic : Cert.algebraic_KernelIdeal_ReferenceIdeal := by
  intro m ρ m' ρ' _ hagree
  refine ⟨fun c => Cert.KernelIdeal.Val.outA m c, ?_, ?_⟩
  · exact Cert.KernelIdeal.Frm.run_result m ρ (fun V c => Cert.KernelIdeal.Frm.body_obligation0 V c)
      (fun V c => Cert.KernelIdeal.Frm.body_obligation1 V c) (fun V c => Cert.KernelIdeal.Frm.hout1 V c)
  · refine (θ_run Cert.ReferenceIdeal.defs _ _).mono (fun _ h c => ⟨(h c).1.trans ?_, (h c).2⟩)
      (Cert.ReferenceIdeal.RunH.run (F := Ideal) m' ρ')
    rw [(hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2]
    funext i
    obtain ⟨b, f, rfl⟩ : ∃ (b : Fin 32) (f : Fin 1024), i = ix2 b f := ⟨i 0, i 1, eq_ix2 i⟩
    rw [Cert.ReferenceIdeal.RefSpec.result_apply]
    exact ((Cert.KernelIdeal.Val.outA_apply m c Cert.KernelIdeal.Val.accStep_apply Cert.KernelIdeal.Val.accInit_apply
        Cert.KernelIdeal.Val.outblk_apply
        (Cert.KernelIdeal.Val.h3A_apply m c Cert.KernelIdeal.Val.h3blk_apply Cert.KernelIdeal.Val.gmblk_apply)
        (Cert.KernelIdeal.Val.gmA_apply m c Cert.KernelIdeal.Val.h3blk_apply Cert.KernelIdeal.Val.gmblk_apply) b f).trans rfl).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
